-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096 : Shape := ⟨1, ![4096]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .f32) (main_arg1 : FVec F S4096x128 .f32) (main_arg2 : IVec S4096 32) (main_arg3 : IVec S4096 32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Kernel.lean ====
abbrev S4096x128 : Shape := ⟨2, ![4096, 128]⟩
abbrev S4096 : Shape := ⟨1, ![4096]⟩
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S1024x128 : Shape := ⟨2, ![1024, 128]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩

abbrev nBuf : Space → Nat
  | .hbm => 20
  | .vmem => 10
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096, .i32⟩
  | .hbm, ⟨3, _⟩ => ⟨S4096, .i32⟩
  | .hbm, ⟨4, _⟩ => ⟨S8192x128, .f32⟩
  | .hbm, ⟨5, _⟩ => ⟨S8192, .i32⟩
  | .hbm, ⟨6, _⟩ => ⟨S8192x128, .bf16⟩
  | .hbm, ⟨7, _⟩ => ⟨S8192x1, .i32⟩
  | .hbm, ⟨8, _⟩ => ⟨S1x8192, .i32⟩
  | .hbm, ⟨9, _⟩ => ⟨S8192x1, .f32⟩
  | .hbm, ⟨10, _⟩ => ⟨S8192x1, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S1024x1, .i32⟩
  | .local _ .vmem, ⟨4, _⟩ => ⟨S1024x1, .i32⟩
  | .local _ .vmem, ⟨5, _⟩ => ⟨S1x8192, .i32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c1024_i32_6 : BitVec 32 := 1024#32
  let v12 : BitVec 32 := Scalar.muli c0_i32 c1024_i32_6
  v12
def k0_off1 (c0_i32 : BitVec 32) : Fin 2 → Nat :=
  let c1024_i32_6 : BitVec 32 := 1024#32
  let v12 : BitVec 32 := Scalar.muli c0_i32 c1024_i32_6
  let v13 : BitVec 32 := v12
  let v14 : Index := Scalar.indexCast v13
  let c0_7 : Index := 0#32
  ![v14.toNat, 0]
def k0_off2 (c0_i32 : BitVec 32) : Fin 2 → Nat :=
  let c0_8 : Index := 0#32
  let c1024_i32_6 : BitVec 32 := 1024#32
  let v12 : BitVec 32 := Scalar.muli c0_i32 c1024_i32_6
  let v13 : BitVec 32 := v12
  let v17 : Index := Scalar.indexCast v13
  ![0, v17.toNat]
def k0_mult2 : BitVec 32 :=
  let c1_i32 : BitVec 32 := 1#32
  let c1024_i32_15 : BitVec 32 := 1024#32
  let v57 : BitVec 32 := Scalar.muli c1_i32 c1024_i32_15
  v57
def k0_mult3 : BitVec 32 :=
  let c2_i32 : BitVec 32 := 2#32
  let c1024_i32_24 : BitVec 32 := 1024#32
  let v102 : BitVec 32 := Scalar.muli c2_i32 c1024_i32_24
  v102
def k0_mult4 : BitVec 32 :=
  let c3_i32 : BitVec 32 := 3#32
  let c1024_i32_33 : BitVec 32 := 1024#32
  let v147 : BitVec 32 := Scalar.muli c3_i32 c1024_i32_33
  v147
def k0_mult5 : BitVec 32 :=
  let c4_i32 : BitVec 32 := 4#32
  let c1024_i32_42 : BitVec 32 := 1024#32
  let v192 : BitVec 32 := Scalar.muli c4_i32 c1024_i32_42
  v192
def k0_mult6 : BitVec 32 :=
  let c5_i32 : BitVec 32 := 5#32
  let c1024_i32_51 : BitVec 32 := 1024#32
  let v237 : BitVec 32 := Scalar.muli c5_i32 c1024_i32_51
  v237
def k0_mult7 : BitVec 32 :=
  let c6_i32 : BitVec 32 := 6#32
  let c1024_i32_60 : BitVec 32 := 1024#32
  let v282 : BitVec 32 := Scalar.muli c6_i32 c1024_i32_60
  v282
def k0_mult8 : BitVec 32 :=
  let c7_i32 : BitVec 32 := 7#32
  let c1024_i32_69 : BitVec 32 := 1024#32
  let v327 : BitVec 32 := Scalar.muli c7_i32 c1024_i32_69
  v327
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S4096x128_S4096x128_S8192x128_d0 : Shape.Concatenates [S4096x128, S4096x128] S8192x128 0
  concatenates_S4096_S4096_S8192_d0 : Shape.Concatenates [S4096, S4096] S8192 0
  bitsLt_bf16_f32 : FTy.bits .bf16 < FTy.bits .f32
  shapeCasts_S8192_S8192x1 : S8192.ShapeCasts S8192x1
  shapeCasts_S8192_S1x8192 : S8192.ShapeCasts S1x8192
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1_d0_w32 : S1024x1.Iotas .tc 32 [0]
  h_S1x1024 : 0 < S1x1024.numel
  shapeCasts_S1x1024_S1x1024 : S1x1024.ShapeCasts S1x1024
  iota_S1x1024_d1_w32 : S1x1024.Iotas .tc 32 [1]
  broadcasts_S1024x1_S1024x1024 : S1024x1.Broadcasts S1024x1024
  broadcasts_S1x1024_S1024x1024 : S1x1024.Broadcasts S1024x1024
  natLt_1_32 : 1 < 32
  reduces_S1024x1024_S1024 : S1024x1024.Reduces [1] S1024
  shapeCasts_S1024_S1024x1 : S1024.ShapeCasts S1024x1
  shapeCasts_S8192x1_S8192 : S8192x1.ShapeCasts S8192
  reducesTo_S8192_S_d0 : S8192.ReducesTo [0] S_
  h_S_ : 0 < S_.numel
  dot_S1024x128_S1024x128_S1024x1024_1_1_0_0_n_n_wf : DotDims.WF S1024x128 S1024x128 S1024x1024 [1] [1] [0] [0] [] []
  hrank0 : 0 < grid0.rank
  k0_mult1_dvd : 1024 ∣ k0_mult1.toNat
  k0_off1_inb : ∀ (r : Fin 8), ∀ a, (k0_off1 (BitVec.ofNat 32 r.val)) a + S1024x128.size a ≤ S8192x128.size a
  k0_off2_inb : ∀ (r : Fin 8), ∀ a, (k0_off2 (BitVec.ofNat 32 r.val)) a + S1x1024.size a ≤ S1x8192.size a
  k0_mult2_dvd : 1024 ∣ k0_mult2.toNat
  k0_mult3_dvd : 1024 ∣ k0_mult3.toNat
  k0_mult4_dvd : 1024 ∣ k0_mult4.toNat
  k0_mult5_dvd : 1024 ∣ k0_mult5.toNat
  k0_mult6_dvd : 1024 ∣ k0_mult6.toNat
  k0_mult7_dvd : 1024 ∣ k0_mult7.toNat
  k0_mult8_dvd : 1024 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v2) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x128 : Shape := ⟨2, ![4096, 128]⟩
abbrev S4096 : Shape := ⟨1, ![4096]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8192x128 : Shape := ⟨2, ![8192, 128]⟩
abbrev S128x8192 : Shape := ⟨2, ![128, 8192]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096, .i32⟩
  | .hbm, ⟨3, _⟩ => ⟨S4096, .i32⟩
  | .hbm, ⟨4, _⟩ => ⟨S8192, .i32⟩
  | .hbm, ⟨5, _⟩ => ⟨S8192x1, .i32⟩
  | .hbm, ⟨6, _⟩ => ⟨S1x8192, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S8192x8192, .f32⟩
  | .hbm, ⟨11, _⟩ => ⟨S8192x128, .f32⟩
  | .hbm, ⟨12, _⟩ => ⟨S128x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x8192, .f32⟩
  | .hbm, ⟨21, _⟩ => ⟨S8192x8192, .f32⟩
  | .hbm, ⟨22, _⟩ => ⟨S8192x8192, .i32⟩
  | .hbm, ⟨23, _⟩ => ⟨S8192x8192, .i32⟩
  | .hbm, ⟨24, _⟩ => ⟨S_, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .i1⟩
  | .hbm, ⟨46, _⟩ => ⟨S8192x8192, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S8192, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S_, .f32⟩
  | .hbm, ⟨67, _⟩ => ⟨S_, .f32⟩
  | .hbm, ⟨68, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_cst_6 : Ref sig .tc := ⟨.hbm, 49, rfl⟩
abbrev main_call0_v0 : Ref sig .tc := ⟨.hbm, 50, rfl⟩
abbrev main_call0_v1 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_cst_10 : Ref sig .tc := ⟨.hbm, 62, rfl⟩
abbrev main_call1_v0 : Ref sig .tc := ⟨.hbm, 63, rfl⟩
abbrev main_call1_v1 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_v46 : Ref sig .tc := ⟨.hbm, 68, rfl⟩

abbrev nD : Nat := 1
abbrev τ : Topo := Topo.v7x

variable {F : FTy → Type} [FloatOps F]

class Facts₀ : Prop where
  concatenates_S4096_S4096_S8192_d0 : Shape.Concatenates [S4096, S4096] S8192 0
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  concatenates_S4096x128_S4096x128_S8192x128_d0 : Shape.Concatenates [S4096x128, S4096x128] S8192x128 0
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Chunk.lean ====
import proofs.«406051_j84928683311678_2_alg».proof.Proof.Gen.Kernel

/-!
# One row block's arithmetic, chunk by chunk

A grid point handles 1024 rows of the 8192 x 8192 similarity matrix and walks its 8192 columns in eight
chunks of 1024, keeping per row a running maximum `m`, a running denominator `l` (the sum of
`exp (s - m)` over the columns seen so far, the diagonal left out), the running sum `sm` of the positive
pairs' logits and their count `ms`. This module spells that arithmetic as ONE step function applied eight
times and a closing function, over the values the body loads (the row block, the row labels, and per chunk
the column block and the column labels), with exactly the operations of the printed body.
-/

noncomputable section

namespace Cert.Kernel.Hand

open Cert.Kernel Cert.Kernel.Gen Idealize.ShloMosaic Idealize.SL.Sem

variable {F : FTy → Type} [FloatOps F]

/-- The four running columns of a row block. -/
structure St (F : FTy → Type) where
  m : FVec F S1024x1 .f32
  l : FVec F S1024x1 .f32
  sm : FVec F S1024x1 .f32
  ms : FVec F S1024x1 .f32

/-- Before the first chunk: maximum `-∞`, the three sums zero. -/
def st0 : St F :=
  ⟨broadcast S1024x1 (Scalar.ofBits .f32 0xFF800000#32), broadcast S1024x1 (Scalar.ofBits .f32 0x00000000#32),
   broadcast S1024x1 (Scalar.ofBits .f32 0x00000000#32), broadcast S1024x1 (Scalar.ofBits .f32 0x00000000#32)⟩

/-- The global row index of each of the block's rows: `1024 * i + p`. -/
def rowIdx (i : grid0.Coords) : IVec S1024x1 32 :=
  addi (broadcast S1024x1 (Scalar.muli (BitVec.ofNat 32 (i 0).val) 1024#32)) (iota .tc S1024x1 32 [0] iota_S1024x1_d0_w32)

/-- The chunk's scaled similarities: the row block against the chunk's columns, times the inverse temperature constant. -/
def logits (x : FVec F S1024x128 .bf16) (yl : Vec F S1024x128 .bf16) : FVec F S1024x1024 .f32 :=
  mulf (matmul dot_S1024x128_S1024x128_S1024x1024_1_1_0_0_n_n none x (shapeCast S1024x128 yl shapeCasts_S1024x128_S1024x128) (constant S1024x1024 .f32 0x00000000#32))
    (broadcast S1024x1024 (Scalar.ofBits .f32 0x41649249#32))

/-- Off the diagonal: the row's global index differs from the column's (`1024 * r + j`). -/
def offDiag (ri : IVec S1024x1 32) (r : BitVec 32) : IVec S1024x1024 1 :=
  cmpi .ne (broadcastTo S1024x1024 ri broadcasts_S1024x1_S1024x1024)
    (broadcastTo S1024x1024 (addi (broadcast S1x1024 (Scalar.muli r 1024#32)) (iota .tc S1x1024 32 [1] iota_S1x1024_d1_w32)) broadcasts_S1x1024_S1024x1024)

/-- The off-diagonal mask as a float (0 or 1). -/
def offDiagF (ri : IVec S1024x1 32) (r : BitVec 32) : FVec F S1024x1024 .f32 :=
  sitofp .f32 (extui 32 (offDiag ri r) natLt_1_32)

/-- The positives' mask as a float: equal labels, off the diagonal. -/
def posF (ri lr : IVec S1024x1 32) (r : BitVec 32) (cl : Vec F S1x1024 .i32) : FVec F S1024x1024 .f32 :=
  sitofp .f32 (extui 32 (andi (cmpi .eq (broadcastTo S1024x1024 lr broadcasts_S1024x1_S1024x1024)
    (broadcastTo S1024x1024 (shapeCast S1x1024 cl shapeCasts_S1x1024_S1x1024) broadcasts_S1x1024_S1024x1024)) (offDiag ri r)) natLt_1_32)

/-- A lane sum of a 1024 x 1024 tile as a column. -/
def rowSum (v : FVec F S1024x1024 .f32) : FVec F S1024x1 .f32 :=
  shapeCast S1024x1 (multiReduction .add [1] S1024 v 0x00000000#32 reduces_S1024x1024_S1024 (.inl rfl) rfl) shapeCasts_S1024_S1024x1

/-- A lane maximum of a 1024 x 1024 tile as a column. -/
def rowMax (v : FVec F S1024x1024 .f32) : FVec F S1024x1 .f32 :=
  shapeCast S1024x1 (multiReduction .maximumf [1] S1024 v 0xFF800000#32 reduces_S1024x1024_S1024 (.inl rfl) rfl) shapeCasts_S1024_S1024x1

/-- One chunk: the new maximum, the denominator rescaled by `exp (m - m')` plus the chunk's off-diagonal
    `exp (s - m')`, the positives' logits and their count added. -/
def step (ri lr : IVec S1024x1 32) (x : FVec F S1024x128 .bf16) (r : BitVec 32) (yl : Vec F S1024x128 .bf16) (cl : Vec F S1x1024 .i32) (st : St F) : St F :=
  let s := logits x yl
  let m' := maximumf st.m (rowMax s)
  ⟨m',
   addf (mulf st.l (exp (subf st.m m'))) (rowSum (mulf (exp (subf s (broadcastTo S1024x1024 m' broadcasts_S1024x1_S1024x1024))) (offDiagF ri r))),
   addf st.sm (rowSum (mulf (posF ri lr r cl) s)),
   addf st.ms (rowSum (posF ri lr r cl))⟩

/-- A row is valid when it has a positive pair. -/
def validB (st : St F) : IVec S1024x1 1 :=
  cmpf .one st.ms (broadcast S1024x1 (Scalar.ofBits .f32 0x00000000#32))

/-- The row's loss contribution: `-(sm / ms - (m + log l))` where valid, else 0. -/
def contribOf (st : St F) : FVec F S1024x1 .f32 :=
  select (validB st)
    (mulf (broadcast S1024x1 (Scalar.ofBits .f32 0xBF800000#32))
      (subf (divf st.sm (select (validB st) st.ms (broadcast S1024x1 (Scalar.ofBits .f32 0x3F800000#32)))) (addf st.m (log st.l))))
    (broadcast S1024x1 (Scalar.ofBits .f32 0x00000000#32))

/-- The validity flag as a float. -/
def validOf (st : St F) : FVec F S1024x1 .f32 :=
  sitofp .f32 (extui 32 (validB st) natLt_1_32)

/-- The state after the eight chunks, from the loaded values: the row block `x0`, the row labels `l0`, and per
    chunk `r` the column block `ys r` and the column labels `cs r`. -/
def stEnd (i : grid0.Coords) (x0 : Vec F S1024x128 .bf16) (l0 : Vec F S1024x1 .i32)
    (ys : Fin 8 → Vec F S1024x128 .bf16) (cs : Fin 8 → Vec F S1x1024 .i32) : St F :=
  let x := shapeCast S1024x128 x0 shapeCasts_S1024x128_S1024x128
  let lr := shapeCast S1024x1 l0 shapeCasts_S1024x1_S1024x1
  let ri := rowIdx i
  step ri lr x 7#32 (ys 7) (cs 7) (step ri lr x 6#32 (ys 6) (cs 6) (step ri lr x 5#32 (ys 5) (cs 5) (step ri lr x 4#32 (ys 4) (cs 4)
    (step ri lr x 3#32 (ys 3) (cs 3) (step ri lr x 2#32 (ys 2) (cs 2) (step ri lr x 1#32 (ys 1) (cs 1) (step ri lr x 0#32 (ys 0) (cs 0) st0)))))))

/-- What the body stores into the contribution window's buffer, -/
def blockC (i : grid0.Coords) (x0 : Vec F S1024x128 .bf16) (l0 : Vec F S1024x1 .i32)
    (ys : Fin 8 → Vec F S1024x128 .bf16) (cs : Fin 8 → Vec F S1x1024 .i32) : FVec F S1024x1 .f32 :=
  contribOf (stEnd i x0 l0 ys cs)

/-- and into the validity window's. -/
def blockV (i : grid0.Coords) (x0 : Vec F S1024x128 .bf16) (l0 : Vec F S1024x1 .i32)
    (ys : Fin 8 → Vec F S1024x128 .bf16) (cs : Fin 8 → Vec F S1x1024 .i32) : FVec F S1024x1 .f32 :=
  validOf (stEnd i x0 l0 ys cs)

end Cert.Kernel.Hand

end
-- ==== Proof.K.Block.lean ====
import proofs.«406051_j84928683311678_2_alg».proof.Proof.Gen.Kernel.Launch
import proofs.«406051_j84928683311678_2_alg».proof.Proof.Gen.Kernel.Skeleton
import proofs.«406051_j84928683311678_2_alg».proof.Proof.Gen.Kernel.Points
import proofs.«406051_j84928683311678_2_alg».proof.Proof.K.Chunk
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The kernel body on its staging buffers

The body loads the row block and its labels whole, and per chunk `r` rows `1024 r … 1024 r + 1023` of the resident
column matrix and columns `1024 r …` of the resident label row; it stores the contribution column and the validity
column whole. This module names what it loads, what it leaves in the two output buffers, and proves the body's triple.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole row block, the whole label column, the whole output column. -/
abbrev rX : Rect S1024x128 := Rect.unit (s := S1024x128) ![0, 0] S1024x128.size inb_S1024x128_S1024x128_0_0
abbrev rW : Rect S1024x1 := Rect.unit (s := S1024x1) ![0, 0] S1024x1.size inb_S1024x1_S1024x1_0_0
/-- Chunk `r`'s rows of the resident column matrix, and its columns of the resident label row. -/
abbrev rY (r : Fin 8) : Rect S8192x128 := Rect.unit (s := S8192x128) (k0_off1 (BitVec.ofNat 32 r.val)) S1024x128.size (k0_off1_inb r)
abbrev rC (r : Fin 8) : Rect S1x8192 := Rect.unit (s := S1x8192) (k0_off2 (BitVec.ofNat 32 r.val)) S1x1024.size (k0_off2_inb r)

/-- What the body loads chunk by chunk. -/
def ysOf (x1 : Vec F S8192x128 .bf16) : Fin 8 → Vec F S1024x128 .bf16 := fun r => View.ld x1 (rY r)
def csOf (l1 : Vec F S1x8192 .i32) : Fin 8 → Vec F S1x1024 .i32 := fun r => View.ld l1 (rC r)

/-- The contribution window's buffer after the body, from the four input buffers' contents. -/
def out0_4 (i : grid0.Coords) (x0 : Vec F S1024x128 .bf16) (x1 : Vec F S8192x128 .bf16) (l0 : Vec F S1024x1 .i32) (l1 : Vec F S1x8192 .i32) : Vec F S1024x1 .f32 :=
  View.canon [⟨rW, blockC i (View.ld x0 rX) (View.ld l0 rW) (ysOf x1) (csOf l1)⟩]
/-- The validity window's. -/
def out0_5 (i : grid0.Coords) (x0 : Vec F S1024x128 .bf16) (x1 : Vec F S8192x128 .bf16) (l0 : Vec F S1024x1 .i32) (l1 : Vec F S1x8192 .i32) : Vec F S1024x1 .f32 :=
  View.canon [⟨rW, blockV i (View.ld x0 rX) (View.ld l0 rW) (ysOf x1) (csOf l1)⟩]

/-- The values the body's successive stretches of statements hand one another, from the loaded values: the row block
    `v0`, the row labels `v2`, chunk `r`'s column block `ys r` and column labels `cs r`. The body interleaves the chunks
    (a chunk's sums are finished while the next chunk's tile and maximum are already computed), so the values are listed in
    the body's order. The pair returned is the validity mask and the contribution column the body stores. The running maximum after chunks 0 … 6 is `v39 v84 v129 v174 v219 v264
    v309`, the denominator after chunks 2 … 6 is `v139 v184 v229 v274 v319` (chunk 0's and 1's are inside `v91` and
    `v139`), the positives' logit sum after chunks 0, 1, 3 … 6 is `v53 v98 v188 v233 v278 v323`, their count after
    chunks 0, 1, 2, 4, 5, 6 is `v56 v101 v146 v236 v281 v326`. -/
def bodyVals (i : grid0.Coords) (v0 : Vec F S1024x128 .bf16) (v2 : Vec F S1024x1 .i32)
    (ys : Fin 8 → Vec F S1024x128 .bf16) (cs : Fin 8 → Vec F S1x1024 .i32) : IVec S1024x1 1 × FVec F S1024x1 .f32 :=
  -- the first chunk's tile, masks, maximum and rescaling
  let v1 := k0_pay2 v0
  let v3 := k0_pay3 v2
  let v7 := k0_pay4 i
  let v9 : FVec F S1024x1 .f32 := k0_pay6
  let v10 : FVec F S1024x1 .f32 := k0_pay7
  let v11 : FVec F S1024x1 .f32 := k0_pay8
  let v22 := k0_pay9 v0 (ys 0)
  let v30 : FVec F S1024x1024 .f32 := k0_pay11 i
  let v36 := k0_pay12 i v2 (cs 0)
  let v39 := k0_pay13 v0 (ys 0)
  let v41 := k0_pay14 v0 (ys 0)
  let v42 := k0_pay15 v0 (ys 0)
  -- the first chunk's sums, the second chunk's tile, mask and maximum
  let v53 := k0_pay16 v10 v22 v36
  let v56 := k0_pay17 v11 v36
  let v67 := k0_pay18 v1 (ys 1)
  let v81 := k0_pay20 v3 v7 (cs 1)
  let v84 := k0_pay21 v1 v39 (ys 1)
  let v90 := k0_pay22 v1 v7 v39 (ys 1)
  let v91 := k0_pay23 v1 v9 v22 v30 v39 v41 v42 (ys 1)
  -- the second chunk's sums, the third chunk
  let v98 := k0_pay24 v53 v67 v81
  let v101 := k0_pay25 v56 v81
  let v126 := k0_pay28 v3 v7 (cs 2)
  let v129 := k0_pay29 v1 v84 (ys 2)
  let v139 := k0_pay30 v1 v7 v84 v90 v91 (ys 2)
  let v140 := k0_pay31 v1 v3 v7 (ys 2) (cs 2)
  -- the fourth chunk
  let v146 := k0_pay32 v101 v126
  let v174 := k0_pay36 v1 v129 (ys 3)
  let v184 := k0_pay37 v1 v7 v129 v139 (ys 3)
  let v188 := k0_pay38 v1 v3 v7 v98 v140 (ys 3) (cs 3)
  let v189 := k0_pay39 v3 v7 (cs 3)
  -- the fifth chunk
  let v219 := k0_pay43 v1 v174 (ys 4)
  let v229 := k0_pay44 v1 v7 v174 v184 (ys 4)
  let v233 := k0_pay45 v1 v3 v7 v188 (ys 4) (cs 4)
  let v236 := k0_pay46 v3 v7 v146 v189 (cs 4)
  let v237 : BitVec 32 := Scalar.muli 5#32 1024#32
  -- the sixth chunk
  let v264 := k0_pay50 v1 v219 (ys 5)
  let v274 := k0_pay51 v1 v7 v219 v229 v237 (ys 5)
  let v278 := k0_pay52 v1 v3 v7 v233 v237 (ys 5) (cs 5)
  let v281 := k0_pay53 v3 v7 v236 v237 (cs 5)
  let v283 : BitVec 32 := Scalar.muli 6#32 1024#32
  let v286 := k0_pay54 (ys 6)
  -- the seventh chunk
  let v309 := k0_pay58 v1 v264 v286
  let v319 := k0_pay59 v1 v7 v264 v274 v283 v286
  let v323 := k0_pay60 v1 v3 v7 v278 v283 v286 (cs 6)
  let v326 := k0_pay61 v3 v7 v281 v283 (cs 6)
  let v328 : BitVec 32 := Scalar.muli 7#32 1024#32
  let v331 := k0_pay62 (ys 7)
  let v334 := k0_pay63 (cs 7)
  let cst_72 : FVec F S1024x1024 .f32 := constant S1024x1024 .f32 0x00000000#32
  -- the eighth chunk and the closing
  (k0_pay67 v3 v7 v326 v328 v334, k0_pay68 v1 v3 v7 v309 v319 v323 v326 v328 v331 v334 cst_72)

set_option maxHeartbeats 2000000 in
set_option maxRecDepth 65536 in
/-- The contribution column the body stores is the closing function of the eight chunk steps: the running columns the
    parts hand one another are, chunk by chunk, the step's maximum, rescaled denominator, logit sum and count. -/
theorem stored_C (i : grid0.Coords) (v0 : Vec F S1024x128 .bf16) (v2 : Vec F S1024x1 .i32)
    (ys : Fin 8 → Vec F S1024x128 .bf16) (cs : Fin 8 → Vec F S1x1024 .i32) :
    (bodyVals i v0 v2 ys cs).2 = blockC i v0 v2 ys cs := rfl

set_option maxHeartbeats 2000000 in
set_option maxRecDepth 65536 in
/-- The validity column the body stores is the float of "the count of positives after the eight chunks is not zero". -/
theorem stored_V (i : grid0.Coords) (v0 : Vec F S1024x128 .bf16) (v2 : Vec F S1024x1 .i32)
    (ys : Fin 8 → Vec F S1024x128 .bf16) (cs : Fin 8 → Vec F S1x1024 .i32) :
    k0_pay1 (bodyVals i v0 v2 ys cs).1 = blockV i v0 v2 ys cs := rfl

/-- One store of the whole 1024 x 1 column covers the buffer. -/
theorem cover0 (p0 : Vec F S1024x1 .f32) (y : S1024x1.Idx) :
    ∃ pc ∈ ([⟨rW, p0⟩] : List (View.Piece (Elt F) S1024x1 .f32)), y ∈ pc.1.set :=
  View.cover_of_tiled [⟨rW, p0⟩] S1024x1.size (by rfl) y

set_option maxHeartbeats 2000000 in
/-- The body on whole staging memrefs: the four inputs' at contents `x0 x1 l0 l1`, the outputs' at anything; it
    leaves the inputs' as they were and the outputs' at `out0_4`, `out0_5` of the inputs'. -/
theorem sound_kernel0 (c : Dev nD) (E : Set ℕ) (i : grid0.Coords)
    (arg1 : Memref sig .tc .vmem S1024x128 .bf16) (harg1 : arg1.IsWhole) (arg2 : Memref sig .tc .vmem S8192x128 .bf16) (harg2 : arg2.IsWhole)
    (arg3 : Memref sig .tc .vmem S1024x1 .i32) (harg3 : arg3.IsWhole) (arg4 : Memref sig .tc .vmem S1x8192 .i32) (harg4 : arg4.IsWhole)
    (arg5 : Memref sig .tc .vmem S1024x1 .f32) (harg5 : arg5.IsWhole) (arg6 : Memref sig .tc .vmem S1024x1 .f32) (harg6 : arg6.IsWhole)
    (x0 : Vec F S1024x128 .bf16) (x1 : Vec F S8192x128 .bf16) (l0 : Vec F S1024x1 .i32) (l1 : Vec F S1x8192 .i32) (K : PUnit → sProp 𝕄) :
    iprop(owns (c : Thread nD τ) arg1 fullShare x0 ∗ owns (c : Thread nD τ) arg2 fullShare x1
        ∗ owns (c : Thread nD τ) arg3 fullShare l0 ∗ owns (c : Thread nD τ) arg4 fullShare l1
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare l0 ∗ owns (c : Thread nD τ) arg4 fullShare l1
            ∗ owns (c : Thread nD τ) arg5 fullShare (out0_4 i x0 x1 l0 l1) ∗ owns (c : Thread nD τ) arg6 fullShare (out0_5 i x0 x1 l0 l1)) -∗ K ⟨⟩))
      ⊢ wp frame (wpE (defs₀ (F := F)) Variants.none c none) E
          (cc0__supcon_kernel i arg1 harg1 arg2 harg2 arg3 harg3 arg4 harg4 arg5 harg5 arg6 harg6) K := by
  simp only [cc0__supcon_kernel_eq_skeleton]; unfold cc0__supcon_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover0 _)).trans ?_
    unfold out0_4
    rw [← stored_C]
    rfl
  · iexists _; isplitr
    swap; · iexact H6
    ipureintro
    refine (View.read_writes_eq_canon _ _ _ (cover0 _)).trans ?_
    unfold out0_5
    rw [← stored_V]
    rfl

end Cert.Kernel.Hand

end
-- ==== Proof.K.Data.lean ====
import proofs.«406051_j84928683311678_2_alg».proof.Proof.K.Block

/-!
# The pipeline's proof data and the body obligation

At the region's entry the TensorCore's buffers hold contents `V`. Window 0 stages rows `1024 t …` of the feature
matrix, window 1 the whole feature matrix (the same array, read a second time), window 2 rows `1024 t …` of the
label column, window 3 the whole label row; windows 4 and 5 write the contribution and validity columns back at
rows `1024 t …`. The two windows on the feature matrix hold it at the two halves of the full share.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: the arrays as the region finds them; after the body each input's buffer at its block and each
    output's at what the body stores there from the four input blocks; the class invariant (the scoped rest and the
    generator register, untouched); nothing owed; the feature matrix's share halved between its two windows. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (grid0.coords t) (iblk0 V c 0 t) (iblk0 V c 1 t) (iblk0 V c 2 t) (iblk0 V c 3 t)
    | ⟨5, _⟩ => out0_5 (grid0.coords t) (iblk0 V c 0 t) (iblk0 V c 1 t) (iblk0 V c 2 t) (iblk0 V c 3 t)
  Φ _ := Pipeline.ΦA spec0 c
  q w := match w with
    | ⟨0, _⟩ => fullShare.left
    | ⟨1, _⟩ => fullShare.right
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (grid0.coords t) (iblk0 V c 0 t) (iblk0 V c 1 t) (iblk0 V c 2 t) (iblk0 V c 3 t) := by dsimp only [dat0]
theorem after0_5 (c : Dev nD) (t : Fin cfg0.N) :
    (dat0 V c).after 5 t = out0_5 (grid0.coords t) (iblk0 V c 0 t) (iblk0 V c 1 t) (iblk0 V c 2 t) (iblk0 V c 3 t) := by dsimp only [dat0]

/-- Each input's current staging buffer holds its block at every point, fetched there or not: where the pipeline
    fetches, the fetch puts the block there; where it does not, the block index has not moved since the previous
    point, the body left the block in place, and the previous point's block is this point's. None of the four input
    windows is cut, so a fetch fills the whole buffer and the body's leaving is the block itself. -/
theorem before0_0 (c : Dev nD) (t : Fin cfg0.N) (d) : (dat0 V c).before 0 t d = iblk0 V c 0 t := by
  have hkeep : ∀ s, (cfg0.win 0).cut (cfg0.grid.coords s) ((dat0 V c).after 0 s) = (dat0 V c).blockOf 0 s := by
    intro s; rw [after0_0]; unfold Dat.blockOf iblk0; rw [A_eq0]; try rfl
  refine ((dat0 V c).before_in_eq_fetched 0 rfl (fun _ => rfl) (fun _ _ _ => rfl) hkeep t d).trans ?_
  unfold Dat.fetched Dat.blockOf iblk0; rw [A_eq0]; try rfl
theorem before0_1 (c : Dev nD) (t : Fin cfg0.N) (d) : (dat0 V c).before 1 t d = iblk0 V c 1 t := by
  have hkeep : ∀ s, (cfg0.win 1).cut (cfg0.grid.coords s) ((dat0 V c).after 1 s) = (dat0 V c).blockOf 1 s := by
    intro s; rw [after0_1]; unfold Dat.blockOf iblk0; rw [A_eq0]; try rfl
  refine ((dat0 V c).before_in_eq_fetched 1 rfl (fun _ => rfl) (fun _ _ _ => rfl) hkeep t d).trans ?_
  unfold Dat.fetched Dat.blockOf iblk0; rw [A_eq0]; try rfl
theorem before0_2 (c : Dev nD) (t : Fin cfg0.N) (d) : (dat0 V c).before 2 t d = iblk0 V c 2 t := by
  have hkeep : ∀ s, (cfg0.win 2).cut (cfg0.grid.coords s) ((dat0 V c).after 2 s) = (dat0 V c).blockOf 2 s := by
    intro s; rw [after0_2]; unfold Dat.blockOf iblk0; rw [A_eq0]; try rfl
  refine ((dat0 V c).before_in_eq_fetched 2 rfl (fun _ => rfl) (fun _ _ _ => rfl) hkeep t d).trans ?_
  unfold Dat.fetched Dat.blockOf iblk0; rw [A_eq0]; try rfl
theorem before0_3 (c : Dev nD) (t : Fin cfg0.N) (d) : (dat0 V c).before 3 t d = iblk0 V c 3 t := by
  have hkeep : ∀ s, (cfg0.win 3).cut (cfg0.grid.coords s) ((dat0 V c).after 3 s) = (dat0 V c).blockOf 3 s := by
    intro s; rw [after0_3]; unfold Dat.blockOf iblk0; rw [A_eq0]; try rfl
  refine ((dat0 V c).before_in_eq_fetched 3 rfl (fun _ => rfl) (fun _ _ _ => rfl) hkeep t d).trans ?_
  unfold Dat.fetched Dat.blockOf iblk0; rw [A_eq0]; try rfl

/-- What the body is handed at point `t`: the class invariant, what the core owes, the four inputs' current staging
    buffers at what they then hold and the two outputs' at some contents, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it hands back: the same invariant and debt at the next point, every buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the four inputs' buffers hold their blocks, the two outputs' anything, so the body's
    triple applies at the four blocks; the invariant and the debt are the same at consecutive points and pass
    through unread; the inputs come back as they were and the outputs at the contribution and validity columns of
    the four blocks, which is what the proof data says the body leaves. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Host.lean ====
import proofs.«406051_j84928683311678_2_alg».proof.Proof.K.Data

/-!
# The buffer contents at each boundary of the program

The program runs five host operations (it stacks the two feature halves, stacks the two label halves, rounds the
stacked features to bf16, and views the stacked labels once as a column and once as a row), then the region, then nine
host operations (it views the two result columns as vectors, sums each, clamps the validity sum below by one, and
divides). This module names what every buffer holds at launch, at the region's entry, at its exit (the two result
columns at what the write-backs leave, every other buffer as entered) and at the return, and reads off: the arguments
are never written, the region's inputs are the operations' terms of the arguments, and the scalar result is the
operations' term of the two result columns.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev W0 : Dev nD → Valuation τ sig (Elt F) := fun c b => (s₀ m ρ).mem ((c : Dev nD), b)
/-- After the five host operations before the region: the region's entry. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- At the region's exit: the contribution column and the validity column at what the eight write-backs leave, every
    other buffer as entered (the feature matrix, read through two windows, among them). -/
def W2 (c : Dev nD) : Valuation τ sig (Elt F) :=
  Function.update (Function.update (W1 m ρ c) (Proc.devRef .tc main_v5_0) ((dat0 (V1 m ρ) c).arrAt 4 cfg0.N)) (Proc.devRef .tc main_v5_1) ((dat0 (V1 m ρ) c).arrAt 5 cfg0.N)
/-- The same, read at the TensorCore's references. -/
abbrev V2 : (c : Dev nD) → (b : Ref sig .tc) → Buf (Elt F) ((c : Thread nD τ).loc b) := fun c b => W2 m ρ c b
/-- After the nine host operations after the region: the return. -/
abbrev W3 : Dev nD → Valuation τ sig (Elt F) := fun c => StableHlo.after hostOps1 (W2 m ρ c)

/-! ## The region's exit -/

/-- The validity column holds what its write-backs leave. -/
theorem W2_v5_1 (c : Dev nD) : W2 m ρ c (Proc.devRef .tc main_v5_1) = (dat0 (V1 m ρ) c).arrAt 5 cfg0.N := by
  unfold W2; exact Function.update_self _ _ _
/-- The contribution column holds what its write-backs leave: it is another buffer than the validity column. -/
theorem W2_v5_0 (c : Dev nD) : W2 m ρ c (Proc.devRef .tc main_v5_0) = (dat0 (V1 m ρ) c).arrAt 4 cfg0.N := by
  unfold W2
  rw [Function.update_of_ne (StableHlo.devRef_ne_of_ne (by decide)), Function.update_self]
/-- Every buffer other than the two result columns holds what it held at the region's entry. -/
theorem W2_of_ne (c : Dev nD) (b : Ref sig .tc) (h0 : b ≠ main_v5_0) (h1 : b ≠ main_v5_1) :
    W2 m ρ c (Proc.devRef .tc b) = W1 m ρ c (Proc.devRef .tc b) := by
  unfold W2
  rw [Function.update_of_ne (StableHlo.devRef_ne_of_ne h1), Function.update_of_ne (StableHlo.devRef_ne_of_ne h0)]

/-- At the region's exit each window's array holds what the pipeline leaves there: an input's array is never written
    back, so it holds its entry contents, which the exit contents keep; an output's array is one of the two columns. -/
theorem hF0 (c : Dev nD) (w : Fin cfg0.W) : (dat0 (V1 m ρ) c).arrAt w cfg0.N = V2 m ρ c (Pipeline.arrRef spec0 w) :=
  match w with
  | ⟨0, _⟩ => (((dat0 (V1 m ρ) c).arrAt_in 0 rfl _).trans (A_eq0 (V1 m ρ) c 0)).trans (W2_of_ne m ρ c main_v2 (by decide) (by decide)).symm
  | ⟨1, _⟩ => (((dat0 (V1 m ρ) c).arrAt_in 1 rfl _).trans (A_eq0 (V1 m ρ) c 1)).trans (W2_of_ne m ρ c main_v2 (by decide) (by decide)).symm
  | ⟨2, _⟩ => (((dat0 (V1 m ρ) c).arrAt_in 2 rfl _).trans (A_eq0 (V1 m ρ) c 2)).trans (W2_of_ne m ρ c main_v3 (by decide) (by decide)).symm
  | ⟨3, _⟩ => (((dat0 (V1 m ρ) c).arrAt_in 3 rfl _).trans (A_eq0 (V1 m ρ) c 3)).trans (W2_of_ne m ρ c main_v4 (by decide) (by decide)).symm
  | ⟨4, _⟩ => (W2_v5_0 m ρ c).symm
  | ⟨5, _⟩ => (W2_v5_1 m ρ c).symm
/-- Every buffer that is no window's array holds at the exit what it held at the entry. -/
theorem hrest0 (c : Dev nD) : ∀ b, b ∉ Finset.univ.image (Pipeline.arrRef spec0) → V2 m ρ c b = V1 m ρ c b :=
  fun b hb => W2_of_ne m ρ c b
    (fun e => hb (Finset.mem_image.mpr ⟨4, Finset.mem_univ _, e.symm⟩))
    (fun e => hb (Finset.mem_image.mpr ⟨5, Finset.mem_univ _, e.symm⟩))

/-! ## No host operation allocates -/

/-- None of the five operations before the region allocates a buffer. -/
theorem hostOps0_fresh : (hostOps0 : List (HloOp τ sig (Elt F))).Forall fun op => op.fresh = ∅ := by
  simp only [List.Forall]; repeat' constructor
/-- None of the nine operations after the region allocates a buffer. -/
theorem hostOps1_fresh : (hostOps1 : List (HloOp τ sig (Elt F))).Forall fun op => op.fresh = ∅ := by
  simp only [List.Forall]; repeat' constructor

/-! ## The arguments end as launched

No host operation writes an argument, and the region writes the two result columns only; so an argument's buffer holds
at the return what it held at launch. -/

/-- No operation after the region writes the reference `r`, when `r` is none of the nine results. -/
theorem hostOps1_keeps (V : Valuation τ sig (Elt F)) (r : Ref sig .tc)
    (h : r ≠ main_v6 ∧ r ≠ main_v7 ∧ r ≠ main_cst ∧ r ≠ main_v8 ∧ r ≠ main_cst_0 ∧ r ≠ main_v9 ∧ r ≠ main_cst_1 ∧ r ≠ main_v10 ∧ r ≠ main_v11) :
    StableHlo.after hostOps1 V (Proc.devRef .tc r) = V (Proc.devRef .tc r) := by
  obtain ⟨h1, h2, h3, h4, h5, h6, h7, h8, h9⟩ := h
  refine StableHlo.after_of_forall_not_mem (b := Proc.devRef .tc r) _ _ (List.forall_iff_forall_mem.mp ?_)
  simp only [hostOps1, List.Forall, StableHlo.nullary_writes, StableHlo.unary_writes, StableHlo.binary_writes,
    StableHlo.reshape_writes, Finset.mem_singleton]
  exact ⟨StableHlo.devRef_ne_of_ne h1, StableHlo.devRef_ne_of_ne h2, StableHlo.devRef_ne_of_ne h3, StableHlo.devRef_ne_of_ne h4,
    StableHlo.devRef_ne_of_ne h5, StableHlo.devRef_ne_of_ne h6, StableHlo.devRef_ne_of_ne h7, StableHlo.devRef_ne_of_ne h8,
    StableHlo.devRef_ne_of_ne h9⟩
/-- No operation before the region writes the reference `r`, when `r` is none of the five results. -/
theorem hostOps0_keeps (V : Valuation τ sig (Elt F)) (r : Ref sig .tc)
    (h : r ≠ main_v0 ∧ r ≠ main_v1 ∧ r ≠ main_v2 ∧ r ≠ main_v3 ∧ r ≠ main_v4) :
    StableHlo.after hostOps0 V (Proc.devRef .tc r) = V (Proc.devRef .tc r) := by
  obtain ⟨h1, h2, h3, h4, h5⟩ := h
  refine StableHlo.after_of_forall_not_mem (b := Proc.devRef .tc r) _ _ (List.forall_iff_forall_mem.mp ?_)
  simp only [hostOps0, List.Forall, StableHlo.nullary_writes, StableHlo.unary_writes, StableHlo.binary_writes,
    StableHlo.reshape_writes, Finset.mem_singleton]
  exact ⟨StableHlo.devRef_ne_of_ne h1, StableHlo.devRef_ne_of_ne h2, StableHlo.devRef_ne_of_ne h3, StableHlo.devRef_ne_of_ne h4,
    StableHlo.devRef_ne_of_ne h5⟩

/-- A buffer that no host operation and no write-back touches holds at the return what it held at launch. -/
theorem W3_of_untouched (c : Dev nD) (r : Ref sig .tc)
    (h1 : r ≠ main_v6 ∧ r ≠ main_v7 ∧ r ≠ main_cst ∧ r ≠ main_v8 ∧ r ≠ main_cst_0 ∧ r ≠ main_v9 ∧ r ≠ main_cst_1 ∧ r ≠ main_v10 ∧ r ≠ main_v11)
    (h50 : r ≠ main_v5_0) (h51 : r ≠ main_v5_1)
    (h0 : r ≠ main_v0 ∧ r ≠ main_v1 ∧ r ≠ main_v2 ∧ r ≠ main_v3 ∧ r ≠ main_v4) :
    W3 m ρ c (Proc.devRef .tc r) = m ((c : Thread nD τ).loc r) :=
  calc W3 m ρ c (Proc.devRef .tc r)
    _ = W2 m ρ c (Proc.devRef .tc r) := hostOps1_keeps (W2 m ρ c) r h1
    _ = W1 m ρ c (Proc.devRef .tc r) := W2_of_ne m ρ c r h50 h51
    _ = W0 m ρ c (Proc.devRef .tc r) := hostOps0_keeps (W0 m ρ c) r h0
    _ = m ((c : Thread nD τ).loc r) := rfl

theorem W3_main_arg0 (c : Dev nD) : W3 m ρ c (Proc.devRef .tc main_arg0) = m ((c : Thread nD τ).loc main_arg0) :=
  W3_of_untouched m ρ c main_arg0 (by decide) (by decide) (by decide) (by decide)
theorem W3_main_arg1 (c : Dev nD) : W3 m ρ c (Proc.devRef .tc main_arg1) = m ((c : Thread nD τ).loc main_arg1) :=
  W3_of_untouched m ρ c main_arg1 (by decide) (by decide) (by decide) (by decide)
theorem W3_main_arg2 (c : Dev nD) : W3 m ρ c (Proc.devRef .tc main_arg2) = m ((c : Thread nD τ).loc main_arg2) :=
  W3_of_untouched m ρ c main_arg2 (by decide) (by decide) (by decide) (by decide)
theorem W3_main_arg3 (c : Dev nD) : W3 m ρ c (Proc.devRef .tc main_arg3) = m ((c : Thread nD τ).loc main_arg3) :=
  W3_of_untouched m ρ c main_arg3 (by decide) (by decide) (by decide) (by decide)

/-! ## What the region finds in its inputs

The feature matrix the region reads is the two feature halves stacked and rounded to bf16; the label column and the
label row are the two label halves stacked, viewed as a column and as a row. -/

theorem V1_main_v2 (c : Dev nD) :
    (V1 m ρ c main_v2 : Vec F S8192x128 .bf16)
      = truncf .bf16 (concatenate S8192x128 0 [⟨S4096x128, (m ((c : Thread nD τ).loc main_arg0) : Vec F S4096x128 .f32)⟩, ⟨S4096x128, (m ((c : Thread nD τ).loc main_arg1) : Vec F S4096x128 .f32)⟩] concatenates_S4096x128_S4096x128_S8192x128_d0 : Vec F S8192x128 .f32) bitsLt_bf16_f32 := by
  show StableHlo.after hostOps0 (W0 m ρ c) (Proc.devRef .tc main_v2) = _
  dsimp only [hostOps0]
  after_results

theorem V1_main_v3 (c : Dev nD) :
    (V1 m ρ c main_v3 : Vec F S8192x1 .i32)
      = shapeCast S8192x1 (concatenate S8192 0 [⟨S4096, (m ((c : Thread nD τ).loc main_arg2) : Vec F S4096 .i32)⟩, ⟨S4096, (m ((c : Thread nD τ).loc main_arg3) : Vec F S4096 .i32)⟩] concatenates_S4096_S4096_S8192_d0 : Vec F S8192 .i32) shapeCasts_S8192_S8192x1 := by
  show StableHlo.after hostOps0 (W0 m ρ c) (Proc.devRef .tc main_v3) = _
  dsimp only [hostOps0]
  after_results
  rfl

theorem V1_main_v4 (c : Dev nD) :
    (V1 m ρ c main_v4 : Vec F S1x8192 .i32)
      = shapeCast S1x8192 (concatenate S8192 0 [⟨S4096, (m ((c : Thread nD τ).loc main_arg2) : Vec F S4096 .i32)⟩, ⟨S4096, (m ((c : Thread nD τ).loc main_arg3) : Vec F S4096 .i32)⟩] concatenates_S4096_S4096_S8192_d0 : Vec F S8192 .i32) shapeCasts_S8192_S1x8192 := by
  show StableHlo.after hostOps0 (W0 m ρ c) (Proc.devRef .tc main_v4) = _
  dsimp only [hostOps0]
  after_results
  rfl

/-! ## The scalar result

The nine operations after the region view each result column as a vector of 8192 entries, sum the contributions and
sum the validities (each from zero), clamp the validity sum below by one, and divide the contribution sum by it. -/

theorem W3_result (c : Dev nD) :
    (W3 m ρ c (Proc.devRef .tc main_v11) : Vec F S_ .f32)
      = Host.divf
          (Host.reduceAdd (shapeCast S8192 ((dat0 (V1 m ρ) c).arrAt 4 cfg0.N : Vec F S8192x1 .f32) shapeCasts_S8192x1_S8192 : Vec F S8192 .f32)
            (constant S_ .f32 0x00000000#32 : Vec F S_ .f32) reducesTo_S8192_S_d0 h_S_ : Vec F S_ .f32)
          (maximumf
            (Host.reduceAdd (shapeCast S8192 ((dat0 (V1 m ρ) c).arrAt 5 cfg0.N : Vec F S8192x1 .f32) shapeCasts_S8192x1_S8192 : Vec F S8192 .f32)
              (constant S_ .f32 0x00000000#32 : Vec F S_ .f32) reducesTo_S8192_S_d0 h_S_ : Vec F S_ .f32)
            (constant S_ .f32 0x3F800000#32 : Vec F S_ .f32) : Vec F S_ .f32) := by
  show StableHlo.after hostOps1 (W2 m ρ c) (Proc.devRef .tc main_v11) = _
  dsimp only [hostOps1]
  after_results
  rw [W2_v5_0, W2_v5_1]
  rfl

end Cert.Kernel.Hand

end
-- ==== Proof.K.Launch.lean ====
import proofs.«406051_j84928683311678_2_alg».proof.Proof.K.Host

/-!
# The launch: @main as host operations, the region, host operations

@main stacks the two feature arrays and the two label arrays, rounds the features, reshapes the labels to a column
and to a row (five host operations), runs the kernel region, and then reshapes the two result columns, sums each,
and divides the contribution sum by the larger of the validity count and 1 (nine host operations). The thread state
between the segments is "every unscoped buffer at the boundary's contents". At the region's entry the arrays are
split out of it — the feature matrix, read by two windows, at the two halves of the full share — and at its exit
they are put back, the two halves joined, the two result columns at what the pipeline's write-backs leave.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays and the buffers behind them -/

section Shares

variable (V : (c : Dev nD) → (b : Ref sig .tc) → Buf (Elt F) ((c : Thread nD τ).loc b))

/-- The buffers behind the six windows' arrays, listed: the feature matrix once. -/
theorem arrBufs_eq (c : Dev nD) (G : (b : Ref sig .tc) → Buf (Elt F) ((c : Thread nD τ).loc b)) :
    (Pipeline.arrBufs (Ix := Unit) (Name := ℕ) (U := UR sig nD τ) (Lvl := ℕ) spec0 c G : sProp 𝕄)
      = iprop((((c : Thread nD τ).loc main_v2) ↦{fullShare} G main_v2) ∗ (((c : Thread nD τ).loc main_v3) ↦{fullShare} G main_v3)
          ∗ (((c : Thread nD τ).loc main_v4) ↦{fullShare} G main_v4) ∗ (((c : Thread nD τ).loc main_v5_0) ↦{fullShare} G main_v5_0)
          ∗ (((c : Thread nD τ).loc main_v5_1) ↦{fullShare} G main_v5_1)) := by
  unfold Pipeline.arrBufs
  exact bigSep_eq_bigSepL_of_eq [main_v2, main_v3, main_v4, main_v5_0, main_v5_1] (by decide) (by decide) _

theorem share0 (c : Dev nD) : (dat0 V c).share 0 = fullShare.left := by unfold Dat.share; rfl
theorem share1 (c : Dev nD) : (dat0 V c).share 1 = fullShare.right := by unfold Dat.share; rfl
theorem share2 (c : Dev nD) : (dat0 V c).share 2 = fullShare := by unfold Dat.share; rfl
theorem share3 (c : Dev nD) : (dat0 V c).share 3 = fullShare := by unfold Dat.share; rfl
theorem share4 (c : Dev nD) : (dat0 V c).share 4 = fullShare := by unfold Dat.share; rfl
theorem share5 (c : Dev nD) : (dat0 V c).share 5 = fullShare := by unfold Dat.share; rfl

/-- The pipeline's arrays at contents read off `G`, listed window by window at their shares. -/
theorem arrays_eq_list (c : Dev nD) (G : (b : Ref sig .tc) → Buf (Elt F) ((c : Thread nD τ).loc b))
    (Fw : (w : Fin cfg0.W) → Buf (Elt F) ((cfg0.win w).arr.view.loc (c : Thread nD τ))) (hF : ∀ w, Fw w = G (Pipeline.arrRef spec0 w)) :
    ((dat0 V c).arrays Fw : sProp 𝕄)
      = iprop((((c : Thread nD τ).loc main_v2) ↦{fullShare.left} G main_v2) ∗ (((c : Thread nD τ).loc main_v2) ↦{fullShare.right} G main_v2)
          ∗ (((c : Thread nD τ).loc main_v3) ↦{fullShare} G main_v3) ∗ (((c : Thread nD τ).loc main_v4) ↦{fullShare} G main_v4)
          ∗ (((c : Thread nD τ).loc main_v5_0) ↦{fullShare} G main_v5_0) ∗ (((c : Thread nD τ).loc main_v5_1) ↦{fullShare} G main_v5_1)) := by
  unfold Dat.arrays
  rw [bigSep_W0]
  rw [(arr_whole0 0).set_eq_univ, (arr_whole0 2).set_eq_univ, (arr_whole0 3).set_eq_univ, (arr_whole0 4).set_eq_univ, (arr_whole0 5).set_eq_univ]
  rw [share0, share1, share2, share3, share4, share5, hF 0, hF 1, hF 2, hF 3, hF 4, hF 5]

/-- The buffers behind the arrays, whole, ARE the pipeline's arrays: the feature matrix's full share is the two
    windows' halves. -/
theorem arrays_iff_arrBufs (c : Dev nD) (G : (b : Ref sig .tc) → Buf (Elt F) ((c : Thread nD τ).loc b))
    (Fw : (w : Fin cfg0.W) → Buf (Elt F) ((cfg0.win w).arr.view.loc (c : Thread nD τ))) (hF : ∀ w, Fw w = G (Pipeline.arrRef spec0 w)) :
    ((dat0 V c).arrays Fw : sProp 𝕄) ⊣⊢ Pipeline.arrBufs (Ix := Unit) (Name := ℕ) (U := UR sig nD τ) (Lvl := ℕ) spec0 c G := by
  rw [arrays_eq_list V c G Fw hF, arrBufs_eq c G]
  have hs : ((((c : Thread nD τ).loc main_v2) ↦{fullShare} G main_v2) : sProp 𝕄)
      ⊣⊢ iprop((((c : Thread nD τ).loc main_v2) ↦{fullShare.left} G main_v2) ∗ (((c : Thread nD τ).loc main_v2) ↦{fullShare.right} G main_v2)) :=
    pointsTo_share (PosShare.mem_left_op_right fullShare)
  constructor
  · iintro ⟨Hl, Hr, H⟩
    isplitl [Hl Hr]
    · iapply hs.2; isplitl [Hl] <;> iassumption
    iexact H
  · iintro ⟨H2, H⟩
    ihave H' := hs.1 $$ H2
    icases H' with ⟨Hl, Hr⟩
    isplitl [Hl]; · iexact Hl
    isplitl [Hr]; · iexact Hr
    iexact H

end Shares

/-! ## The segments -/

variable (m : (ℓ : Loc nD τ sig) → Buf (Elt F) ℓ) (ρ : Dev nD → PrngReg)

/-- The prefetched tables' admissible contents: the pipeline has no table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state: every unscoped buffer at the last boundary's contents, the generator register somewhere. -/
abbrev Tₙ (c : Dev nD) : sProp 𝕄 := iprop(StableHlo.held (c : Thread nD τ) (Pipeline.ucRefs τ sig) (W3 m ρ c) ∗ ∃ r, prngReg c r)

/-- ENTRY: the unscoped buffers at the entry contents are the pipeline's arrays and the rest. -/
theorem entry_split (c : Dev nD) :
    (unscopedBufs (Ix := Unit) (Name := ℕ) (U := UR sig nD τ) (Lvl := ℕ) c (V1 m ρ c) : sProp 𝕄)
      ⊢ iprop((pdats m ρ 0 c).arrays ((pdats m ρ 0 c).arrAt · 0) ∗ Pipeline.unscopedRest (Ix := Unit) (Name := ℕ) (U := UR sig nD τ) (Lvl := ℕ) spec0 c (V1 m ρ c)) := by
  rw [Pipeline.unscopedBufs_split₀ cfgs 0 winFacts₀0.arr_unscoped c (V1 m ρ c)]
  exact sep_mono (arrays_iff_arrBufs (V1 m ρ) c (V1 m ρ c) _ (fun _ => rfl)).2 .rfl

/-- EXIT: the arrays at what the pipeline leaves and the rest as entered are the unscoped buffers at the exit contents. -/
theorem exit_join (c : Dev nD) :
    iprop((pdats m ρ 0 c).arrays ((pdats m ρ 0 c).arrAt · cfg0.N) ∗ Pipeline.unscopedRest (Ix := Unit) (Name := ℕ) (U := UR sig nD τ) (Lvl := ℕ) spec0 c (V1 m ρ c))
      ⊢ (unscopedBufs (Ix := Unit) (Name := ℕ) (U := UR sig nD τ) (Lvl := ℕ) c (V2 m ρ c) : sProp 𝕄) := by
  rw [Pipeline.unscopedBufs_split₀ cfgs 0 winFacts₀0.arr_unscoped c (V2 m ρ c)]
  refine sep_mono (arrays_iff_arrBufs (V1 m ρ) c (V2 m ρ c) _ (hF0 m ρ c)).1 (Entails.of_eq ?_)
  unfold Pipeline.unscopedRest
  exact bigSep_congr fun b hb => by rw [hrest0 m ρ c b (Finset.mem_sdiff.mp hb).2]

set_option backward.isDefEq.respectTransparency.types false in
/-- THE REGION over the thread state: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's three segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]

/-- @main IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state has each unscoped buffer at the last boundary's contents `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Hand

end
-- ==== Proof.KI.Chunk.lean ====
import proofs.«406051_j84928683311678_2_alg».proof.Proof.Gen.KernelIdeal

/-!
# One row block's arithmetic, chunk by chunk

A grid point handles 1024 rows of the 8192 x 8192 similarity matrix and walks its 8192 columns in eight
chunks of 1024, keeping per row a running maximum `m`, a running denominator `l` (the sum of
`exp (s - m)` over the columns seen so far, the diagonal left out), the running sum `sm` of the positive
pairs' logits and their count `ms`. This module spells that arithmetic as ONE step function applied eight
times and a closing function, over the values the body loads (the row block, the row labels, and per chunk
the column block and the column labels), with exactly the operations of the printed body.
-/

noncomputable section

namespace Cert.KernelIdeal.Hand

open Cert.KernelIdeal Cert.KernelIdeal.Gen Idealize.ShloMosaic Idealize.SL.Sem

variable {F : FTy → Type} [FloatOps F] [Named F]

/-- The four running columns of a row block. -/
structure St (F : FTy → Type) where
  m : FVec F S1024x1 .f32
  l : FVec F S1024x1 .f32
  sm : FVec F S1024x1 .f32
  ms : FVec F S1024x1 .f32

/-- Before the first chunk: maximum `-∞`, the three sums zero. -/
def st0 : St F :=
  ⟨broadcast S1024x1 (Scalar.ofBits .f32 0xFF800000#32), broadcast S1024x1 (Scalar.ofBits .f32 0x00000000#32),
   broadcast S1024x1 (Scalar.ofBits .f32 0x00000000#32), broadcast S1024x1 (Scalar.ofBits .f32 0x00000000#32)⟩

/-- The global row index of each of the block's rows: `1024 * i + p`. -/
def rowIdx (i : grid0.Coords) : IVec S1024x1 32 :=
  addi (broadcast S1024x1 (Scalar.muli (BitVec.ofNat 32 (i 0).val) 1024#32)) (iota .tc S1024x1 32 [0] iota_S1024x1_d0_w32)

/-- The chunk's scaled similarities: the row block against the chunk's columns, times the inverse temperature constant. -/
def logits (x : FVec F S1024x128 .bf16) (yl : Vec F S1024x128 .bf16) : FVec F S1024x1024 .f32 :=
  mulf (matmul dot_S1024x128_S1024x128_S1024x1024_1_1_0_0_n_n none x (shapeCast S1024x128 yl shapeCasts_S1024x128_S1024x128) (constant S1024x1024 .f32 0x00000000#32))
    (broadcast S1024x1024 (Named.named κ "inv_temp" 0x41649249#32))

/-- Off the diagonal: the row's global index differs from the column's (`1024 * r + j`). -/
def offDiag (ri : IVec S1024x1 32) (r : BitVec 32) : IVec S1024x1024 1 :=
  cmpi .ne (broadcastTo S1024x1024 ri broadcasts_S1024x1_S1024x1024)
    (broadcastTo S1024x1024 (addi (broadcast S1x1024 (Scalar.muli r 1024#32)) (iota .tc S1x1024 32 [1] iota_S1x1024_d1_w32)) broadcasts_S1x1024_S1024x1024)

/-- The off-diagonal mask as a float (0 or 1). -/
def offDiagF (ri : IVec S1024x1 32) (r : BitVec 32) : FVec F S1024x1024 .f32 :=
  sitofp .f32 (extui 32 (offDiag ri r) natLt_1_32)

/-- The positives' mask as a float: equal labels, off the diagonal. -/
def posF (ri lr : IVec S1024x1 32) (r : BitVec 32) (cl : Vec F S1x1024 .i32) : FVec F S1024x1024 .f32 :=
  sitofp .f32 (extui 32 (andi (cmpi .eq (broadcastTo S1024x1024 lr broadcasts_S1024x1_S1024x1024)
    (broadcastTo S1024x1024 (shapeCast S1x1024 cl shapeCasts_S1x1024_S1x1024) broadcasts_S1x1024_S1024x1024)) (offDiag ri r)) natLt_1_32)

/-- A lane sum of a 1024 x 1024 tile as a column. -/
def rowSum (v : FVec F S1024x1024 .f32) : FVec F S1024x1 .f32 :=
  shapeCast S1024x1 (multiReduction .add [1] S1024 v 0x00000000#32 reduces_S1024x1024_S1024 (.inl rfl) rfl) shapeCasts_S1024_S1024x1

/-- A lane maximum of a 1024 x 1024 tile as a column. -/
def rowMax (v : FVec F S1024x1024 .f32) : FVec F S1024x1 .f32 :=
  shapeCast S1024x1 (multiReduction .maximumf [1] S1024 v 0xFF800000#32 reduces_S1024x1024_S1024 (.inl rfl) rfl) shapeCasts_S1024_S1024x1

/-- One chunk: the new maximum, the denominator rescaled by `exp (m - m')` plus the chunk's off-diagonal
    `exp (s - m')`, the positives' logits and their count added. -/
def step (ri lr : IVec S1024x1 32) (x : FVec F S1024x128 .bf16) (r : BitVec 32) (yl : Vec F S1024x128 .bf16) (cl : Vec F S1x1024 .i32) (st : St F) : St F :=
  let s := logits x yl
  let m' := maximumf st.m (rowMax s)
  ⟨m',
   addf (mulf st.l (exp (subf st.m m'))) (rowSum (mulf (exp (subf s (broadcastTo S1024x1024 m' broadcasts_S1024x1_S1024x1024))) (offDiagF ri r))),
   addf st.sm (rowSum (mulf (posF ri lr r cl) s)),
   addf st.ms (rowSum (posF ri lr r cl))⟩

/-- A row is valid when it has a positive pair. -/
def validB (st : St F) : IVec S1024x1 1 :=
  cmpf .one st.ms (broadcast S1024x1 (Scalar.ofBits .f32 0x00000000#32))

/-- The row's loss contribution: `-(sm / ms - (m + log l))` where valid, else 0. -/
def contribOf (st : St F) : FVec F S1024x1 .f32 :=
  select (validB st)
    (mulf (broadcast S1024x1 (Scalar.ofBits .f32 0xBF800000#32))
      (subf (divf st.sm (select (validB st) st.ms (broadcast S1024x1 (Scalar.ofBits .f32 0x3F800000#32)))) (addf st.m (log st.l))))
    (broadcast S1024x1 (Scalar.ofBits .f32 0x00000000#32))

/-- The validity flag as a float. -/
def validOf (st : St F) : FVec F S1024x1 .f32 :=
  sitofp .f32 (extui 32 (validB st) natLt_1_32)

/-- The state after the eight chunks, from the loaded values: the row block `x0`, the row labels `l0`, and per
    chunk `r` the column block `ys r` and the column labels `cs r`. -/
def stEnd (i : grid0.Coords) (x0 : Vec F S1024x128 .bf16) (l0 : Vec F S1024x1 .i32)
    (ys : Fin 8 → Vec F S1024x128 .bf16) (cs : Fin 8 → Vec F S1x1024 .i32) : St F :=
  let x := shapeCast S1024x128 x0 shapeCasts_S1024x128_S1024x128
  let lr := shapeCast S1024x1 l0 shapeCasts_S1024x1_S1024x1
  let ri := rowIdx i
  step ri lr x 7#32 (ys 7) (cs 7) (step ri lr x 6#32 (ys 6) (cs 6) (step ri lr x 5#32 (ys 5) (cs 5) (step ri lr x 4#32 (ys 4) (cs 4)
    (step ri lr x 3#32 (ys 3) (cs 3) (step ri lr x 2#32 (ys 2) (cs 2) (step ri lr x 1#32 (ys 1) (cs 1) (step ri lr x 0#32 (ys 0) (cs 0) st0)))))))

/-- What the body stores into the contribution window's buffer, -/
def blockC (i : grid0.Coords) (x0 : Vec F S1024x128 .bf16) (l0 : Vec F S1024x1 .i32)
    (ys : Fin 8 → Vec F S1024x128 .bf16) (cs : Fin 8 → Vec F S1x1024 .i32) : FVec F S1024x1 .f32 :=
  contribOf (stEnd i x0 l0 ys cs)

/-- and into the validity window's. -/
def blockV (i : grid0.Coords) (x0 : Vec F S1024x128 .bf16) (l0 : Vec F S1024x1 .i32)
    (ys : Fin 8 → Vec F S1024x128 .bf16) (cs : Fin 8 → Vec F S1x1024 .i32) : FVec F S1024x1 .f32 :=
  validOf (stEnd i x0 l0 ys cs)

end Cert.KernelIdeal.Hand

end
-- ==== Proof.KI.Block.lean ====
import proofs.«406051_j84928683311678_2_alg».proof.Proof.Gen.KernelIdeal.Launch
import proofs.«406051_j84928683311678_2_alg».proof.Proof.Gen.KernelIdeal.Skeleton
import proofs.«406051_j84928683311678_2_alg».proof.Proof.Gen.KernelIdeal.Points
import proofs.«406051_j84928683311678_2_alg».proof.Proof.KI.Chunk
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The kernel body on its staging buffers

The body loads the row block and its labels whole, and per chunk `r` rows `1024 r … 1024 r + 1023` of the resident
column matrix and columns `1024 r …` of the resident label row; it stores the contribution column and the validity
column whole. This module names what it loads, what it leaves in the two output buffers, and proves the body's triple.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The whole row block, the whole label column, the whole output column. -/
abbrev rX : Rect S1024x128 := Rect.unit (s := S1024x128) ![0, 0] S1024x128.size inb_S1024x128_S1024x128_0_0
abbrev rW : Rect S1024x1 := Rect.unit (s := S1024x1) ![0, 0] S1024x1.size inb_S1024x1_S1024x1_0_0
/-- Chunk `r`'s rows of the resident column matrix, and its columns of the resident label row. -/
abbrev rY (r : Fin 8) : Rect S8192x128 := Rect.unit (s := S8192x128) (k0_off1 (BitVec.ofNat 32 r.val)) S1024x128.size (k0_off1_inb r)
abbrev rC (r : Fin 8) : Rect S1x8192 := Rect.unit (s := S1x8192) (k0_off2 (BitVec.ofNat 32 r.val)) S1x1024.size (k0_off2_inb r)

/-- What the body loads chunk by chunk. -/
def ysOf (x1 : Vec F S8192x128 .bf16) : Fin 8 → Vec F S1024x128 .bf16 := fun r => View.ld x1 (rY r)
def csOf (l1 : Vec F S1x8192 .i32) : Fin 8 → Vec F S1x1024 .i32 := fun r => View.ld l1 (rC r)

/-- The contribution window's buffer after the body, from the four input buffers' contents. -/
def out0_4 (i : grid0.Coords) (x0 : Vec F S1024x128 .bf16) (x1 : Vec F S8192x128 .bf16) (l0 : Vec F S1024x1 .i32) (l1 : Vec F S1x8192 .i32) : Vec F S1024x1 .f32 :=
  View.canon [⟨rW, blockC i (View.ld x0 rX) (View.ld l0 rW) (ysOf x1) (csOf l1)⟩]
/-- The validity window's. -/
def out0_5 (i : grid0.Coords) (x0 : Vec F S1024x128 .bf16) (x1 : Vec F S8192x128 .bf16) (l0 : Vec F S1024x1 .i32) (l1 : Vec F S1x8192 .i32) : Vec F S1024x1 .f32 :=
  View.canon [⟨rW, blockV i (View.ld x0 rX) (View.ld l0 rW) (ysOf x1) (csOf l1)⟩]

/-- The values the body's successive stretches of statements hand one another, from the loaded values: the row block
    `v0`, the row labels `v2`, chunk `r`'s column block `ys r` and column labels `cs r`. The body interleaves the chunks
    (a chunk's sums are finished while the next chunk's tile and maximum are already computed), so the values are listed in
    the body's order. The pair returned is the validity mask and the contribution column the body stores. The running maximum after chunks 0 … 6 is `v39 v84 v129 v174 v219 v264
    v309`, the denominator after chunks 2 … 6 is `v139 v184 v229 v274 v319` (chunk 0's and 1's are inside `v91` and
    `v139`), the positives' logit sum after chunks 0, 1, 3 … 6 is `v53 v98 v188 v233 v278 v323`, their count after
    chunks 0, 1, 2, 4, 5, 6 is `v56 v101 v146 v236 v281 v326`. -/
def bodyVals (i : grid0.Coords) (v0 : Vec F S1024x128 .bf16) (v2 : Vec F S1024x1 .i32)
    (ys : Fin 8 → Vec F S1024x128 .bf16) (cs : Fin 8 → Vec F S1x1024 .i32) : IVec S1024x1 1 × FVec F S1024x1 .f32 :=
  -- the first chunk's tile, masks, maximum and rescaling
  let v1 := k0_pay2 v0
  let v3 := k0_pay3 v2
  let v7 := k0_pay4 i
  let v9 : FVec F S1024x1 .f32 := k0_pay6
  let v10 : FVec F S1024x1 .f32 := k0_pay7
  let v11 : FVec F S1024x1 .f32 := k0_pay8
  let v22 := k0_pay9 v0 (ys 0)
  let v30 : FVec F S1024x1024 .f32 := k0_pay11 i
  let v36 := k0_pay12 i v2 (cs 0)
  let v39 := k0_pay13 v0 (ys 0)
  let v41 := k0_pay14 v0 (ys 0)
  let v42 := k0_pay15 v0 (ys 0)
  -- the first chunk's sums, the second chunk's tile, mask and maximum
  let v53 := k0_pay16 v10 v22 v36
  let v56 := k0_pay17 v11 v36
  let v67 := k0_pay18 v1 (ys 1)
  let v81 := k0_pay20 v3 v7 (cs 1)
  let v84 := k0_pay21 v1 v39 (ys 1)
  let v90 := k0_pay22 v1 v7 v39 (ys 1)
  let v91 := k0_pay23 v1 v9 v22 v30 v39 v41 v42 (ys 1)
  -- the second chunk's sums, the third chunk
  let v98 := k0_pay24 v53 v67 v81
  let v101 := k0_pay25 v56 v81
  let v126 := k0_pay28 v3 v7 (cs 2)
  let v129 := k0_pay29 v1 v84 (ys 2)
  let v139 := k0_pay30 v1 v7 v84 v90 v91 (ys 2)
  let v140 := k0_pay31 v1 v3 v7 (ys 2) (cs 2)
  -- the fourth chunk
  let v146 := k0_pay32 v101 v126
  let v174 := k0_pay36 v1 v129 (ys 3)
  let v184 := k0_pay37 v1 v7 v129 v139 (ys 3)
  let v188 := k0_pay38 v1 v3 v7 v98 v140 (ys 3) (cs 3)
  let v189 := k0_pay39 v3 v7 (cs 3)
  -- the fifth chunk
  let v219 := k0_pay43 v1 v174 (ys 4)
  let v229 := k0_pay44 v1 v7 v174 v184 (ys 4)
  let v233 := k0_pay45 v1 v3 v7 v188 (ys 4) (cs 4)
  let v236 := k0_pay46 v3 v7 v146 v189 (cs 4)
  let v237 : BitVec 32 := Scalar.muli 5#32 1024#32
  -- the sixth chunk
  let v264 := k0_pay50 v1 v219 (ys 5)
  let v274 := k0_pay51 v1 v7 v219 v229 v237 (ys 5)
  let v278 := k0_pay52 v1 v3 v7 v233 v237 (ys 5) (cs 5)
  let v281 := k0_pay53 v3 v7 v236 v237 (cs 5)
  let v283 : BitVec 32 := Scalar.muli 6#32 1024#32
  let v286 := k0_pay54 (ys 6)
  -- the seventh chunk
  let v309 := k0_pay58 v1 v264 v286
  let v319 := k0_pay59 v1 v7 v264 v274 v283 v286
  let v323 := k0_pay60 v1 v3 v7 v278 v283 v286 (cs 6)
  let v326 := k0_pay61 v3 v7 v281 v283 (cs 6)
  let v328 : BitVec 32 := Scalar.muli 7#32 1024#32
  let v331 := k0_pay62 (ys 7)
  let v334 := k0_pay63 (cs 7)
  let cst_72 : FVec F S1024x1024 .f32 := constant S1024x1024 .f32 0x00000000#32
  -- the eighth chunk and the closing
  (k0_pay67 v3 v7 v326 v328 v334, k0_pay68 v1 v3 v7 v309 v319 v323 v326 v328 v331 v334 cst_72)

set_option maxHeartbeats 2000000 in
set_option maxRecDepth 65536 in
/-- The contribution column the body stores is the closing function of the eight chunk steps: the running columns the
    parts hand one another are, chunk by chunk, the step's maximum, rescaled denominator, logit sum and count. -/
theorem stored_C (i : grid0.Coords) (v0 : Vec F S1024x128 .bf16) (v2 : Vec F S1024x1 .i32)
    (ys : Fin 8 → Vec F S1024x128 .bf16) (cs : Fin 8 → Vec F S1x1024 .i32) :
    (bodyVals i v0 v2 ys cs).2 = blockC i v0 v2 ys cs := rfl

set_option maxHeartbeats 2000000 in
set_option maxRecDepth 65536 in
/-- The validity column the body stores is the float of "the count of positives after the eight chunks is not zero". -/
theorem stored_V (i : grid0.Coords) (v0 : Vec F S1024x128 .bf16) (v2 : Vec F S1024x1 .i32)
    (ys : Fin 8 → Vec F S1024x128 .bf16) (cs : Fin 8 → Vec F S1x1024 .i32) :
    k0_pay1 (bodyVals i v0 v2 ys cs).1 = blockV i v0 v2 ys cs := rfl

/-- One store of the whole 1024 x 1 column covers the buffer. -/
theorem cover0 (p0 : Vec F S1024x1 .f32) (y : S1024x1.Idx) :
    ∃ pc ∈ ([⟨rW, p0⟩] : List (View.Piece (Elt F) S1024x1 .f32)), y ∈ pc.1.set :=
  View.cover_of_tiled [⟨rW, p0⟩] S1024x1.size (by rfl) y

set_option maxHeartbeats 2000000 in
/-- The body on whole staging memrefs: the four inputs' at contents `x0 x1 l0 l1`, the outputs' at anything; it
    leaves the inputs' as they were and the outputs' at `out0_4`, `out0_5` of the inputs'. -/
theorem sound_kernel0 (c : Dev nD) (E : Set ℕ) (i : grid0.Coords)
    (arg1 : Memref sig .tc .vmem S1024x128 .bf16) (harg1 : arg1.IsWhole) (arg2 : Memref sig .tc .vmem S8192x128 .bf16) (harg2 : arg2.IsWhole)
    (arg3 : Memref sig .tc .vmem S1024x1 .i32) (harg3 : arg3.IsWhole) (arg4 : Memref sig .tc .vmem S1x8192 .i32) (harg4 : arg4.IsWhole)
    (arg5 : Memref sig .tc .vmem S1024x1 .f32) (harg5 : arg5.IsWhole) (arg6 : Memref sig .tc .vmem S1024x1 .f32) (harg6 : arg6.IsWhole)
    (x0 : Vec F S1024x128 .bf16) (x1 : Vec F S8192x128 .bf16) (l0 : Vec F S1024x1 .i32) (l1 : Vec F S1x8192 .i32) (K : PUnit → sProp 𝕄) :
    iprop(owns (c : Thread nD τ) arg1 fullShare x0 ∗ owns (c : Thread nD τ) arg2 fullShare x1
        ∗ owns (c : Thread nD τ) arg3 fullShare l0 ∗ owns (c : Thread nD τ) arg4 fullShare l1
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare l0 ∗ owns (c : Thread nD τ) arg4 fullShare l1
            ∗ owns (c : Thread nD τ) arg5 fullShare (out0_4 i x0 x1 l0 l1) ∗ owns (c : Thread nD τ) arg6 fullShare (out0_5 i x0 x1 l0 l1)) -∗ K ⟨⟩))
      ⊢ wp frame (wpE (defs₀ (F := F)) Variants.none c none) E
          (cc0__supcon_kernel i arg1 harg1 arg2 harg2 arg3 harg3 arg4 harg4 arg5 harg5 arg6 harg6) K := by
  simp only [cc0__supcon_kernel_eq_skeleton]; unfold cc0__supcon_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover0 _)).trans ?_
    unfold out0_4
    rw [← stored_C]
    rfl
  · iexists _; isplitr
    swap; · iexact H6
    ipureintro
    refine (View.read_writes_eq_canon _ _ _ (cover0 _)).trans ?_
    unfold out0_5
    rw [← stored_V]
    rfl

end Cert.KernelIdeal.Hand

end
-- ==== Proof.KI.Data.lean ====
import proofs.«406051_j84928683311678_2_alg».proof.Proof.KI.Block

/-!
# The pipeline's proof data and the body obligation

At the region's entry the TensorCore's buffers hold contents `V`. Window 0 stages rows `1024 t …` of the feature
matrix, window 1 the whole feature matrix (the same array, read a second time), window 2 rows `1024 t …` of the
label column, window 3 the whole label row; windows 4 and 5 write the contribution and validity columns back at
rows `1024 t …`. The two windows on the feature matrix hold it at the two halves of the full share.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: the arrays as the region finds them; after the body each input's buffer at its block and each
    output's at what the body stores there from the four input blocks; the class invariant (the scoped rest and the
    generator register, untouched); nothing owed; the feature matrix's share halved between its two windows. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (grid0.coords t) (iblk0 V c 0 t) (iblk0 V c 1 t) (iblk0 V c 2 t) (iblk0 V c 3 t)
    | ⟨5, _⟩ => out0_5 (grid0.coords t) (iblk0 V c 0 t) (iblk0 V c 1 t) (iblk0 V c 2 t) (iblk0 V c 3 t)
  Φ _ := Pipeline.ΦA spec0 c
  q w := match w with
    | ⟨0, _⟩ => fullShare.left
    | ⟨1, _⟩ => fullShare.right
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (grid0.coords t) (iblk0 V c 0 t) (iblk0 V c 1 t) (iblk0 V c 2 t) (iblk0 V c 3 t) := by dsimp only [dat0]
theorem after0_5 (c : Dev nD) (t : Fin cfg0.N) :
    (dat0 V c).after 5 t = out0_5 (grid0.coords t) (iblk0 V c 0 t) (iblk0 V c 1 t) (iblk0 V c 2 t) (iblk0 V c 3 t) := by dsimp only [dat0]

/-- Each input's current staging buffer holds its block at every point, fetched there or not: where the pipeline
    fetches, the fetch puts the block there; where it does not, the block index has not moved since the previous
    point, the body left the block in place, and the previous point's block is this point's. None of the four input
    windows is cut, so a fetch fills the whole buffer and the body's leaving is the block itself. -/
theorem before0_0 (c : Dev nD) (t : Fin cfg0.N) (d) : (dat0 V c).before 0 t d = iblk0 V c 0 t := by
  have hkeep : ∀ s, (cfg0.win 0).cut (cfg0.grid.coords s) ((dat0 V c).after 0 s) = (dat0 V c).blockOf 0 s := by
    intro s; rw [after0_0]; unfold Dat.blockOf iblk0; rw [A_eq0]; try rfl
  refine ((dat0 V c).before_in_eq_fetched 0 rfl (fun _ => rfl) (fun _ _ _ => rfl) hkeep t d).trans ?_
  unfold Dat.fetched Dat.blockOf iblk0; rw [A_eq0]; try rfl
theorem before0_1 (c : Dev nD) (t : Fin cfg0.N) (d) : (dat0 V c).before 1 t d = iblk0 V c 1 t := by
  have hkeep : ∀ s, (cfg0.win 1).cut (cfg0.grid.coords s) ((dat0 V c).after 1 s) = (dat0 V c).blockOf 1 s := by
    intro s; rw [after0_1]; unfold Dat.blockOf iblk0; rw [A_eq0]; try rfl
  refine ((dat0 V c).before_in_eq_fetched 1 rfl (fun _ => rfl) (fun _ _ _ => rfl) hkeep t d).trans ?_
  unfold Dat.fetched Dat.blockOf iblk0; rw [A_eq0]; try rfl
theorem before0_2 (c : Dev nD) (t : Fin cfg0.N) (d) : (dat0 V c).before 2 t d = iblk0 V c 2 t := by
  have hkeep : ∀ s, (cfg0.win 2).cut (cfg0.grid.coords s) ((dat0 V c).after 2 s) = (dat0 V c).blockOf 2 s := by
    intro s; rw [after0_2]; unfold Dat.blockOf iblk0; rw [A_eq0]; try rfl
  refine ((dat0 V c).before_in_eq_fetched 2 rfl (fun _ => rfl) (fun _ _ _ => rfl) hkeep t d).trans ?_
  unfold Dat.fetched Dat.blockOf iblk0; rw [A_eq0]; try rfl
theorem before0_3 (c : Dev nD) (t : Fin cfg0.N) (d) : (dat0 V c).before 3 t d = iblk0 V c 3 t := by
  have hkeep : ∀ s, (cfg0.win 3).cut (cfg0.grid.coords s) ((dat0 V c).after 3 s) = (dat0 V c).blockOf 3 s := by
    intro s; rw [after0_3]; unfold Dat.blockOf iblk0; rw [A_eq0]; try rfl
  refine ((dat0 V c).before_in_eq_fetched 3 rfl (fun _ => rfl) (fun _ _ _ => rfl) hkeep t d).trans ?_
  unfold Dat.fetched Dat.blockOf iblk0; rw [A_eq0]; try rfl

/-- What the body is handed at point `t`: the class invariant, what the core owes, the four inputs' current staging
    buffers at what they then hold and the two outputs' at some contents, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it hands back: the same invariant and debt at the next point, every buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the four inputs' buffers hold their blocks, the two outputs' anything, so the body's
    triple applies at the four blocks; the invariant and the debt are the same at consecutive points and pass
    through unread; the inputs come back as they were and the outputs at the contribution and validity columns of
    the four blocks, which is what the proof data says the body leaves. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Host.lean ====
import proofs.«406051_j84928683311678_2_alg».proof.Proof.KI.Data

/-!
# The buffer contents at each boundary of the program

The program runs five host operations (it stacks the two feature halves, stacks the two label halves, rounds the
stacked features to bf16, and views the stacked labels once as a column and once as a row), then the region, then nine
host operations (it views the two result columns as vectors, sums each, clamps the validity sum below by one, and
divides). This module names what every buffer holds at launch, at the region's entry, at its exit (the two result
columns at what the write-backs leave, every other buffer as entered) and at the return, and reads off: the arguments
are never written, the region's inputs are the operations' terms of the arguments, and the scalar result is the
operations' term of the two result columns.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev W0 : Dev nD → Valuation τ sig (Elt F) := fun c b => (s₀ m ρ).mem ((c : Dev nD), b)
/-- After the five host operations before the region: the region's entry. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- At the region's exit: the contribution column and the validity column at what the eight write-backs leave, every
    other buffer as entered (the feature matrix, read through two windows, among them). -/
def W2 (c : Dev nD) : Valuation τ sig (Elt F) :=
  Function.update (Function.update (W1 m ρ c) (Proc.devRef .tc main_v5_0) ((dat0 (V1 m ρ) c).arrAt 4 cfg0.N)) (Proc.devRef .tc main_v5_1) ((dat0 (V1 m ρ) c).arrAt 5 cfg0.N)
/-- The same, read at the TensorCore's references. -/
abbrev V2 : (c : Dev nD) → (b : Ref sig .tc) → Buf (Elt F) ((c : Thread nD τ).loc b) := fun c b => W2 m ρ c b
/-- After the nine host operations after the region: the return. -/
abbrev W3 : Dev nD → Valuation τ sig (Elt F) := fun c => StableHlo.after hostOps1 (W2 m ρ c)

/-! ## The region's exit -/

/-- The validity column holds what its write-backs leave. -/
theorem W2_v5_1 (c : Dev nD) : W2 m ρ c (Proc.devRef .tc main_v5_1) = (dat0 (V1 m ρ) c).arrAt 5 cfg0.N := by
  unfold W2; exact Function.update_self _ _ _
/-- The contribution column holds what its write-backs leave: it is another buffer than the validity column. -/
theorem W2_v5_0 (c : Dev nD) : W2 m ρ c (Proc.devRef .tc main_v5_0) = (dat0 (V1 m ρ) c).arrAt 4 cfg0.N := by
  unfold W2
  rw [Function.update_of_ne (StableHlo.devRef_ne_of_ne (by decide)), Function.update_self]
/-- Every buffer other than the two result columns holds what it held at the region's entry. -/
theorem W2_of_ne (c : Dev nD) (b : Ref sig .tc) (h0 : b ≠ main_v5_0) (h1 : b ≠ main_v5_1) :
    W2 m ρ c (Proc.devRef .tc b) = W1 m ρ c (Proc.devRef .tc b) := by
  unfold W2
  rw [Function.update_of_ne (StableHlo.devRef_ne_of_ne h1), Function.update_of_ne (StableHlo.devRef_ne_of_ne h0)]

/-- At the region's exit each window's array holds what the pipeline leaves there: an input's array is never written
    back, so it holds its entry contents, which the exit contents keep; an output's array is one of the two columns. -/
theorem hF0 (c : Dev nD) (w : Fin cfg0.W) : (dat0 (V1 m ρ) c).arrAt w cfg0.N = V2 m ρ c (Pipeline.arrRef spec0 w) :=
  match w with
  | ⟨0, _⟩ => (((dat0 (V1 m ρ) c).arrAt_in 0 rfl _).trans (A_eq0 (V1 m ρ) c 0)).trans (W2_of_ne m ρ c main_v2 (by decide) (by decide)).symm
  | ⟨1, _⟩ => (((dat0 (V1 m ρ) c).arrAt_in 1 rfl _).trans (A_eq0 (V1 m ρ) c 1)).trans (W2_of_ne m ρ c main_v2 (by decide) (by decide)).symm
  | ⟨2, _⟩ => (((dat0 (V1 m ρ) c).arrAt_in 2 rfl _).trans (A_eq0 (V1 m ρ) c 2)).trans (W2_of_ne m ρ c main_v3 (by decide) (by decide)).symm
  | ⟨3, _⟩ => (((dat0 (V1 m ρ) c).arrAt_in 3 rfl _).trans (A_eq0 (V1 m ρ) c 3)).trans (W2_of_ne m ρ c main_v4 (by decide) (by decide)).symm
  | ⟨4, _⟩ => (W2_v5_0 m ρ c).symm
  | ⟨5, _⟩ => (W2_v5_1 m ρ c).symm
/-- Every buffer that is no window's array holds at the exit what it held at the entry. -/
theorem hrest0 (c : Dev nD) : ∀ b, b ∉ Finset.univ.image (Pipeline.arrRef spec0) → V2 m ρ c b = V1 m ρ c b :=
  fun b hb => W2_of_ne m ρ c b
    (fun e => hb (Finset.mem_image.mpr ⟨4, Finset.mem_univ _, e.symm⟩))
    (fun e => hb (Finset.mem_image.mpr ⟨5, Finset.mem_univ _, e.symm⟩))

/-! ## No host operation allocates -/

/-- None of the five operations before the region allocates a buffer. -/
theorem hostOps0_fresh : (hostOps0 : List (HloOp τ sig (Elt F))).Forall fun op => op.fresh = ∅ := by
  simp only [List.Forall]; repeat' constructor
/-- None of the nine operations after the region allocates a buffer. -/
theorem hostOps1_fresh : (hostOps1 : List (HloOp τ sig (Elt F))).Forall fun op => op.fresh = ∅ := by
  simp only [List.Forall]; repeat' constructor

/-! ## The arguments end as launched

No host operation writes an argument, and the region writes the two result columns only; so an argument's buffer holds
at the return what it held at launch. -/

/-- No operation after the region writes the reference `r`, when `r` is none of the nine results. -/
theorem hostOps1_keeps (V : Valuation τ sig (Elt F)) (r : Ref sig .tc)
    (h : r ≠ main_v6 ∧ r ≠ main_v7 ∧ r ≠ main_cst ∧ r ≠ main_v8 ∧ r ≠ main_cst_0 ∧ r ≠ main_v9 ∧ r ≠ main_cst_1 ∧ r ≠ main_v10 ∧ r ≠ main_v11) :
    StableHlo.after hostOps1 V (Proc.devRef .tc r) = V (Proc.devRef .tc r) := by
  obtain ⟨h1, h2, h3, h4, h5, h6, h7, h8, h9⟩ := h
  refine StableHlo.after_of_forall_not_mem (b := Proc.devRef .tc r) _ _ (List.forall_iff_forall_mem.mp ?_)
  simp only [hostOps1, List.Forall, StableHlo.nullary_writes, StableHlo.unary_writes, StableHlo.binary_writes,
    StableHlo.reshape_writes, Finset.mem_singleton]
  exact ⟨StableHlo.devRef_ne_of_ne h1, StableHlo.devRef_ne_of_ne h2, StableHlo.devRef_ne_of_ne h3, StableHlo.devRef_ne_of_ne h4,
    StableHlo.devRef_ne_of_ne h5, StableHlo.devRef_ne_of_ne h6, StableHlo.devRef_ne_of_ne h7, StableHlo.devRef_ne_of_ne h8,
    StableHlo.devRef_ne_of_ne h9⟩
/-- No operation before the region writes the reference `r`, when `r` is none of the five results. -/
theorem hostOps0_keeps (V : Valuation τ sig (Elt F)) (r : Ref sig .tc)
    (h : r ≠ main_v0 ∧ r ≠ main_v1 ∧ r ≠ main_v2 ∧ r ≠ main_v3 ∧ r ≠ main_v4) :
    StableHlo.after hostOps0 V (Proc.devRef .tc r) = V (Proc.devRef .tc r) := by
  obtain ⟨h1, h2, h3, h4, h5⟩ := h
  refine StableHlo.after_of_forall_not_mem (b := Proc.devRef .tc r) _ _ (List.forall_iff_forall_mem.mp ?_)
  simp only [hostOps0, List.Forall, StableHlo.nullary_writes, StableHlo.unary_writes, StableHlo.binary_writes,
    StableHlo.reshape_writes, Finset.mem_singleton]
  exact ⟨StableHlo.devRef_ne_of_ne h1, StableHlo.devRef_ne_of_ne h2, StableHlo.devRef_ne_of_ne h3, StableHlo.devRef_ne_of_ne h4,
    StableHlo.devRef_ne_of_ne h5⟩

/-- A buffer that no host operation and no write-back touches holds at the return what it held at launch. -/
theorem W3_of_untouched (c : Dev nD) (r : Ref sig .tc)
    (h1 : r ≠ main_v6 ∧ r ≠ main_v7 ∧ r ≠ main_cst ∧ r ≠ main_v8 ∧ r ≠ main_cst_0 ∧ r ≠ main_v9 ∧ r ≠ main_cst_1 ∧ r ≠ main_v10 ∧ r ≠ main_v11)
    (h50 : r ≠ main_v5_0) (h51 : r ≠ main_v5_1)
    (h0 : r ≠ main_v0 ∧ r ≠ main_v1 ∧ r ≠ main_v2 ∧ r ≠ main_v3 ∧ r ≠ main_v4) :
    W3 m ρ c (Proc.devRef .tc r) = m ((c : Thread nD τ).loc r) :=
  calc W3 m ρ c (Proc.devRef .tc r)
    _ = W2 m ρ c (Proc.devRef .tc r) := hostOps1_keeps (W2 m ρ c) r h1
    _ = W1 m ρ c (Proc.devRef .tc r) := W2_of_ne m ρ c r h50 h51
    _ = W0 m ρ c (Proc.devRef .tc r) := hostOps0_keeps (W0 m ρ c) r h0
    _ = m ((c : Thread nD τ).loc r) := rfl

theorem W3_main_arg0 (c : Dev nD) : W3 m ρ c (Proc.devRef .tc main_arg0) = m ((c : Thread nD τ).loc main_arg0) :=
  W3_of_untouched m ρ c main_arg0 (by decide) (by decide) (by decide) (by decide)
theorem W3_main_arg1 (c : Dev nD) : W3 m ρ c (Proc.devRef .tc main_arg1) = m ((c : Thread nD τ).loc main_arg1) :=
  W3_of_untouched m ρ c main_arg1 (by decide) (by decide) (by decide) (by decide)
theorem W3_main_arg2 (c : Dev nD) : W3 m ρ c (Proc.devRef .tc main_arg2) = m ((c : Thread nD τ).loc main_arg2) :=
  W3_of_untouched m ρ c main_arg2 (by decide) (by decide) (by decide) (by decide)
theorem W3_main_arg3 (c : Dev nD) : W3 m ρ c (Proc.devRef .tc main_arg3) = m ((c : Thread nD τ).loc main_arg3) :=
  W3_of_untouched m ρ c main_arg3 (by decide) (by decide) (by decide) (by decide)

/-! ## What the region finds in its inputs

The feature matrix the region reads is the two feature halves stacked and rounded to bf16; the label column and the
label row are the two label halves stacked, viewed as a column and as a row. -/

theorem V1_main_v2 (c : Dev nD) :
    (V1 m ρ c main_v2 : Vec F S8192x128 .bf16)
      = truncf .bf16 (concatenate S8192x128 0 [⟨S4096x128, (m ((c : Thread nD τ).loc main_arg0) : Vec F S4096x128 .f32)⟩, ⟨S4096x128, (m ((c : Thread nD τ).loc main_arg1) : Vec F S4096x128 .f32)⟩] concatenates_S4096x128_S4096x128_S8192x128_d0 : Vec F S8192x128 .f32) bitsLt_bf16_f32 := by
  show StableHlo.after hostOps0 (W0 m ρ c) (Proc.devRef .tc main_v2) = _
  dsimp only [hostOps0]
  after_results

theorem V1_main_v3 (c : Dev nD) :
    (V1 m ρ c main_v3 : Vec F S8192x1 .i32)
      = shapeCast S8192x1 (concatenate S8192 0 [⟨S4096, (m ((c : Thread nD τ).loc main_arg2) : Vec F S4096 .i32)⟩, ⟨S4096, (m ((c : Thread nD τ).loc main_arg3) : Vec F S4096 .i32)⟩] concatenates_S4096_S4096_S8192_d0 : Vec F S8192 .i32) shapeCasts_S8192_S8192x1 := by
  show StableHlo.after hostOps0 (W0 m ρ c) (Proc.devRef .tc main_v3) = _
  dsimp only [hostOps0]
  after_results
  rfl

theorem V1_main_v4 (c : Dev nD) :
    (V1 m ρ c main_v4 : Vec F S1x8192 .i32)
      = shapeCast S1x8192 (concatenate S8192 0 [⟨S4096, (m ((c : Thread nD τ).loc main_arg2) : Vec F S4096 .i32)⟩, ⟨S4096, (m ((c : Thread nD τ).loc main_arg3) : Vec F S4096 .i32)⟩] concatenates_S4096_S4096_S8192_d0 : Vec F S8192 .i32) shapeCasts_S8192_S1x8192 := by
  show StableHlo.after hostOps0 (W0 m ρ c) (Proc.devRef .tc main_v4) = _
  dsimp only [hostOps0]
  after_results
  rfl

/-! ## The scalar result

The nine operations after the region view each result column as a vector of 8192 entries, sum the contributions and
sum the validities (each from zero), clamp the validity sum below by one, and divide the contribution sum by it. -/

theorem W3_result (c : Dev nD) :
    (W3 m ρ c (Proc.devRef .tc main_v11) : Vec F S_ .f32)
      = Host.divf
          (Host.reduceAdd (shapeCast S8192 ((dat0 (V1 m ρ) c).arrAt 4 cfg0.N : Vec F S8192x1 .f32) shapeCasts_S8192x1_S8192 : Vec F S8192 .f32)
            (constant S_ .f32 0x00000000#32 : Vec F S_ .f32) reducesTo_S8192_S_d0 h_S_ : Vec F S_ .f32)
          (maximumf
            (Host.reduceAdd (shapeCast S8192 ((dat0 (V1 m ρ) c).arrAt 5 cfg0.N : Vec F S8192x1 .f32) shapeCasts_S8192x1_S8192 : Vec F S8192 .f32)
              (constant S_ .f32 0x00000000#32 : Vec F S_ .f32) reducesTo_S8192_S_d0 h_S_ : Vec F S_ .f32)
            (constant S_ .f32 0x3F800000#32 : Vec F S_ .f32) : Vec F S_ .f32) := by
  show StableHlo.after hostOps1 (W2 m ρ c) (Proc.devRef .tc main_v11) = _
  dsimp only [hostOps1]
  after_results
  rw [W2_v5_0, W2_v5_1]
  rfl

end Cert.KernelIdeal.Hand

end
-- ==== Proof.KI.Launch.lean ====
import proofs.«406051_j84928683311678_2_alg».proof.Proof.KI.Host

/-!
# The launch: @main as host operations, the region, host operations

@main stacks the two feature arrays and the two label arrays, rounds the features, reshapes the labels to a column
and to a row (five host operations), runs the kernel region, and then reshapes the two result columns, sums each,
and divides the contribution sum by the larger of the validity count and 1 (nine host operations). The thread state
between the segments is "every unscoped buffer at the boundary's contents". At the region's entry the arrays are
split out of it — the feature matrix, read by two windows, at the two halves of the full share — and at its exit
they are put back, the two halves joined, the two result columns at what the pipeline's write-backs leave.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The arrays and the buffers behind them -/

section Shares

variable (V : (c : Dev nD) → (b : Ref sig .tc) → Buf (Elt F) ((c : Thread nD τ).loc b))

/-- The buffers behind the six windows' arrays, listed: the feature matrix once. -/
theorem arrBufs_eq (c : Dev nD) (G : (b : Ref sig .tc) → Buf (Elt F) ((c : Thread nD τ).loc b)) :
    (Pipeline.arrBufs (Ix := Unit) (Name := ℕ) (U := UR sig nD τ) (Lvl := ℕ) spec0 c G : sProp 𝕄)
      = iprop((((c : Thread nD τ).loc main_v2) ↦{fullShare} G main_v2) ∗ (((c : Thread nD τ).loc main_v3) ↦{fullShare} G main_v3)
          ∗ (((c : Thread nD τ).loc main_v4) ↦{fullShare} G main_v4) ∗ (((c : Thread nD τ).loc main_v5_0) ↦{fullShare} G main_v5_0)
          ∗ (((c : Thread nD τ).loc main_v5_1) ↦{fullShare} G main_v5_1)) := by
  unfold Pipeline.arrBufs
  exact bigSep_eq_bigSepL_of_eq [main_v2, main_v3, main_v4, main_v5_0, main_v5_1] (by decide) (by decide) _

theorem share0 (c : Dev nD) : (dat0 V c).share 0 = fullShare.left := by unfold Dat.share; rfl
theorem share1 (c : Dev nD) : (dat0 V c).share 1 = fullShare.right := by unfold Dat.share; rfl
theorem share2 (c : Dev nD) : (dat0 V c).share 2 = fullShare := by unfold Dat.share; rfl
theorem share3 (c : Dev nD) : (dat0 V c).share 3 = fullShare := by unfold Dat.share; rfl
theorem share4 (c : Dev nD) : (dat0 V c).share 4 = fullShare := by unfold Dat.share; rfl
theorem share5 (c : Dev nD) : (dat0 V c).share 5 = fullShare := by unfold Dat.share; rfl

/-- The pipeline's arrays at contents read off `G`, listed window by window at their shares. -/
theorem arrays_eq_list (c : Dev nD) (G : (b : Ref sig .tc) → Buf (Elt F) ((c : Thread nD τ).loc b))
    (Fw : (w : Fin cfg0.W) → Buf (Elt F) ((cfg0.win w).arr.view.loc (c : Thread nD τ))) (hF : ∀ w, Fw w = G (Pipeline.arrRef spec0 w)) :
    ((dat0 V c).arrays Fw : sProp 𝕄)
      = iprop((((c : Thread nD τ).loc main_v2) ↦{fullShare.left} G main_v2) ∗ (((c : Thread nD τ).loc main_v2) ↦{fullShare.right} G main_v2)
          ∗ (((c : Thread nD τ).loc main_v3) ↦{fullShare} G main_v3) ∗ (((c : Thread nD τ).loc main_v4) ↦{fullShare} G main_v4)
          ∗ (((c : Thread nD τ).loc main_v5_0) ↦{fullShare} G main_v5_0) ∗ (((c : Thread nD τ).loc main_v5_1) ↦{fullShare} G main_v5_1)) := by
  unfold Dat.arrays
  rw [bigSep_W0]
  rw [(arr_whole0 0).set_eq_univ, (arr_whole0 2).set_eq_univ, (arr_whole0 3).set_eq_univ, (arr_whole0 4).set_eq_univ, (arr_whole0 5).set_eq_univ]
  rw [share0, share1, share2, share3, share4, share5, hF 0, hF 1, hF 2, hF 3, hF 4, hF 5]

/-- The buffers behind the arrays, whole, ARE the pipeline's arrays: the feature matrix's full share is the two
    windows' halves. -/
theorem arrays_iff_arrBufs (c : Dev nD) (G : (b : Ref sig .tc) → Buf (Elt F) ((c : Thread nD τ).loc b))
    (Fw : (w : Fin cfg0.W) → Buf (Elt F) ((cfg0.win w).arr.view.loc (c : Thread nD τ))) (hF : ∀ w, Fw w = G (Pipeline.arrRef spec0 w)) :
    ((dat0 V c).arrays Fw : sProp 𝕄) ⊣⊢ Pipeline.arrBufs (Ix := Unit) (Name := ℕ) (U := UR sig nD τ) (Lvl := ℕ) spec0 c G := by
  rw [arrays_eq_list V c G Fw hF, arrBufs_eq c G]
  have hs : ((((c : Thread nD τ).loc main_v2) ↦{fullShare} G main_v2) : sProp 𝕄)
      ⊣⊢ iprop((((c : Thread nD τ).loc main_v2) ↦{fullShare.left} G main_v2) ∗ (((c : Thread nD τ).loc main_v2) ↦{fullShare.right} G main_v2)) :=
    pointsTo_share (PosShare.mem_left_op_right fullShare)
  constructor
  · iintro ⟨Hl, Hr, H⟩
    isplitl [Hl Hr]
    · iapply hs.2; isplitl [Hl] <;> iassumption
    iexact H
  · iintro ⟨H2, H⟩
    ihave H' := hs.1 $$ H2
    icases H' with ⟨Hl, Hr⟩
    isplitl [Hl]; · iexact Hl
    isplitl [Hr]; · iexact Hr
    iexact H

end Shares

/-! ## The segments -/

variable (m : (ℓ : Loc nD τ sig) → Buf (Elt F) ℓ) (ρ : Dev nD → PrngReg)

/-- The prefetched tables' admissible contents: the pipeline has no table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state: every unscoped buffer at the last boundary's contents, the generator register somewhere. -/
abbrev Tₙ (c : Dev nD) : sProp 𝕄 := iprop(StableHlo.held (c : Thread nD τ) (Pipeline.ucRefs τ sig) (W3 m ρ c) ∗ ∃ r, prngReg c r)

/-- ENTRY: the unscoped buffers at the entry contents are the pipeline's arrays and the rest. -/
theorem entry_split (c : Dev nD) :
    (unscopedBufs (Ix := Unit) (Name := ℕ) (U := UR sig nD τ) (Lvl := ℕ) c (V1 m ρ c) : sProp 𝕄)
      ⊢ iprop((pdats m ρ 0 c).arrays ((pdats m ρ 0 c).arrAt · 0) ∗ Pipeline.unscopedRest (Ix := Unit) (Name := ℕ) (U := UR sig nD τ) (Lvl := ℕ) spec0 c (V1 m ρ c)) := by
  rw [Pipeline.unscopedBufs_split₀ cfgs 0 winFacts₀0.arr_unscoped c (V1 m ρ c)]
  exact sep_mono (arrays_iff_arrBufs (V1 m ρ) c (V1 m ρ c) _ (fun _ => rfl)).2 .rfl

/-- EXIT: the arrays at what the pipeline leaves and the rest as entered are the unscoped buffers at the exit contents. -/
theorem exit_join (c : Dev nD) :
    iprop((pdats m ρ 0 c).arrays ((pdats m ρ 0 c).arrAt · cfg0.N) ∗ Pipeline.unscopedRest (Ix := Unit) (Name := ℕ) (U := UR sig nD τ) (Lvl := ℕ) spec0 c (V1 m ρ c))
      ⊢ (unscopedBufs (Ix := Unit) (Name := ℕ) (U := UR sig nD τ) (Lvl := ℕ) c (V2 m ρ c) : sProp 𝕄) := by
  rw [Pipeline.unscopedBufs_split₀ cfgs 0 winFacts₀0.arr_unscoped c (V2 m ρ c)]
  refine sep_mono (arrays_iff_arrBufs (V1 m ρ) c (V2 m ρ c) _ (hF0 m ρ c)).1 (Entails.of_eq ?_)
  unfold Pipeline.unscopedRest
  exact bigSep_congr fun b hb => by rw [hrest0 m ρ c b (Finset.mem_sdiff.mp hb).2]

set_option backward.isDefEq.respectTransparency.types false in
/-- THE REGION over the thread state: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's three segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]

/-- @main IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state has each unscoped buffer at the last boundary's contents `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Hand

end
-- ==== Proof.RowSpec.lean ====
import Idealize.ShloMosaic.PureOps.Ideal
import Mathlib.Analysis.SpecialFunctions.Log.Basic
import Mathlib.Algebra.BigOperators.Fin
import Mathlib.Order.Fin.Basic

/-!
# One anchor row of the supervised contrastive loss, as numbers

For one anchor row: `z k` its scaled similarity to column `k` (8192 columns), `ns k` the off-diagonal
indicator (0 on the row's own column, 1 elsewhere) and `pos k` the indicator of a positive pair (equal labels, off
the diagonal). The row's loss is `-( (∑ pos·z) / (∑ pos) - (M + log ∑ exp (z - M)·ns) )` with `M` the row's
maximum, when the row has a positive pair, and 0 otherwise.

The second half states the SAME quantity as the streaming recurrence over eight chunks of 1024 columns on the
extended reals — a running maximum from `-∞`, the denominator rescaled by `exp (m - m')` at each chunk — so
that the two can be proved equal once, away from any program.
-/

noncomputable section

namespace Cert.RowSpec

open Idealize.ShloMosaic

/-- The inverse temperature the kernel multiplies by, as the exact rational its name denotes. -/
def κv : ℝ := 134217728 / 9395241
/-- The temperature the reference divides by, as the exact rational its binary32 word denotes. -/
def Dv : ℝ := 9395241 / 134217728

/-- Column `j` of chunk `c` is column `1024 c + j` of the row. -/
def cidx (c : Fin 8) (j : Fin 1024) : Fin 8192 := ⟨1024 * c.val + j.val, by omega⟩

/-- The row's largest logit. -/
def rowMaxR (z : Fin 8192 → ℝ) : ℝ := Finset.univ.sup' Finset.univ_nonempty z
/-- The softmax denominator relative to the maximum, the diagonal left out. -/
def rowDen (z ns : Fin 8192 → ℝ) : ℝ := ∑ k, Real.exp (z k - rowMaxR z) * ns k
/-- The row's loss contribution. -/
def rowLoss (z ns pos : Fin 8192 → ℝ) : ℝ :=
  if ∑ k, pos k = 0 then 0
  else -((∑ k, pos k * z k) / (∑ k, pos k) - (rowMaxR z + Real.log (rowDen z ns)))
/-- 1 when the row has a positive pair, else 0. -/
def rowValid (pos : Fin 8192 → ℝ) : ℝ := if ∑ k, pos k = 0 then 0 else 1

/-- The streaming state of one row: running maximum, denominator, positives' logit sum, positives' count. -/
structure S where
  m : EReal
  l : EReal
  sm : EReal
  ms : EReal

/-- Before the first chunk. -/
def S0 : S := ⟨⊥, 0, 0, 0⟩

/-- One chunk of 1024 columns: logits `s`, off-diagonal indicator `ns`, positives' indicator `pos`. -/
def sstep (s ns pos : Fin 1024 → EReal) (st : S) : S :=
  let m' := max st.m ((Finset.univ : Finset (Fin 1024)).fold max ⊥ s)
  ⟨m', st.l * Ideal.exp (st.m - m') + ∑ j, Ideal.exp (s j - m') * ns j, st.sm + ∑ j, pos j * s j, st.ms + ∑ j, pos j⟩

/-- After the eight chunks. -/
def sEnd (s ns pos : Fin 8 → Fin 1024 → EReal) : S :=
  sstep (s 7) (ns 7) (pos 7) (sstep (s 6) (ns 6) (pos 6) (sstep (s 5) (ns 5) (pos 5) (sstep (s 4) (ns 4) (pos 4)
    (sstep (s 3) (ns 3) (pos 3) (sstep (s 2) (ns 2) (pos 2) (sstep (s 1) (ns 1) (pos 1) (sstep (s 0) (ns 0) (pos 0) S0)))))))

/-- The closing arithmetic: the loss contribution from the final state, -/
def sContrib (st : S) : EReal :=
  if st.ms ≠ 0 then ((-1 : ℝ) : EReal) * (Ideal.div st.sm st.ms - (st.m + Ideal.log st.l)) else 0
/-- and the validity flag. -/
def sValid (st : S) : EReal := if st.ms ≠ 0 then 1 else 0

end Cert.RowSpec

end
-- ==== Proof.RowData.lean ====
import proofs.«406051_j84928683311678_2_alg».proof.Proof.RowSpec

/-!
# A row's numbers from the features and the labels

`cf r d` is entry `d` of feature row `r` (the two feature arrays stacked: 8192 rows of 128) and `lab r` the label of
row `r`. Row `r`'s logit against column `k` is the dot product of the two feature rows times the inverse
temperature; the off-diagonal indicator leaves out `k = r`; a positive pair has equal labels off the diagonal.
-/

noncomputable section

namespace Cert.RowSpec

/-- The similarity of rows `r` and `k`. -/
def dotR (cf : Fin 8192 → Fin 128 → ℝ) (r k : Fin 8192) : ℝ := ∑ d, cf r d * cf k d
/-- Row `r`'s logits. -/
def zK (cf : Fin 8192 → Fin 128 → ℝ) (r : Fin 8192) (k : Fin 8192) : ℝ := dotR cf r k * κv
/-- 0 on the diagonal, 1 off it. -/
def nsR (r : Fin 8192) (k : Fin 8192) : ℝ := if r = k then 0 else 1
/-- 1 on a positive pair (equal labels, off the diagonal), else 0. -/
def posR (lab : Fin 8192 → BitVec 32) (r : Fin 8192) (k : Fin 8192) : ℝ := if lab r = lab k ∧ r ≠ k then 1 else 0

theorem nsR_01 (r k : Fin 8192) : nsR r k = 0 ∨ nsR r k = 1 := by unfold nsR; split <;> simp
theorem posR_01 (lab : Fin 8192 → BitVec 32) (r k : Fin 8192) : posR lab r k = 0 ∨ posR lab r k = 1 := by unfold posR; split <;> simp
/-- Every row has a column off its diagonal. -/
theorem nsR_ex (r : Fin 8192) : ∃ k, nsR r k = 1 := by
  by_cases h : r = ⟨0, by omega⟩
  · exact ⟨⟨1, by omega⟩, by unfold nsR; rw [if_neg]; subst h; intro h'; exact absurd (congrArg Fin.val h') (by decide)⟩
  · exact ⟨⟨0, by omega⟩, by unfold nsR; rw [if_neg h]⟩

end Cert.RowSpec

end
-- ==== Proof.KI.Value.lean ====
import proofs.«406051_j84928683311678_2_alg».proof.Proof.KI.Data
import proofs.«406051_j84928683311678_2_alg».proof.Proof.RowData
import Idealize.ShloMosaic.Lib.ValueIdx
import Idealize.ShloMosaic.Lib.Pipeline.Value

/-!
# The two output arrays after the region, row by row

Grid point `t` writes rows `1024 t … 1024 t + 1023` of the contribution column and of the validity column, and the
eight points tile the 8192 rows: so entry `1024 t + p` of each array after the region is entry `p` of what point `t`'s
body stored, computed from that point's four input blocks — rows `1024 t …` of the feature matrix and of the label
column, and the whole feature matrix and label row, which chunk `r` reads at rows / columns `1024 r …`.
-/

set_option maxRecDepth 16384

noncomputable section

namespace Cert.KernelIdeal.Hand

open Cert.KernelIdeal Cert.KernelIdeal.Gen Cert.RowSpec
open Idealize.ShloMosaic Idealize.ShloMosaic.TcCoe Idealize.SL.Sem ValueIdx
open Idealize.ShloMosaic.Pipeline (Dat Cfg Window)

variable {F : FTy → Type} [FloatOps F] [Named F]

variable (V : (c : Dev nD) → (b : Ref sig .tc) → Buf (Elt F) ((c : Thread nD τ).loc b))

/-- Grid point number `t`. -/
def pt (t : Fin 8) : Fin cfg0.N := ⟨t.val, by show t.val < grid0.N; rw [N_0]; exact t.isLt⟩

/-- Point `t`'s grid coordinate is `t`. -/
theorem coords_pt (t : Fin 8) : (grid0.coords (pt t) 0).val = t.val := by
  show t.val / grid0.stride 0 % 8 = t.val
  rw [show grid0.stride 0 = 1 from by decide]
  have := t.isLt
  omega

/-- The zero offsets of a whole-buffer rectangle, however spelt. -/
theorem hz2 : (![0, 0] : Fin 2 → Nat) = fun _ => 0 := funext fun a => by fin_cases a <;> rfl

/-- The block index maps over the grid: the row block, the row labels and the two output columns sit at block row `t`
    (column block 0), the resident matrix and the resident label row at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The row block of point `t`: rows `1024 t + p` of the feature matrix. -/
theorem rowblk_apply (c : Dev nD) (t : Fin 8) (p : Fin 1024) (d : Fin 128) :
    View.ld (iblk0 V c 0 (pt t)) rX (ix2 p d) = V c main_v2 (ix2 (cidx t p) d) := by
  rw [View.ld_unit_zero (S := S1024x128) hz2]
  show V c main_v2 (((cfg0.win 0).blk (pt t)).view.emb (ix2 p d)) = V c main_v2 (ix2 (cidx t p) d)
  obtain ⟨e0, e1, -⟩ := idx_facts (pt t)
  congr 1
  funext a; apply Fin.ext
  match a with
  | ⟨0, _⟩ =>
    show win0_0.index (pt t) (0 : Fin 2) * 1024 + 1 * p.val = 1024 * t.val + p.val
    rw [e0]; show t.val * 1024 + 1 * p.val = _; omega
  | ⟨1, _⟩ =>
    show win0_0.index (pt t) (1 : Fin 2) * 128 + 1 * d.val = d.val
    rw [e1]; omega

/-- Chunk `r` of the resident matrix: rows `1024 r + j`. -/
theorem colblk_apply (c : Dev nD) (t : Fin 8) (r : Fin 8) (j : Fin 1024) (d : Fin 128) :
    ysOf (iblk0 V c 1 (pt t)) r (ix2 j d) = V c main_v2 (ix2 (cidx r j) d) := by
  show V c main_v2 (((cfg0.win 1).blk (pt t)).view.emb ((rY r).idx (ix2 j d))) = V c main_v2 (ix2 (cidx r j) d)
  obtain ⟨-, -, e0, e1, -⟩ := idx_facts (pt t)
  congr 1
  funext a; apply Fin.ext
  match a with
  | ⟨0, _⟩ =>
    show win0_1.index (pt t) (0 : Fin 2) * 8192 + 1 * (k0_off1 (BitVec.ofNat 32 r.val) (0 : Fin 2) + 1 * j.val) = 1024 * r.val + j.val
    rw [e0, k0_off1_eq r]; show 0 * 8192 + 1 * (1024 * r.val + 1 * j.val) = _; omega
  | ⟨1, _⟩ =>
    show win0_1.index (pt t) (1 : Fin 2) * 128 + 1 * (k0_off1 (BitVec.ofNat 32 r.val) (1 : Fin 2) + 1 * d.val) = d.val
    rw [e1, k0_off1_eq r]; show 0 * 128 + 1 * (0 + 1 * d.val) = _; omega

/-- The row labels of point `t`. -/
theorem rowlab_apply (c : Dev nD) (t : Fin 8) (p : Fin 1024) :
    View.ld (iblk0 V c 2 (pt t)) rW (ix2 p (0 : Fin 1)) = V c main_v3 (ix2 (cidx t p) (0 : Fin 1)) := by
  rw [View.ld_unit_zero (S := S1024x1) hz2]
  show V c main_v3 (((cfg0.win 2).blk (pt t)).view.emb (ix2 p (0 : Fin 1))) = V c main_v3 (ix2 (cidx t p) (0 : Fin 1))
  obtain ⟨-, -, -, -, e0, e1, -⟩ := idx_facts (pt t)
  congr 1
  funext a; apply Fin.ext
  match a with
  | ⟨0, _⟩ =>
    show win0_2.index (pt t) (0 : Fin 2) * 1024 + 1 * p.val = 1024 * t.val + p.val
    rw [e0]; show t.val * 1024 + 1 * p.val = _; omega
  | ⟨1, _⟩ =>
    show win0_2.index (pt t) (1 : Fin 2) * 1 + 1 * 0 = 0
    rw [e1]

/-- Chunk `r` of the resident label row: columns `1024 r + j`. -/
theorem collab_apply (c : Dev nD) (t : Fin 8) (r : Fin 8) (j : Fin 1024) :
    csOf (iblk0 V c 3 (pt t)) r (ix2 (0 : Fin 1) j) = V c main_v4 (ix2 (0 : Fin 1) (cidx r j)) := by
  show V c main_v4 (((cfg0.win 3).blk (pt t)).view.emb ((rC r).idx (ix2 (0 : Fin 1) j))) = V c main_v4 (ix2 (0 : Fin 1) (cidx r j))
  obtain ⟨-, -, -, -, -, -, e0, e1, -⟩ := idx_facts (pt t)
  congr 1
  funext a; apply Fin.ext
  match a with
  | ⟨0, _⟩ =>
    show win0_3.index (pt t) (0 : Fin 2) * 1 + 1 * (k0_off2 (BitVec.ofNat 32 r.val) (0 : Fin 2) + 1 * 0) = 0
    rw [e0, k0_off2_eq r]; rfl
  | ⟨1, _⟩ =>
    show win0_3.index (pt t) (1 : Fin 2) * 8192 + 1 * (k0_off2 (BitVec.ofNat 32 r.val) (1 : Fin 2) + 1 * j.val) = 1024 * r.val + j.val
    rw [e1, k0_off2_eq r]; show 0 * 8192 + 1 * (1024 * r.val + 1 * j.val) = _; omega

/-- The two output columns' index maps send distinct grid points to distinct blocks of rows. -/
theorem idx_inj4 : ∀ t t' : Fin cfg0.N, win0_4.index t = win0_4.index t' → t = t' :=
  (by decide +kernel : ∀ t t' : Fin grid0.N, win0_4.index t = win0_4.index t' → t = t')
theorem idx_inj5 : ∀ t t' : Fin cfg0.N, win0_5.index t = win0_5.index t' → t = t' :=
  (by decide +kernel : ∀ t t' : Fin grid0.N, win0_5.index t = win0_5.index t' → t = t')

/-- So two points' blocks of rows share no row. -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- What point `t` writes back to the contribution column: the one whole-buffer store's payload. -/
theorem flushed4_eq (c : Dev nD) (t : Fin cfg0.N) :
    (dat0 V c).flushed 4 t
      = blockC (grid0.coords t) (View.ld (iblk0 V c 0 t) rX) (View.ld (iblk0 V c 2 t) rW)
          (ysOf (iblk0 V c 1 t)) (csOf (iblk0 V c 3 t)) := by
  show (cfg0.win 4).cut (grid0.coords t) ((dat0 V c).after 4 t) = _
  rw [after0_4]
  unfold out0_4
  rw [View.canon_unit_zero hz2]
  rfl
/-- The same for the validity column. -/
theorem flushed5_eq (c : Dev nD) (t : Fin cfg0.N) :
    (dat0 V c).flushed 5 t
      = blockV (grid0.coords t) (View.ld (iblk0 V c 0 t) rX) (View.ld (iblk0 V c 2 t) rW)
          (ysOf (iblk0 V c 1 t)) (csOf (iblk0 V c 3 t)) := by
  show (cfg0.win 5).cut (grid0.coords t) ((dat0 V c).after 5 t) = _
  rw [after0_5]
  unfold out0_5
  rw [View.canon_unit_zero hz2]
  rfl

/-- Row `p` of point `t`'s block of an output column is row `1024 t + p` of the column. -/
theorem emb4 (t : Fin 8) (p : Fin 1024) :
    ((cfg0.win 4).blk (pt t)).view.emb (ix2 p (0 : Fin 1)) = ix2 (cidx t p) (0 : Fin 1) := by
  obtain ⟨-, -, -, -, -, -, -, -, e0, e1, -⟩ := idx_facts (pt t)
  funext a; apply Fin.ext
  match a with
  | ⟨0, _⟩ =>
    show win0_4.index (pt t) (0 : Fin 2) * 1024 + 1 * p.val = 1024 * t.val + p.val
    rw [e0]; show t.val * 1024 + 1 * p.val = _; omega
  | ⟨1, _⟩ =>
    show win0_4.index (pt t) (1 : Fin 2) * 1 + 1 * 0 = 0
    rw [e1]
theorem emb5 (t : Fin 8) (p : Fin 1024) :
    ((cfg0.win 5).blk (pt t)).view.emb (ix2 p (0 : Fin 1)) = ix2 (cidx t p) (0 : Fin 1) := by
  obtain ⟨-, -, -, -, -, -, -, -, -, -, e0, e1⟩ := idx_facts (pt t)
  funext a; apply Fin.ext
  match a with
  | ⟨0, _⟩ =>
    show win0_5.index (pt t) (0 : Fin 2) * 1024 + 1 * p.val = 1024 * t.val + p.val
    rw [e0]; show t.val * 1024 + 1 * p.val = _; omega
  | ⟨1, _⟩ =>
    show win0_5.index (pt t) (1 : Fin 2) * 1 + 1 * 0 = 0
    rw [e1]

/-- Row `1024 t + p` of the contribution column after the region is row `p` of what point `t` stored. -/
theorem final4_apply (c : Dev nD) (t : Fin 8) (p : Fin 1024) :
    (dat0 V c).arrAt 4 cfg0.N (ix2 (cidx t p) (0 : Fin 1))
      = blockC (grid0.coords (pt t)) (View.ld (iblk0 V c 0 (pt t)) rX) (View.ld (iblk0 V c 2 (pt t)) rW)
          (ysOf (iblk0 V c 1 (pt t))) (csOf (iblk0 V c 3 (pt t))) (ix2 p (0 : Fin 1)) := by
  refine (congrArg ((dat0 V c).arrAt 4 cfg0.N) (emb4 t p).symm).trans ?_
  refine ((dat0 V c).arrAt_emb_eq_flushed 4 disjoint4 (pt t) (flush0_4 (pt t)) (ix2 p (0 : Fin 1))).trans ?_
  show (dat0 V c).flushed 4 (pt t) (ix2 p (0 : Fin 1)) = _
  rw [flushed4_eq]
/-- The same for the validity column. -/
theorem final5_apply (c : Dev nD) (t : Fin 8) (p : Fin 1024) :
    (dat0 V c).arrAt 5 cfg0.N (ix2 (cidx t p) (0 : Fin 1))
      = blockV (grid0.coords (pt t)) (View.ld (iblk0 V c 0 (pt t)) rX) (View.ld (iblk0 V c 2 (pt t)) rW)
          (ysOf (iblk0 V c 1 (pt t))) (csOf (iblk0 V c 3 (pt t))) (ix2 p (0 : Fin 1)) := by
  refine (congrArg ((dat0 V c).arrAt 5 cfg0.N) (emb5 t p).symm).trans ?_
  refine ((dat0 V c).arrAt_emb_eq_flushed 5 disjoint5 (pt t) (flush0_5 (pt t)) (ix2 p (0 : Fin 1))).trans ?_
  show (dat0 V c).flushed 5 (pt t) (ix2 p (0 : Fin 1)) = _
  rw [flushed5_eq]

end Cert.KernelIdeal.Hand

end
-- ==== Proof.KI.RowValue.lean ====
import proofs.«406051_j84928683311678_2_alg».proof.Proof.KI.Chunk
import proofs.«406051_j84928683311678_2_alg».proof.Proof.RowData
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

/-!
# A row block's arithmetic, read at one row

A grid point's arithmetic is spelt over columns of 1024 rows and tiles of 1024 x 1024 entries. Read at row `p` of the
block — global row `1024 t + p` — every operation touches only that row's numbers: a lane sum is the sum of the tile's
row `p`, a lane maximum its largest entry, a column broadcast over the lanes repeats the column's entry of row `p`, the
product with a chunk's columns is the dot product of two feature rows, and the two masks compare the global row index
with the global column index `1024 c + j` and the two labels. So one chunk's step on the block, read at row `p`, is the
scalar streaming step on that row's logits, off-diagonal indicator and positives; eight of them from the empty state
give the row's final streaming state, and the closing arithmetic gives its loss contribution and validity flag.
-/

noncomputable section

namespace Cert.KernelIdeal.Hand

open Cert.KernelIdeal Cert.KernelIdeal.Gen Cert.RowSpec Idealize.ShloMosaic ValueIdx

namespace RowV

variable {α : Type}

/-! ## Layout operations read at a row and a lane -/

/-- A column broadcast over the lanes reads, at row p and lane q, the column's entry of row p. -/
theorem bcastCol_apply (v : S1024x1.Idx → α) (p : Fin 1024) (q : Fin 1024) :
    broadcastTo S1024x1024 v broadcasts_S1024x1_S1024x1024 (ix2 p q) = v (ix2 p (0 : Fin 1)) := by
  refine broadcastTo_apply v broadcasts_S1024x1_S1024x1024 (ix2 p q) (ix2 p (0 : Fin 1)) fun ax => ?_
  match ax with
  | ⟨0, _⟩ => rfl
  | ⟨1, _⟩ => rfl

/-- A row broadcast over the rows reads, at row p and lane q, the row's entry of lane q. -/
theorem bcastRow_apply (v : S1x1024.Idx → α) (p : Fin 1024) (q : Fin 1024) :
    broadcastTo S1024x1024 v broadcasts_S1x1024_S1024x1024 (ix2 p q) = v (ix2 (0 : Fin 1) q) :=
  broadcastTo_1b_ab_apply v broadcasts_S1x1024_S1024x1024 p q

/-- A vector of 1024 entries viewed as a column reads its entry p at row p. -/
theorem colCast_apply (w : S1024.Idx → α) (p : Fin 1024) (u : Fin 1) :
    shapeCast S1024x1 w shapeCasts_S1024_S1024x1 (ix2 p u) = w (ix1 p) :=
  shapeCast_apply w shapeCasts_S1024_S1024x1 _ _ (by
    have hu : u.val = 0 := by omega
    rw [Shape.rowMajor_val_two, Shape.rowMajor_val_one]
    show p.val = p.val * 1 + u.val
    rw [hu, Nat.mul_one, Nat.add_zero])

/-! ## The lane reductions read at a row -/

/-- Lane q inserted into row p of the reduced vector is the tile's entry (p, q). -/
theorem lane_lift (p : Fin 1024) (q : Fin 1024) :
    reduces_S1024x1024_S1024.lift (ix1 p) q = ix2 p q := by
  funext c
  apply Fin.ext
  match c with
  | ⟨0, _⟩ => rfl
  | ⟨1, _⟩ => rfl

/-- The word of minus infinity, of one, and of minus one. -/
theorem negInf_bits : Ideal.ofBits .f32 0xFF800000#32 = ⊥ := by simp [Ideal.ofBits, Ideal.ieee]
theorem one_bits : Ideal.ofBits .f32 0x3F800000#32 = 1 := by simp [Ideal.ofBits, Ideal.ieee, -EReal.coe_mul]; norm_num
theorem negOne_bits : Ideal.ofBits .f32 0xBF800000#32 = ((-1 : ℝ) : EReal) := by simp [Ideal.ofBits, Ideal.ieee, -EReal.coe_mul]; norm_num

/-- A lane sum, as a column, at row p is the sum of the tile's row p. -/
theorem rowSum_apply (v : FVec Ideal S1024x1024 .f32) (p : Fin 1024) (u : Fin 1) :
    rowSum (F := Ideal) v (ix2 p u) = ∑ q : Fin 1024, v (ix2 p q) := by
  unfold rowSum
  rw [colCast_apply]
  refine (Ideal.multiReduction_add_single v 0x00000000#32 reduces_S1024x1024_S1024 (.inl rfl) rfl (ix1 p)).trans ?_
  exact Finset.sum_congr rfl fun q _ => congrArg v (lane_lift p q)

/-- A lane maximum, as a column, at row p is the largest entry of the tile's row p, taken from minus infinity. -/
theorem rowMax_apply (v : FVec Ideal S1024x1024 .f32) (p : Fin 1024) (u : Fin 1) :
    rowMax (F := Ideal) v (ix2 p u) = (Finset.univ : Finset (Fin 1024)).fold max ⊥ (fun q => v (ix2 p q)) := by
  unfold rowMax
  rw [colCast_apply]
  refine (Ideal.multiReduction_maximumf_single v 0xFF800000#32 reduces_S1024x1024_S1024 (.inl rfl) rfl (ix1 p)).trans ?_
  have e : (v ∘ reduces_S1024x1024_S1024.lift (ix1 p)) = fun q : Fin 1024 => v (ix2 p q) :=
    funext fun q => congrArg v (lane_lift p q)
  rw [e]
  show (Finset.univ : Finset (Fin 1024)).fold max (Ideal.ofBits .f32 0xFF800000#32) _ = _
  rw [negInf_bits]

/-! ## The similarities: the matrix product read at an entry -/

theorem lhs_dot_0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
theorem lhs_dot_1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
theorem rhs_dot_0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
theorem rhs_dot_1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-- The product of the row block with a column block, both contracted along their 128 features: entry (p, j) is the
    dot product of row p of the one with row j of the other. -/
theorem dot_apply (x y : FVec Ideal S1024x128 .bf16) (p j : Fin 1024) :
    matmul dot_S1024x128_S1024x128_S1024x1024_1_1_0_0_n_n none x y (constant (F := Ideal) S1024x1024 .f32 0x00000000#32) (ix2 p j)
      = ∑ d : Fin 128, x (ix2 p d) * y (ix2 j d) := by
  simp only [matmul]
  rw [Ideal.matmul_constant_zero_apply, ← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 p j) ((contrEquiv1 dot_S1024x128_S1024x128_S1024x1024_1_1_0_0_n_n 128 rfl rfl).symm k) = ix2 p k := funext fun a => Fin.ext (by
    match a with
    | ⟨0, _⟩ => exact lhs_dot_0 _ _
    | ⟨1, _⟩ => exact (lhs_dot_1 _ _).trans hk)
  have er : dot_S1024x128_S1024x128_S1024x1024_1_1_0_0_n_n.rhsIdx (ix2 p j) ((contrEquiv1 dot_S1024x128_S1024x128_S1024x1024_1_1_0_0_n_n 128 rfl rfl).symm k) = ix2 j k := funext fun a => Fin.ext (by
    match a with
    | ⟨0, _⟩ => exact rhs_dot_0 _ _
    | ⟨1, _⟩ => exact (rhs_dot_1 _ _).trans hk)
  rw [el, er]

/-- The named inverse temperature is the rational its name denotes. -/
theorem invTemp_val : Named.named (F := Ideal) κ "inv_temp" (φ := .f32) 0x41649249#32 = ((134217728 / 9395241 : ℝ) : EReal) :=
  IdealRules.named_const.ideal_named_scalar _ _ _ _ rfl

/-- A finite sum of reals, read in the extended reals, is the sum of the terms read there. -/
theorem coe_sum_real {ι : Type} (s : Finset ι) (f : ι → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- Entry (p, j) of a chunk's scaled similarities is the logit of row 1024 t + p against column 1024 c + j. -/
theorem logits_apply (x : FVec Ideal S1024x128 .bf16) (yl : Vec Ideal S1024x128 .bf16) (cf : Fin 8192 → Fin 128 → ℝ)
    (t c : Fin 8) (p j : Fin 1024)
    (hx : ∀ d : Fin 128, x (ix2 p d) = ((cf (cidx t p) d : ℝ) : EReal))
    (hy : ∀ d : Fin 128, yl (ix2 j d) = ((cf (cidx c j) d : ℝ) : EReal)) :
    logits (F := Ideal) x yl (ix2 p j) = ((zK cf (cidx t p) (cidx c j) : ℝ) : EReal) := by
  unfold logits
  show matmul dot_S1024x128_S1024x128_S1024x1024_1_1_0_0_n_n none x (shapeCast S1024x128 yl shapeCasts_S1024x128_S1024x128)
      (constant (F := Ideal) S1024x1024 .f32 0x00000000#32) (ix2 p j) * Named.named (F := Ideal) κ "inv_temp" (φ := .f32) 0x41649249#32 = _
  rw [dot_apply, shapeCast_self, invTemp_val]
  unfold zK dotR κv
  rw [EReal.coe_mul, coe_sum_real]
  congr 1
  refine Finset.sum_congr rfl fun d _ => ?_
  rw [hx, hy, EReal.coe_mul]

/-! ## The global indices and the two masks -/

/-- The 32-bit word of 1024 a + b, computed as the kernel does: the word of a times 1024, plus the word of b. -/
theorem word_mul_add (a b : Nat) (ha : a < 8) (hb : b < 1024) :
    IntOp.addi (Scalar.muli (BitVec.ofNat 32 a) 1024#32) (BitVec.ofNat 32 b) = BitVec.ofNat 32 (1024 * a + b) := by
  apply BitVec.eq_of_toNat_eq
  simp only [IntOp.addi, Scalar.muli, IntOp.muli, BitVec.toNat_add, BitVec.toNat_mul, BitVec.toNat_ofNat]
  omega

/-- Two global indices below 8192 have the same word only when they are equal. -/
theorem word_inj (a b : Fin 8192) : BitVec.ofNat 32 a.val = BitVec.ofNat 32 b.val ↔ a = b := by
  constructor
  · intro h
    have h' := congrArg BitVec.toNat h
    simp only [BitVec.toNat_ofNat] at h'
    exact Fin.ext (by have := a.isLt; have := b.isLt; omega)
  · rintro rfl; rfl

/-- Row p of block t has global index 1024 t + p. -/
theorem rowIdx_apply (i : grid0.Coords) (t : Fin 8) (hi : (i 0).val = t.val) (p : Fin 1024) (u : Fin 1) :
    rowIdx i (ix2 p u) = BitVec.ofNat 32 (cidx t p).val := by
  unfold rowIdx
  show IntOp.addi (Scalar.muli (BitVec.ofNat 32 (i 0).val) 1024#32) (iota .tc S1024x1 32 [0] iota_S1024x1_d0_w32 (ix2 p u)) = _
  rw [iota_single_apply, hi]
  exact word_mul_add t.val p.val t.isLt p.isLt

/-- Lane j of chunk c has global index 1024 c + j. -/
theorem colIdx_apply (c : Fin 8) (j : Fin 1024) (u : Fin 1) :
    addi (broadcast S1x1024 (Scalar.muli (BitVec.ofNat 32 c.val) 1024#32)) (iota .tc S1x1024 32 [1] iota_S1x1024_d1_w32) (ix2 u j)
      = BitVec.ofNat 32 (cidx c j).val := by
  show IntOp.addi (Scalar.muli (BitVec.ofNat 32 c.val) 1024#32) (iota .tc S1x1024 32 [1] iota_S1x1024_d1_w32 (ix2 u j)) = _
  rw [iota_single_apply]
  exact word_mul_add c.val j.val c.isLt j.isLt

/-- The off-diagonal bit at (p, j) of chunk c is set exactly when row 1024 t + p is not column 1024 c + j. -/
theorem offDiag_apply (ri : IVec S1024x1 32) (t c : Fin 8) (p j : Fin 1024)
    (hri : ri (ix2 p (0 : Fin 1)) = BitVec.ofNat 32 (cidx t p).val) :
    offDiag ri (BitVec.ofNat 32 c.val) (ix2 p j) = 1#1 ↔ cidx t p ≠ cidx c j := by
  unfold offDiag
  show IntOp.cmpi .ne (broadcastTo S1024x1024 ri broadcasts_S1024x1_S1024x1024 (ix2 p j))
    (broadcastTo S1024x1024 (addi (broadcast S1x1024 (Scalar.muli (BitVec.ofNat 32 c.val) 1024#32)) (iota .tc S1x1024 32 [1] iota_S1x1024_d1_w32)) broadcasts_S1x1024_S1024x1024 (ix2 p j)) = 1#1 ↔ _
  rw [bcastCol_apply, bcastRow_apply, colIdx_apply, hri, IntOp.cmpi_ne]
  exact not_congr (word_inj _ _)

/-- A one-bit mask widened and converted is 1 where the bit is set and 0 where it is not. -/
theorem maskF_apply (x : BitVec 1) (P : Prop) [Decidable P] (h : x = 1#1 ↔ P) :
    FloatOps.sitofp (F := Ideal) .f32 (x.setWidth 32) = (((if P then 1 else 0 : ℝ)) : EReal) := by
  rcases BitVec.eq_zero_or_eq_one x with hx | hx
  · have hP : ¬P := fun hp => by have h1 := h.mpr hp; rw [hx] at h1; exact absurd h1 (by decide)
    rw [if_neg hP, hx]
    show ((((0#1 : BitVec 1).setWidth 32).toInt : ℝ) : EReal) = ((0 : ℝ) : EReal)
    have e : ((0#1 : BitVec 1).setWidth 32).toInt = 0 := by decide
    rw [e, Int.cast_zero]
  · have hP : P := h.mp hx
    rw [if_pos hP, hx]
    show ((((1#1 : BitVec 1).setWidth 32).toInt : ℝ) : EReal) = ((1 : ℝ) : EReal)
    have e : ((1#1 : BitVec 1).setWidth 32).toInt = 1 := by decide
    rw [e, Int.cast_one]

/-- The off-diagonal mask as a number is the row's off-diagonal indicator. -/
theorem offDiagF_apply (ri : IVec S1024x1 32) (t c : Fin 8) (p j : Fin 1024)
    (hri : ri (ix2 p (0 : Fin 1)) = BitVec.ofNat 32 (cidx t p).val) :
    offDiagF (F := Ideal) ri (BitVec.ofNat 32 c.val) (ix2 p j) = ((nsR (cidx t p) (cidx c j) : ℝ) : EReal) := by
  unfold offDiagF
  show FloatOps.sitofp (F := Ideal) .f32 ((offDiag ri (BitVec.ofNat 32 c.val) (ix2 p j)).setWidth 32) = _
  rw [maskF_apply _ _ (offDiag_apply ri t c p j hri)]
  unfold nsR
  by_cases h : cidx t p = cidx c j
  · rw [if_neg (not_not.mpr h), if_pos h]
  · rw [if_pos h, if_neg h]

/-- The positives' mask as a number is the row's positive-pair indicator. -/
theorem posF_apply (ri lr : IVec S1024x1 32) (cl : Vec Ideal S1x1024 .i32) (lab : Fin 8192 → BitVec 32) (t c : Fin 8) (p j : Fin 1024)
    (hri : ri (ix2 p (0 : Fin 1)) = BitVec.ofNat 32 (cidx t p).val)
    (hlr : lr (ix2 p (0 : Fin 1)) = lab (cidx t p)) (hcl : cl (ix2 (0 : Fin 1) j) = lab (cidx c j)) :
    posF (F := Ideal) ri lr (BitVec.ofNat 32 c.val) cl (ix2 p j) = ((posR lab (cidx t p) (cidx c j) : ℝ) : EReal) := by
  unfold posF
  show FloatOps.sitofp (F := Ideal) .f32 ((IntOp.andi (IntOp.cmpi .eq (broadcastTo S1024x1024 lr broadcasts_S1024x1_S1024x1024 (ix2 p j))
    (broadcastTo S1024x1024 (shapeCast S1x1024 cl shapeCasts_S1x1024_S1x1024) broadcasts_S1x1024_S1024x1024 (ix2 p j)))
    (offDiag ri (BitVec.ofNat 32 c.val) (ix2 p j))).setWidth 32) = _
  rw [maskF_apply _ (lab (cidx t p) = lab (cidx c j) ∧ cidx t p ≠ cidx c j)
    (IntOp.andi_eq_one.trans (and_congr (by rw [bcastCol_apply, bcastRow_apply, shapeCast_self, hlr, hcl]; exact IntOp.cmpi_eq) (offDiag_apply ri t c p j hri)))]
  rfl

/-! ## One chunk at a row -/

/-- The four running numbers of row p of a block's state. -/
def rowOf (st : St Ideal) (p : Fin 1024) : S :=
  ⟨st.m (ix2 p (0 : Fin 1)), st.l (ix2 p (0 : Fin 1)), st.sm (ix2 p (0 : Fin 1)), st.ms (ix2 p (0 : Fin 1))⟩

/-- Two one-row states with the same four numbers are the same. -/
theorem S_ext {a b : S} (h1 : a.m = b.m) (h2 : a.l = b.l) (h3 : a.sm = b.sm) (h4 : a.ms = b.ms) : a = b := by
  cases a; cases b
  simp only at h1 h2 h3 h4
  subst h1 h2 h3 h4
  rfl

/-- The chunk's arithmetic over tiles whose row p holds the numbers z, ns, pos is, at row p, the one-row step on those numbers. -/
theorem stepCore_row (s nsv psv : FVec Ideal S1024x1024 .f32) (st : St Ideal) (p : Fin 1024) (z ns pos : Fin 1024 → EReal)
    (hs : ∀ j, s (ix2 p j) = z j) (hns : ∀ j, nsv (ix2 p j) = ns j) (hpos : ∀ j, psv (ix2 p j) = pos j) :
    rowOf ⟨maximumf st.m (rowMax s),
        addf (mulf st.l (exp (subf st.m (maximumf st.m (rowMax s)))))
          (rowSum (mulf (exp (subf s (broadcastTo S1024x1024 (maximumf st.m (rowMax s)) broadcasts_S1024x1_S1024x1024))) nsv)),
        addf st.sm (rowSum (mulf psv s)), addf st.ms (rowSum psv)⟩ p
      = sstep z ns pos (rowOf st p) := by
  have hm : maximumf st.m (rowMax s) (ix2 p (0 : Fin 1))
      = max (st.m (ix2 p (0 : Fin 1))) ((Finset.univ : Finset (Fin 1024)).fold max ⊥ z) := by
    show max (st.m (ix2 p (0 : Fin 1))) (rowMax s (ix2 p (0 : Fin 1))) = _
    rw [rowMax_apply, funext hs]
  refine S_ext hm ?_ ?_ ?_
  · show st.l (ix2 p (0 : Fin 1)) * Ideal.exp (st.m (ix2 p (0 : Fin 1)) - maximumf st.m (rowMax s) (ix2 p (0 : Fin 1)))
        + rowSum (mulf (exp (subf s (broadcastTo S1024x1024 (maximumf st.m (rowMax s)) broadcasts_S1024x1_S1024x1024))) nsv) (ix2 p (0 : Fin 1))
      = st.l (ix2 p (0 : Fin 1)) * Ideal.exp (st.m (ix2 p (0 : Fin 1)) - max (st.m (ix2 p (0 : Fin 1))) ((Finset.univ : Finset (Fin 1024)).fold max ⊥ z))
        + ∑ j, Ideal.exp (z j - max (st.m (ix2 p (0 : Fin 1))) ((Finset.univ : Finset (Fin 1024)).fold max ⊥ z)) * ns j
    rw [rowSum_apply, hm]
    refine congrArg (_ + ·) (Finset.sum_congr rfl fun j _ => ?_)
    show Ideal.exp (s (ix2 p j) - broadcastTo S1024x1024 (maximumf st.m (rowMax s)) broadcasts_S1024x1_S1024x1024 (ix2 p j)) * nsv (ix2 p j) = _
    rw [bcastCol_apply, hs, hns, hm]
  · show st.sm (ix2 p (0 : Fin 1)) + rowSum (mulf psv s) (ix2 p (0 : Fin 1)) = st.sm (ix2 p (0 : Fin 1)) + ∑ j, pos j * z j
    rw [rowSum_apply]
    refine congrArg (_ + ·) (Finset.sum_congr rfl fun j _ => ?_)
    show psv (ix2 p j) * s (ix2 p j) = _
    rw [hs, hpos]
  · show st.ms (ix2 p (0 : Fin 1)) + rowSum psv (ix2 p (0 : Fin 1)) = st.ms (ix2 p (0 : Fin 1)) + ∑ j, pos j
    rw [rowSum_apply]
    exact congrArg (_ + ·) (Finset.sum_congr rfl fun j _ => hpos j)

/-- Chunk c of block t, at row p: the one-row step on that row's logits, off-diagonal indicator and positives of columns 1024 c … 1024 c + 1023. -/
theorem step_row (ri lr : IVec S1024x1 32) (x : FVec Ideal S1024x128 .bf16) (yl : Vec Ideal S1024x128 .bf16) (cl : Vec Ideal S1x1024 .i32)
    (st : St Ideal) (cf : Fin 8192 → Fin 128 → ℝ) (lab : Fin 8192 → BitVec 32) (t c : Fin 8) (p : Fin 1024)
    (hri : ri (ix2 p (0 : Fin 1)) = BitVec.ofNat 32 (cidx t p).val)
    (hlr : lr (ix2 p (0 : Fin 1)) = lab (cidx t p))
    (hx : ∀ d : Fin 128, x (ix2 p d) = ((cf (cidx t p) d : ℝ) : EReal))
    (hy : ∀ (j : Fin 1024) (d : Fin 128), yl (ix2 j d) = ((cf (cidx c j) d : ℝ) : EReal))
    (hcl : ∀ j : Fin 1024, cl (ix2 (0 : Fin 1) j) = lab (cidx c j)) :
    rowOf (step ri lr x (BitVec.ofNat 32 c.val) yl cl st) p
      = sstep (fun j => ((zK cf (cidx t p) (cidx c j) : ℝ) : EReal)) (fun j => ((nsR (cidx t p) (cidx c j) : ℝ) : EReal))
          (fun j => ((posR lab (cidx t p) (cidx c j) : ℝ) : EReal)) (rowOf st p) :=
  stepCore_row (logits x yl) (offDiagF ri (BitVec.ofNat 32 c.val)) (posF ri lr (BitVec.ofNat 32 c.val) cl) st p _ _ _
    (fun j => logits_apply x yl cf t c p j hx (hy j))
    (fun j => offDiagF_apply ri t c p j hri)
    (fun j => posF_apply ri lr cl lab t c p j hri hlr (hcl j))

/-! ## The eight chunks at a row, and the closing arithmetic -/

/-- Before the first chunk every row starts from maximum minus infinity and three zero sums. -/
theorem st0_row (p : Fin 1024) : rowOf (st0 (F := Ideal)) p = S0 := by
  refine S_ext ?_ ?_ ?_ ?_
  · show Ideal.ofBits .f32 0xFF800000#32 = ⊥
    exact negInf_bits
  · show Ideal.ofBits .f32 0x00000000#32 = 0
    exact Ideal.ofBits_zero_f32
  · show Ideal.ofBits .f32 0x00000000#32 = 0
    exact Ideal.ofBits_zero_f32
  · show Ideal.ofBits .f32 0x00000000#32 = 0
    exact Ideal.ofBits_zero_f32

/-- After the eight chunks, row p of block t holds the streaming state of row 1024 t + p over all 8192 columns. -/
theorem stEnd_row (i : grid0.Coords) (x0 : Vec Ideal S1024x128 .bf16) (l0 : Vec Ideal S1024x1 .i32)
    (ys : Fin 8 → Vec Ideal S1024x128 .bf16) (cs : Fin 8 → Vec Ideal S1x1024 .i32)
    (cf : Fin 8192 → Fin 128 → ℝ) (lab : Fin 8192 → BitVec 32) (t : Fin 8) (hi : (i 0).val = t.val)
    (hx : ∀ (p : Fin 1024) (d : Fin 128), x0 (ix2 p d) = ((cf (cidx t p) d : ℝ) : EReal))
    (hl : ∀ p : Fin 1024, l0 (ix2 p (0 : Fin 1)) = lab (cidx t p))
    (hy : ∀ (c : Fin 8) (j : Fin 1024) (d : Fin 128), ys c (ix2 j d) = ((cf (cidx c j) d : ℝ) : EReal))
    (hc : ∀ (c : Fin 8) (j : Fin 1024), cs c (ix2 (0 : Fin 1) j) = lab (cidx c j)) (p : Fin 1024) :
    rowOf (stEnd i x0 l0 ys cs) p
      = sEnd (fun c j => ((zK cf (cidx t p) (cidx c j) : ℝ) : EReal)) (fun c j => ((nsR (cidx t p) (cidx c j) : ℝ) : EReal))
          (fun c j => ((posR lab (cidx t p) (cidx c j) : ℝ) : EReal)) := by
  have hri : rowIdx i (ix2 p (0 : Fin 1)) = BitVec.ofNat 32 (cidx t p).val := rowIdx_apply i t hi p 0
  have hlr : shapeCast S1024x1 l0 shapeCasts_S1024x1_S1024x1 (ix2 p (0 : Fin 1)) = lab (cidx t p) := by
    rw [shapeCast_self]; exact hl p
  have hxx : ∀ d : Fin 128, shapeCast S1024x128 x0 shapeCasts_S1024x128_S1024x128 (ix2 p d) = ((cf (cidx t p) d : ℝ) : EReal) :=
    fun d => by rw [shapeCast_self]; exact hx p d
  unfold stEnd sEnd
  refine (step_row _ _ _ (ys 7) (cs 7) _ cf lab t 7 p hri hlr hxx (hy 7) (hc 7)).trans (congrArg (sstep _ _ _) ?_)
  refine (step_row _ _ _ (ys 6) (cs 6) _ cf lab t 6 p hri hlr hxx (hy 6) (hc 6)).trans (congrArg (sstep _ _ _) ?_)
  refine (step_row _ _ _ (ys 5) (cs 5) _ cf lab t 5 p hri hlr hxx (hy 5) (hc 5)).trans (congrArg (sstep _ _ _) ?_)
  refine (step_row _ _ _ (ys 4) (cs 4) _ cf lab t 4 p hri hlr hxx (hy 4) (hc 4)).trans (congrArg (sstep _ _ _) ?_)
  refine (step_row _ _ _ (ys 3) (cs 3) _ cf lab t 3 p hri hlr hxx (hy 3) (hc 3)).trans (congrArg (sstep _ _ _) ?_)
  refine (step_row _ _ _ (ys 2) (cs 2) _ cf lab t 2 p hri hlr hxx (hy 2) (hc 2)).trans (congrArg (sstep _ _ _) ?_)
  refine (step_row _ _ _ (ys 1) (cs 1) _ cf lab t 1 p hri hlr hxx (hy 1) (hc 1)).trans (congrArg (sstep _ _ _) ?_)
  refine (step_row _ _ _ (ys 0) (cs 0) _ cf lab t 0 p hri hlr hxx (hy 0) (hc 0)).trans (congrArg (sstep _ _ _) ?_)
  exact st0_row p

/-- The validity bit of row p is set exactly when the row's count of positives is not zero. -/
theorem validB_apply (st : St Ideal) (p : Fin 1024) :
    validB st (ix2 p (0 : Fin 1)) = 1#1 ↔ st.ms (ix2 p (0 : Fin 1)) ≠ 0 := by
  unfold validB
  show BitVec.ofBool (decide (st.ms (ix2 p (0 : Fin 1)) ≠ Ideal.ofBits .f32 0x00000000#32)) = 1#1 ↔ _
  rw [Ideal.ofBits_zero_f32]
  by_cases h : st.ms (ix2 p (0 : Fin 1)) = 0
  · simp [h]
  · simp [h]

/-- The closing arithmetic at row p is the one-row loss contribution of the row's final state. -/
theorem contribOf_row (st : St Ideal) (p : Fin 1024) : contribOf st (ix2 p (0 : Fin 1)) = sContrib (rowOf st p) := by
  unfold contribOf sContrib
  show Scalar.select (validB st (ix2 p (0 : Fin 1)))
        (Ideal.ofBits .f32 0xBF800000#32 * (Ideal.div (st.sm (ix2 p (0 : Fin 1)))
            (Scalar.select (validB st (ix2 p (0 : Fin 1))) (st.ms (ix2 p (0 : Fin 1))) (Ideal.ofBits .f32 0x3F800000#32))
          - (st.m (ix2 p (0 : Fin 1)) + Ideal.log (st.l (ix2 p (0 : Fin 1))))))
        (Ideal.ofBits .f32 0x00000000#32)
      = if st.ms (ix2 p (0 : Fin 1)) ≠ 0 then
          ((-1 : ℝ) : EReal) * (Ideal.div (st.sm (ix2 p (0 : Fin 1))) (st.ms (ix2 p (0 : Fin 1)))
            - (st.m (ix2 p (0 : Fin 1)) + Ideal.log (st.l (ix2 p (0 : Fin 1)))))
        else 0
  by_cases h : st.ms (ix2 p (0 : Fin 1)) ≠ 0
  · rw [(validB_apply st p).mpr h, select_one, select_one, if_pos h, negOne_bits]
  · rw [eq_zero_of_ne_one (mt (validB_apply st p).mp h), select_zero, if_neg h, Ideal.ofBits_zero_f32]

/-- The validity flag at row p is the one-row flag of the row's final state. -/
theorem validOf_row (st : St Ideal) (p : Fin 1024) : validOf st (ix2 p (0 : Fin 1)) = sValid (rowOf st p) := by
  unfold validOf sValid
  show FloatOps.sitofp (F := Ideal) .f32 ((validB st (ix2 p (0 : Fin 1))).setWidth 32)
      = if st.ms (ix2 p (0 : Fin 1)) ≠ 0 then 1 else 0
  rw [maskF_apply _ _ (validB_apply st p)]
  by_cases h : st.ms (ix2 p (0 : Fin 1)) ≠ 0
  · rw [if_pos h, if_pos h, EReal.coe_one]
  · rw [if_neg h, if_neg h, EReal.coe_zero]

end RowV

/-- What block t stores for row p into the contribution window is the streaming loss contribution of row 1024 t + p. -/
theorem blockC_apply (i : grid0.Coords) (x0 : Vec Ideal S1024x128 .bf16) (l0 : Vec Ideal S1024x1 .i32)
    (ys : Fin 8 → Vec Ideal S1024x128 .bf16) (cs : Fin 8 → Vec Ideal S1x1024 .i32)
    (cf : Fin 8192 → Fin 128 → ℝ) (lab : Fin 8192 → BitVec 32) (t : Fin 8) (hi : (i 0).val = t.val)
    (hx : ∀ (p : Fin 1024) (d : Fin 128), x0 (ix2 p d) = ((cf (cidx t p) d : ℝ) : EReal))
    (hl : ∀ p : Fin 1024, l0 (ix2 p (0 : Fin 1)) = lab (cidx t p))
    (hy : ∀ (c : Fin 8) (j : Fin 1024) (d : Fin 128), ys c (ix2 j d) = ((cf (cidx c j) d : ℝ) : EReal))
    (hc : ∀ (c : Fin 8) (j : Fin 1024), cs c (ix2 (0 : Fin 1) j) = lab (cidx c j)) (p : Fin 1024) :
    blockC (F := Ideal) i x0 l0 ys cs (ix2 p (0 : Fin 1))
      = sContrib (sEnd (fun c j => ((zK cf (cidx t p) (cidx c j) : ℝ) : EReal)) (fun c j => ((nsR (cidx t p) (cidx c j) : ℝ) : EReal))
          (fun c j => ((posR lab (cidx t p) (cidx c j) : ℝ) : EReal))) := by
  unfold blockC
  rw [RowV.contribOf_row, RowV.stEnd_row i x0 l0 ys cs cf lab t hi hx hl hy hc p]

/-- What block t stores for row p into the validity window is the streaming validity flag of row 1024 t + p. -/
theorem blockV_apply (i : grid0.Coords) (x0 : Vec Ideal S1024x128 .bf16) (l0 : Vec Ideal S1024x1 .i32)
    (ys : Fin 8 → Vec Ideal S1024x128 .bf16) (cs : Fin 8 → Vec Ideal S1x1024 .i32)
    (cf : Fin 8192 → Fin 128 → ℝ) (lab : Fin 8192 → BitVec 32) (t : Fin 8) (hi : (i 0).val = t.val)
    (hx : ∀ (p : Fin 1024) (d : Fin 128), x0 (ix2 p d) = ((cf (cidx t p) d : ℝ) : EReal))
    (hl : ∀ p : Fin 1024, l0 (ix2 p (0 : Fin 1)) = lab (cidx t p))
    (hy : ∀ (c : Fin 8) (j : Fin 1024) (d : Fin 128), ys c (ix2 j d) = ((cf (cidx c j) d : ℝ) : EReal))
    (hc : ∀ (c : Fin 8) (j : Fin 1024), cs c (ix2 (0 : Fin 1) j) = lab (cidx c j)) (p : Fin 1024) :
    blockV (F := Ideal) i x0 l0 ys cs (ix2 p (0 : Fin 1))
      = sValid (sEnd (fun c j => ((zK cf (cidx t p) (cidx c j) : ℝ) : EReal)) (fun c j => ((nsR (cidx t p) (cidx c j) : ℝ) : EReal))
          (fun c j => ((posR lab (cidx t p) (cidx c j) : ℝ) : EReal))) := by
  unfold blockV
  rw [RowV.validOf_row, RowV.stEnd_row i x0 l0 ys cs cf lab t hi hx hl hy hc p]

end Cert.KernelIdeal.Hand

end
-- ==== Proof.RowMath.lean ====
import proofs.«406051_j84928683311678_2_alg».proof.Proof.RowSpec
import Mathlib.Data.EReal.Operations
import Mathlib.Data.EReal.Inv
import Mathlib.Data.Finset.Lattice.Fold
import Mathlib.Algebra.BigOperators.Group.Finset.Basic
import Mathlib.Algebra.Order.BigOperators.Group.Finset
import Mathlib.Analysis.SpecialFunctions.Exp
import Mathlib.Tactic.Ring
import Mathlib.Tactic.NormNum
import Mathlib.Tactic.Linarith

/-!
# The streaming recurrence ends at the plain softmax formula

For one anchor row, the eight-chunk recurrence (running maximum from -∞, denominator rescaled by
exp (m - m') at each chunk) finishes at the row's maximum, its softmax denominator relative to that maximum,
the positives' logit sum and the positives' count; so the closing arithmetic gives the row's loss.

The argument follows the set of columns already seen: after the chunks whose columns form a nonempty set A,
the state is (max over A of z, ∑ over A of exp (z k - max) · ns k, ∑ over A of pos k · z k, ∑ over A of pos k),
all four real. Absorbing one more chunk B, disjoint from A, turns A into A ∪ B: the maximum of a union is the
larger of the two maxima, each old term exp (z k - m) · exp (m - m') becomes exp (z k - m'), and the sums over a
disjoint union add. The eight chunks together are all 8192 columns.
-/

noncomputable section

namespace Cert.RowSpec

open Idealize.ShloMosaic

/-! ## Real numbers inside the extended reals -/

/-- The inclusion of the reals commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The running maximum of 1024 real logits, started from -∞, is their largest. -/
theorem fold_max_coe (f : Fin 1024 → ℝ) :
    (Finset.univ : Finset (Fin 1024)).fold max ⊥ (fun j => ((f j : ℝ) : EReal))
      = ((Finset.univ.sup' Finset.univ_nonempty f : ℝ) : EReal) := by
  change (Finset.univ : Finset (Fin 1024)).sup (fun j => ((f j : ℝ) : EReal)) = _
  apply le_antisymm
  · apply Finset.sup_le
    intro j _
    exact EReal.coe_le_coe_iff.2 (Finset.le_sup' f (Finset.mem_univ j))
  · obtain ⟨i, hi, h⟩ := Finset.exists_mem_eq_sup' (Finset.univ_nonempty (α := Fin 1024)) f
    rw [h]
    exact Finset.le_sup (f := fun j => ((f j : ℝ) : EReal)) hi

/-- Rescaling a partial denominator from the old maximum m to the new maximum m'. -/
theorem rescale {ι : Type*} (A : Finset ι) (f w : ι → ℝ) (m m' : ℝ) :
    (∑ k ∈ A, Real.exp (f k - m) * w k) * Real.exp (m - m') = ∑ k ∈ A, Real.exp (f k - m') * w k := by
  rw [Finset.sum_mul]
  apply Finset.sum_congr rfl
  intro k _
  rw [mul_right_comm, ← Real.exp_add]
  congr 2
  ring

/-! ## One chunk, on a real state -/

/-- A chunk of real data absorbed into a real state stays real: the maximum is the larger of the old one and the
chunk's, the old denominator is rescaled and the chunk's terms added, the two positives' sums grow by the chunk's. -/
theorem sstep_coe (M L SM MS : ℝ) (s ns pos : Fin 1024 → ℝ) :
    sstep (fun j => ((s j : ℝ) : EReal)) (fun j => ((ns j : ℝ) : EReal)) (fun j => ((pos j : ℝ) : EReal))
        ⟨(M : EReal), (L : EReal), (SM : EReal), (MS : EReal)⟩
      = ⟨((max M (Finset.univ.sup' Finset.univ_nonempty s) : ℝ) : EReal),
         ((L * Real.exp (M - max M (Finset.univ.sup' Finset.univ_nonempty s))
            + ∑ j, Real.exp (s j - max M (Finset.univ.sup' Finset.univ_nonempty s)) * ns j : ℝ) : EReal),
         ((SM + ∑ j, pos j * s j : ℝ) : EReal), ((MS + ∑ j, pos j : ℝ) : EReal)⟩ := by
  have hm : max (M : EReal) ((Finset.univ : Finset (Fin 1024)).fold max ⊥ (fun j => ((s j : ℝ) : EReal)))
      = ((max M (Finset.univ.sup' Finset.univ_nonempty s) : ℝ) : EReal) := by
    rw [fold_max_coe, EReal.coe_strictMono.monotone.map_max]
  simp only [sstep, hm, ← EReal.coe_sub, Ideal.exp_coe, ← EReal.coe_mul, ← coe_sum, ← EReal.coe_add]

/-- The first chunk, from the state before any column: the maximum is the chunk's, the old denominator 0
contributes nothing (0 times exp (-∞ - m') = 0 times 0), the sums are the chunk's. -/
theorem sstep_S0 (s ns pos : Fin 1024 → ℝ) :
    sstep (fun j => ((s j : ℝ) : EReal)) (fun j => ((ns j : ℝ) : EReal)) (fun j => ((pos j : ℝ) : EReal)) S0
      = ⟨((Finset.univ.sup' Finset.univ_nonempty s : ℝ) : EReal),
         ((∑ j, Real.exp (s j - Finset.univ.sup' Finset.univ_nonempty s) * ns j : ℝ) : EReal),
         ((∑ j, pos j * s j : ℝ) : EReal), ((∑ j, pos j : ℝ) : EReal)⟩ := by
  have hm : max (⊥ : EReal) ((Finset.univ : Finset (Fin 1024)).fold max ⊥ (fun j => ((s j : ℝ) : EReal)))
      = ((Finset.univ.sup' Finset.univ_nonempty s : ℝ) : EReal) := by
    rw [fold_max_coe, max_eq_right bot_le]
  simp only [sstep, S0, hm, zero_mul, zero_add, ← EReal.coe_sub, Ideal.exp_coe, ← EReal.coe_mul, ← coe_sum]

/-! ## The columns of a chunk -/

/-- Column numbering inside a chunk, as an injection. -/
def cidxEmb (c : Fin 8) : Fin 1024 ↪ Fin 8192 :=
  ⟨cidx c, fun a b h => by
    have h' := congrArg Fin.val h
    simp only [cidx] at h'
    exact Fin.ext (by omega)⟩

/-- The 1024 columns of chunk c. -/
def chunk (c : Fin 8) : Finset (Fin 8192) := Finset.univ.map (cidxEmb c)

theorem cidxEmb_apply (c : Fin 8) (j : Fin 1024) : cidxEmb c j = cidx c j := rfl

theorem cidx_val (c : Fin 8) (j : Fin 1024) : (cidx c j).val = 1024 * c.val + j.val := rfl

theorem chunk_nonempty (c : Fin 8) : (chunk c).Nonempty := Finset.map_nonempty.2 Finset.univ_nonempty

/-- Chunk c holds exactly the columns 1024 c, ..., 1024 c + 1023. -/
theorem mem_chunk (c : Fin 8) (k : Fin 8192) :
    k ∈ chunk c ↔ 1024 * c.val ≤ k.val ∧ k.val < 1024 * c.val + 1024 := by
  simp only [chunk, Finset.mem_map, Finset.mem_univ, true_and]
  constructor
  · rintro ⟨j, rfl⟩
    have hj := j.isLt
    rw [cidxEmb_apply, cidx_val]
    omega
  · rintro ⟨h1, h2⟩
    refine ⟨⟨k.val - 1024 * c.val, by omega⟩, Fin.ext ?_⟩
    rw [cidxEmb_apply, cidx_val]
    show 1024 * c.val + (k.val - 1024 * c.val) = k.val
    omega

/-- Different chunks share no column. -/
theorem chunk_disjoint {c c' : Fin 8} (h : c.val ≠ c'.val) : Disjoint (chunk c) (chunk c') :=
  Finset.disjoint_left.2 (fun k h1 h2 => by
    rw [mem_chunk] at h1 h2
    omega)

/-- A sum over a set of columns and one more chunk disjoint from it. -/
theorem sum_union_chunk (f : Fin 8192 → ℝ) (A : Finset (Fin 8192)) (c : Fin 8) (hd : Disjoint A (chunk c)) :
    ∑ k ∈ A ∪ chunk c, f k = ∑ k ∈ A, f k + ∑ j, f (cidx c j) := by
  rw [Finset.sum_union hd, chunk, Finset.sum_map]
  rfl

/-- The largest of f over a chunk, through the chunk's own numbering. -/
theorem sup'_chunk (f : Fin 8192 → ℝ) (c : Fin 8) :
    (chunk c).sup' (chunk_nonempty c) f = Finset.univ.sup' Finset.univ_nonempty (fun j => f (cidx c j)) := by
  exact Finset.sup'_map f (chunk_nonempty c)

/-! ## The state after a set of columns -/

/-- The streaming state once exactly the columns in A have been seen: their largest logit, the denominator
relative to it, the positives' logit sum and the positives' count. -/
def stR (z ns pos : Fin 8192 → ℝ) (A : Finset (Fin 8192)) (hA : A.Nonempty) : S :=
  ⟨((A.sup' hA z : ℝ) : EReal), ((∑ k ∈ A, Real.exp (z k - A.sup' hA z) * ns k : ℝ) : EReal),
    ((∑ k ∈ A, pos k * z k : ℝ) : EReal), ((∑ k ∈ A, pos k : ℝ) : EReal)⟩

theorem stR_congr (z ns pos : Fin 8192 → ℝ) {A B : Finset (Fin 8192)} (h : A = B) (hA : A.Nonempty)
    (hB : B.Nonempty) : stR z ns pos A hA = stR z ns pos B hB := by
  subst h
  rfl

/-- The first chunk seen. -/
theorem sstep_first (z ns pos : Fin 8192 → ℝ) (c : Fin 8) :
    sstep (fun j => ((z (cidx c j) : ℝ) : EReal)) (fun j => ((ns (cidx c j) : ℝ) : EReal))
        (fun j => ((pos (cidx c j) : ℝ) : EReal)) S0
      = stR z ns pos (chunk c) (chunk_nonempty c) := by
  rw [sstep_S0 (fun j => z (cidx c j)) (fun j => ns (cidx c j)) (fun j => pos (cidx c j))]
  unfold stR
  rw [sup'_chunk z c]
  have e1 : ∀ f : Fin 8192 → ℝ, ∑ k ∈ chunk c, f k = ∑ j, f (cidx c j) := by
    intro f
    rw [chunk, Finset.sum_map]
    rfl
  rw [e1, e1, e1]

/-- One more chunk, disjoint from the columns already seen. -/
theorem sstep_union (z ns pos : Fin 8192 → ℝ) (A : Finset (Fin 8192)) (hA : A.Nonempty) (c : Fin 8)
    (hd : Disjoint A (chunk c)) :
    sstep (fun j => ((z (cidx c j) : ℝ) : EReal)) (fun j => ((ns (cidx c j) : ℝ) : EReal))
        (fun j => ((pos (cidx c j) : ℝ) : EReal)) (stR z ns pos A hA)
      = stR z ns pos (A ∪ chunk c) (hA.mono Finset.subset_union_left) := by
  have hM : (A ∪ chunk c).sup' (hA.mono Finset.subset_union_left) z
      = max (A.sup' hA z) (Finset.univ.sup' Finset.univ_nonempty (fun j => z (cidx c j))) := by
    rw [Finset.sup'_union hA (chunk_nonempty c), sup'_chunk]
  unfold stR
  rw [sstep_coe (A.sup' hA z) _ _ _ (fun j => z (cidx c j)) (fun j => ns (cidx c j)) (fun j => pos (cidx c j))]
  rw [hM, rescale, sum_union_chunk _ A c hd, sum_union_chunk _ A c hd, sum_union_chunk _ A c hd]

/-! ## The eight chunks -/

/-- The eight chunks are all the columns. -/
theorem chunks_univ :
    chunk 0 ∪ chunk 1 ∪ chunk 2 ∪ chunk 3 ∪ chunk 4 ∪ chunk 5 ∪ chunk 6 ∪ chunk 7 = Finset.univ := by
  apply Finset.eq_univ_of_forall
  intro k
  have hk := k.isLt
  simp only [Finset.mem_union, mem_chunk]
  omega

/-- After the eight chunks the state is that of all 8192 columns: the row's maximum, its denominator, the positives'
logit sum and the positives' count. -/
theorem sEnd_eq (z ns pos : Fin 8192 → ℝ) :
    sEnd (fun c j => ((z (cidx c j) : ℝ) : EReal)) (fun c j => ((ns (cidx c j) : ℝ) : EReal))
        (fun c j => ((pos (cidx c j) : ℝ) : EReal))
      = ⟨((rowMaxR z : ℝ) : EReal), ((rowDen z ns : ℝ) : EReal), ((∑ k, pos k * z k : ℝ) : EReal),
          ((∑ k, pos k : ℝ) : EReal)⟩ := by
  have d1 : Disjoint (chunk 0) (chunk 1) := chunk_disjoint (by decide)
  have d2 : Disjoint (chunk 0 ∪ chunk 1) (chunk 2) := by
    rw [Finset.disjoint_union_left]
    exact ⟨chunk_disjoint (by decide), chunk_disjoint (by decide)⟩
  have d3 : Disjoint (chunk 0 ∪ chunk 1 ∪ chunk 2) (chunk 3) := by
    rw [Finset.disjoint_union_left, Finset.disjoint_union_left]
    exact ⟨⟨chunk_disjoint (by decide), chunk_disjoint (by decide)⟩, chunk_disjoint (by decide)⟩
  have d4 : Disjoint (chunk 0 ∪ chunk 1 ∪ chunk 2 ∪ chunk 3) (chunk 4) := by
    rw [Finset.disjoint_union_left]
    exact ⟨by
      rw [Finset.disjoint_union_left, Finset.disjoint_union_left]
      exact ⟨⟨chunk_disjoint (by decide), chunk_disjoint (by decide)⟩, chunk_disjoint (by decide)⟩,
      chunk_disjoint (by decide)⟩
  have d5 : Disjoint (chunk 0 ∪ chunk 1 ∪ chunk 2 ∪ chunk 3 ∪ chunk 4) (chunk 5) := by
    rw [Finset.disjoint_union_left, Finset.disjoint_union_left]
    exact ⟨⟨by
      rw [Finset.disjoint_union_left, Finset.disjoint_union_left]
      exact ⟨⟨chunk_disjoint (by decide), chunk_disjoint (by decide)⟩, chunk_disjoint (by decide)⟩,
      chunk_disjoint (by decide)⟩, chunk_disjoint (by decide)⟩
  have d6 : Disjoint (chunk 0 ∪ chunk 1 ∪ chunk 2 ∪ chunk 3 ∪ chunk 4 ∪ chunk 5) (chunk 6) := by
    rw [Finset.disjoint_union_left, Finset.disjoint_union_left, Finset.disjoint_union_left]
    exact ⟨⟨⟨by
      rw [Finset.disjoint_union_left, Finset.disjoint_union_left]
      exact ⟨⟨chunk_disjoint (by decide), chunk_disjoint (by decide)⟩, chunk_disjoint (by decide)⟩,
      chunk_disjoint (by decide)⟩, chunk_disjoint (by decide)⟩, chunk_disjoint (by decide)⟩
  have d7 : Disjoint (chunk 0 ∪ chunk 1 ∪ chunk 2 ∪ chunk 3 ∪ chunk 4 ∪ chunk 5 ∪ chunk 6) (chunk 7) := by
    rw [Finset.disjoint_union_left, Finset.disjoint_union_left, Finset.disjoint_union_left,
      Finset.disjoint_union_left]
    exact ⟨⟨⟨⟨by
      rw [Finset.disjoint_union_left, Finset.disjoint_union_left]
      exact ⟨⟨chunk_disjoint (by decide), chunk_disjoint (by decide)⟩, chunk_disjoint (by decide)⟩,
      chunk_disjoint (by decide)⟩, chunk_disjoint (by decide)⟩, chunk_disjoint (by decide)⟩,
      chunk_disjoint (by decide)⟩
  simp only [sEnd]
  rw [sstep_first z ns pos 0, sstep_union z ns pos _ _ 1 d1, sstep_union z ns pos _ _ 2 d2,
    sstep_union z ns pos _ _ 3 d3, sstep_union z ns pos _ _ 4 d4, sstep_union z ns pos _ _ 5 d5,
    sstep_union z ns pos _ _ 6 d6, sstep_union z ns pos _ _ 7 d7]
  rw [stR_congr z ns pos chunks_univ _ Finset.univ_nonempty]
  rfl

/-! ## The closing arithmetic -/

/-- The denominator is positive: every term is nonnegative and an off-diagonal column contributes exp > 0. -/
theorem rowDen_pos (z ns : Fin 8192 → ℝ) (hns : ∀ k, ns k = 0 ∨ ns k = 1) (hex : ∃ k, ns k = 1) :
    0 < rowDen z ns := by
  unfold rowDen
  apply Finset.sum_pos'
  · intro k _
    rcases hns k with h | h <;> rw [h]
    · rw [mul_zero]
    · rw [mul_one]; exact (Real.exp_pos _).le
  · obtain ⟨k, hk⟩ := hex
    exact ⟨k, Finset.mem_univ k, by rw [hk, mul_one]; exact Real.exp_pos _⟩

/-- The validity flag after the eight chunks: 1 exactly when the row has a positive pair. -/
theorem sEnd_valid (z ns pos : Fin 8192 → ℝ) (hpos : ∀ k, pos k = 0 ∨ pos k = 1) :
    sValid (sEnd (fun c j => ((z (cidx c j) : ℝ) : EReal)) (fun c j => ((ns (cidx c j) : ℝ) : EReal))
        (fun c j => ((pos (cidx c j) : ℝ) : EReal)))
      = ((rowValid pos : ℝ) : EReal) := by
  have _ := hpos
  rw [sEnd_eq]
  unfold sValid rowValid
  by_cases h : ∑ k, pos k = 0
  · rw [if_neg (by rw [not_not]; exact EReal.coe_eq_zero.2 h), if_pos h, EReal.coe_zero]
  · rw [if_pos (EReal.coe_ne_zero.2 h), if_neg h, EReal.coe_one]

/-- The loss contribution after the eight chunks is the row's loss. -/
theorem sEnd_contrib (z ns pos : Fin 8192 → ℝ) (hns : ∀ k, ns k = 0 ∨ ns k = 1) (hpos : ∀ k, pos k = 0 ∨ pos k = 1)
    (hex : ∃ k, ns k = 1) :
    sContrib (sEnd (fun c j => ((z (cidx c j) : ℝ) : EReal)) (fun c j => ((ns (cidx c j) : ℝ) : EReal))
        (fun c j => ((pos (cidx c j) : ℝ) : EReal)))
      = ((rowLoss z ns pos : ℝ) : EReal) := by
  have _ := hpos
  rw [sEnd_eq]
  unfold sContrib rowLoss
  by_cases h : ∑ k, pos k = 0
  · rw [if_neg (by rw [not_not]; exact EReal.coe_eq_zero.2 h), if_pos h, EReal.coe_zero]
  · have hD : ¬ rowDen z ns ≤ 0 := not_le.2 (rowDen_pos z ns hns hex)
    rw [if_pos (EReal.coe_ne_zero.2 h), if_neg h, Ideal.div_coe h, Ideal.log_coe, if_neg hD,
      ← EReal.coe_mul, ← EReal.coe_add, ← EReal.coe_sub, ← EReal.coe_mul, EReal.coe_eq_coe_iff]
    rw [mul_one_div]
    ring

/-- The reference's arrangement of the same row: the positives' log-probabilities averaged. -/
theorem rowLoss_ref_form (z ns pos : Fin 8192 → ℝ) (hP : ∑ k, pos k ≠ 0) :
    (∑ k, pos k * ((z k - rowMaxR z) - Real.log (rowDen z ns))) / (∑ k, pos k)
      = (∑ k, pos k * z k) / (∑ k, pos k) - (rowMaxR z + Real.log (rowDen z ns)) := by
  have hs : ∑ k, pos k * ((z k - rowMaxR z) - Real.log (rowDen z ns))
      = (∑ k, pos k * z k) - (∑ k, pos k) * (rowMaxR z + Real.log (rowDen z ns)) := by
    rw [Finset.sum_mul, ← Finset.sum_sub_distrib]
    apply Finset.sum_congr rfl
    intro k _
    ring
  rw [hs, sub_div, mul_div_cancel_left₀ _ hP]

/-! ## The temperature -/

theorem Dv_ne_zero : Dv ≠ 0 := by
  unfold Dv
  norm_num

/-- Multiplying by the inverse temperature is dividing by the temperature. -/
theorem κv_eq_inv_Dv : κv = 1 / Dv := by
  unfold κv Dv
  norm_num

end Cert.RowSpec

end
-- ==== Proof.RefRow.lean ====
import proofs.«406051_j84928683311678_2_alg».proof.Proof.RefRead
import proofs.«406051_j84928683311678_2_alg».proof.Proof.RowData
import Idealize.ShloMosaic.Lib.ValueIdx
import Idealize.ShloMosaic.PureOps.Ideal.Laws
import Idealize.ShloMosaic.PureOps.Reduce
import Mathlib.Data.EReal.Operations
import Mathlib.Data.Finset.Fold
import Mathlib.Data.Finset.Lattice.Fold
import Mathlib.Algebra.BigOperators.Fin
import Mathlib.Algebra.Order.BigOperators.Group.Finset
import Mathlib.Analysis.SpecialFunctions.Log.Basic

/-!
# One row of the reference's supervised contrastive loss, as a real number

The reference stacks the two feature arrays (8192 rows of 128) and the two label arrays (8192 labels), forms every
pair's similarity divided by the temperature, subtracts each row's maximum, and from the shifted logits, the off-diagonal
indicator and the positive-pair indicator computes, row by row, the mean log-probability of the row's positive pairs.
This module reads each stage of that computation at ONE row `r` (and, for the 8192 × 8192 stages, one column `k`) and
shows that every quantity there is a finite real: the row's loss contribution is `rowLoss` of the row's logits and
indicators, and its validity flag is `rowValid`.
-/

noncomputable section

namespace Cert.RefRow

open Cert.ReferenceIdeal Cert.ReferenceIdeal.Gen Cert.ReferenceIdeal.ReadP Cert.RowSpec Idealize.ShloMosaic Idealize.ShloMosaic.ValueIdx

/-! ## Real numbers inside the extended reals -/

/-- A finite sum of real numbers, read in the extended reals, is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many real numbers, read in the extended reals, is the running maximum from `-∞`. -/
theorem fold_max_coe {ι : Type*} (s : Finset ι) (hs : s.Nonempty) (f : ι → ℝ) :
    s.fold max (⊥ : EReal) (fun i => (f i : EReal)) = ((s.sup' hs f : ℝ) : EReal) := by
  refine le_antisymm ?_ ?_
  · exact (Finset.fold_max_le _).2 ⟨bot_le, fun x hx => EReal.coe_le_coe_iff.2 (Finset.le_sup' f hx)⟩
  · obtain ⟨x, hx, hxe⟩ := Finset.exists_mem_eq_sup' hs f
    exact (Finset.le_fold_max _).2 (Or.inr ⟨x, hx, by rw [hxe]⟩)

/-! ## The constants the reference spells -/

/-- The temperature's binary32 word: sign 0, exponent 123, significand 2²³ + 1006633 = 9395241, so 9395241 · 2⁻²⁷. -/
theorem ofBits_temp : Ideal.ofBits .f32 0x3D8F5C29#32 = ((Dv : ℝ) : EReal) := by
  unfold Dv
  simp [Ideal.ofBits, Ideal.ieee, -EReal.coe_mul]; norm_num

/-- The word of `-1.0`. -/
theorem ofBits_neg_one : Ideal.ofBits .f32 0xBF800000#32 = ((-1 : ℝ) : EReal) := by
  simp [Ideal.ofBits, Ideal.ieee, -EReal.coe_mul, -EReal.coe_neg]; norm_num

/-- The word of `1.0`. -/
theorem ofBits_one : Ideal.ofBits .f32 0x3F800000#32 = ((1 : ℝ) : EReal) := by
  simp [Ideal.ofBits, Ideal.ieee, -EReal.coe_mul]; norm_num

/-- The word of `-∞`. -/
theorem ofBits_neg_inf : Ideal.ofBits .f32 0xFF800000#32 = (⊥ : EReal) := by
  simp [Ideal.ofBits, Ideal.ieee]

/-- The temperature is not zero, and the inverse temperature is its reciprocal. -/
theorem Dv_ne : Dv ≠ 0 := by unfold Dv; norm_num
theorem κv_inv : κv = 1 / Dv := by unfold κv Dv; norm_num

/-- Two row numbers below 8192 have equal 32-bit words only when they are equal. -/
theorem ofNat_eq_iff (a b : Fin 8192) : BitVec.ofNat 32 a.val = BitVec.ofNat 32 b.val ↔ a = b := by
  constructor
  · intro e
    have h := congrArg BitVec.toNat e
    rw [BitVec.toNat_ofNat, BitVec.toNat_ofNat] at h
    have ha := a.isLt
    have hb := b.isLt
    exact Fin.ext (by omega)
  · rintro rfl; rfl

/-- A one-bit word read as a float is the real number 0 or 1. -/
theorem uitofp_bit (b : BitVec 1) : FloatOps.uitofp (F := Ideal) .f32 b = (((b.toNat : ℕ) : ℝ) : EReal) := rfl

/-- An equality test of two words, as the one-bit word. -/
theorem cmpi_eq_bit (a b : BitVec 32) : IntOp.cmpi .eq a b = if a = b then 1#1 else 0#1 := by
  unfold IntOp.cmpi
  by_cases h : a = b
  · subst h; simp
  · rw [if_neg h]
    have : (a == b) = false := by rw [beq_eq_false_iff_ne]; exact h
    simp [this]

/-! ## The diagonal and the off-diagonal indicator (no input is read) -/

/-- The row number equals the column number exactly on the diagonal. -/
theorem v20_at (r k : Fin 8192) : val_main_v20 (F := Ideal) (ix2 r k) = if r = k then 1#1 else 0#1 := by
  rw [val_main_v20_apply, val_main_v19_apply, val_main_v16_apply, val_main_v17_apply, val_main_v18_apply, val_main_c_apply]
  show IntOp.cmpi .eq (IntOp.addi (BitVec.ofNat 32 r.val) 0#32) (BitVec.ofNat 32 k.val) = _
  unfold IntOp.addi
  rw [BitVec.add_zero, cmpi_eq_bit]
  by_cases h : r = k
  · rw [if_pos h, if_pos ((ofNat_eq_iff r k).2 h)]
  · rw [if_neg h, if_neg (fun e => h ((ofNat_eq_iff r k).1 e))]

/-- One minus the diagonal's indicator is the off-diagonal indicator. -/
theorem v23_at (r k : Fin 8192) : val_main_v23 (F := Ideal) (ix2 r k) = ((nsR r k : ℝ) : EReal) := by
  rw [val_main_v23_apply, val_main_v22_apply, val_main_cst_1_apply, val_main_v21_apply, v20_at, Ideal.subf_def, Ideal.ofBits_def,
    ofBits_one, uitofp_bit, ← EReal.coe_sub]
  unfold nsR
  by_cases h : r = k
  · rw [if_pos h, if_pos h]; norm_num
  · rw [if_neg h, if_neg h]; norm_num

/-! ## The stages that read only the labels -/

section Labels

variable (x2 x3 : (⟨S4096, .i32⟩ : BufTy).Contents (Elt Ideal)) (lab : Fin 8192 → BitVec 32)
  (hlab : ∀ r : Fin 8192, val_main_v0 (F := Ideal) x2 x3 (ix1 r) = lab r)
include hlab

/-- The label comparison at row `r`, column `k`: the row's label against the column's. -/
theorem v6_at (r k : Fin 8192) :
    val_main_v6 (F := Ideal) x2 x3 (ix2 r k) = (((if lab r = lab k then 1 else 0 : ℝ)) : EReal) := by
  have h1 : idx_main_v1 (idx_main_v3 (ix2 r k)) = ix1 r := by funext a; match a with | ⟨0, _⟩ => rfl
  have h2 : idx_main_v2 (idx_main_v4 (ix2 r k)) = ix1 k := by funext a; match a with | ⟨0, _⟩ => rfl
  rw [val_main_v6_apply, val_main_v5_apply, val_main_v3_apply, val_main_v4_apply, val_main_v1_apply, val_main_v2_apply, h1, h2,
    hlab, hlab, cmpi_eq_bit, uitofp_bit]
  by_cases h : lab r = lab k
  · rw [if_pos h, if_pos h]; norm_num
  · rw [if_neg h, if_neg h]; norm_num

/-- Equal labels off the diagonal: the positive-pair indicator. -/
theorem v24_at (r k : Fin 8192) : val_main_v24 (F := Ideal) x2 x3 (ix2 r k) = ((posR lab r k : ℝ) : EReal) := by
  rw [val_main_v24_apply, v6_at x2 x3 lab hlab, v23_at, Ideal.mulf_def, ← EReal.coe_mul]
  unfold posR nsR
  by_cases h : lab r = lab k
  · by_cases h' : r = k
    · rw [if_pos h, if_pos h', if_neg (fun c : lab r = lab k ∧ r ≠ k => c.2 h'), mul_zero]
    · rw [if_pos h, if_neg h', if_pos (show lab r = lab k ∧ r ≠ k from ⟨h, h'⟩), mul_one]
  · rw [if_neg h, if_neg (fun c : lab r = lab k ∧ r ≠ k => h c.1), zero_mul]

/-- The number of positive pairs in row `r`. -/
theorem v32_at (r : Fin 8192) : val_main_v32 (F := Ideal) x2 x3 (ix1 r) = ((∑ k, posR lab r k : ℝ) : EReal) := by
  rw [val_main_v32_apply, val_main_cst_3_apply, Ideal.ofBits_def, Ideal.ofBits_zero_f32, zero_add, coe_sum]
  refine Finset.sum_congr rfl fun k _ => ?_
  have hi : idx_main_v32 (ix1 r) k = ix2 r k := by funext a; match a with | ⟨0, _⟩ => rfl | ⟨1, _⟩ => rfl
  rw [hi, v24_at x2 x3 lab hlab]

/-- The validity bit of row `r`: the row has a positive pair. -/
theorem v34_at (r : Fin 8192) :
    val_main_v34 (F := Ideal) x2 x3 (ix1 r) = if ∑ k, posR lab r k = 0 then 0#1 else 1#1 := by
  rw [val_main_v34_apply, v32_at x2 x3 lab hlab, val_main_v33_apply, val_main_cst_4_apply, Ideal.ofBits_def, Ideal.ofBits_zero_f32,
    Ideal.cmpf_def]
  unfold Ideal.cmp
  by_cases h : ∑ k, posR lab r k = 0
  · rw [if_pos h, h]; simp
  · rw [if_neg h]
    have : ((∑ k, posR lab r k : ℝ) : EReal) ≠ 0 := EReal.coe_ne_zero.2 h
    simp [this]

/-- The divisor of row `r`: the number of positive pairs, or 1 when there is none. -/
theorem v37_at (r : Fin 8192) :
    val_main_v37 (F := Ideal) x2 x3 (ix1 r) = (((if ∑ k, posR lab r k = 0 then 1 else ∑ k, posR lab r k : ℝ)) : EReal) := by
  rw [val_main_v37_apply, v34_at x2 x3 lab hlab, v32_at x2 x3 lab hlab, val_main_call0_v1_apply, val_main_call0_v0_apply,
    val_main_cst_6_apply, Ideal.ofBits_def, ofBits_one]
  by_cases h : ∑ k, posR lab r k = 0
  · rw [if_pos h, if_pos h, select_zero]
  · rw [if_neg h, if_neg h, select_one]

/-- The validity flag of row `r` as a number. -/
theorem ref_valid (r : Fin 8192) : val_main_v41 (F := Ideal) x2 x3 (ix1 r) = ((rowValid (posR lab r) : ℝ) : EReal) := by
  rw [val_main_v41_apply, v34_at x2 x3 lab hlab, uitofp_bit]
  unfold rowValid
  by_cases h : ∑ k, posR lab r k = 0
  · rw [if_pos h, if_pos h]; norm_num
  · rw [if_neg h, if_neg h]; norm_num

end Labels

/-! ## A row's maximum -/

/-- The row maximum of an 8192 × 8192 array whose row `r` holds the real numbers `z`: the running maximum from `-∞`
    over the row's 8192 columns is the largest `z k`. -/
theorem rowmax_at (y : (⟨S8192x8192, .f32⟩ : BufTy).Contents (Elt Ideal)) (z : Fin 8192 → ℝ) (r : Fin 8192)
    (hy : ∀ k, y (ix2 r k) = ((z k : ℝ) : EReal)) :
    Host.reduce (FloatOps.maximumf (F := Ideal) (φ := .f32)) y (val_main_cst_0 (F := Ideal)) reducesTo_S8192x8192_S8192_d1 h_S_ (ix1 r)
      = ((rowMaxR z : ℝ) : EReal) := by
  have h : S8192x8192.Reduces [1] S8192 := by decide
  have hl : ∀ k : Fin 8192, h.lift (ix1 r) k = ix2 r k := fun k =>
    funext fun c => Fin.ext (by match c with | ⟨0, _⟩ => rfl | ⟨1, _⟩ => rfl)
  have hf : (y ∘ h.lift (ix1 r)) = fun k : Fin 8192 => ((z k : ℝ) : EReal) :=
    funext fun (k : Fin 8192) => (congrArg y (hl k)).trans (hy k)
  rw [Host.reduce_eq_fold_single (FloatOps.maximumf (F := Ideal) (φ := .f32)) y _ reducesTo_S8192x8192_S8192_d1 h h_S_ (ix1 r), hf,
    val_main_cst_0_apply, Ideal.ofBits_def, ofBits_neg_inf]
  exact fold_max_coe Finset.univ Finset.univ_nonempty z

/-! ## Two facts about a row's numbers -/

/-- Every row's softmax denominator is positive: each term is nonnegative and an off-diagonal column contributes an
    exponential. -/
theorem den_pos (z : Fin 8192 → ℝ) (r : Fin 8192) : 0 < rowDen z (nsR r) := by
  unfold rowDen
  obtain ⟨k, hk⟩ := nsR_ex r
  refine Finset.sum_pos' (fun i _ => ?_) ⟨k, Finset.mem_univ k, ?_⟩
  · exact mul_nonneg (Real.exp_pos _).le (by rcases nsR_01 r i with h | h <;> rw [h] <;> norm_num)
  · rw [hk, mul_one]; exact Real.exp_pos _

/-- The mean over the positive pairs of `(z k - M) - L` is the mean of `z k` minus `M + L`. -/
theorem loss_ref_form (z ns pos : Fin 8192 → ℝ) (hP : ∑ k, pos k ≠ 0) :
    (∑ k, pos k * ((z k - rowMaxR z) - Real.log (rowDen z ns))) / (∑ k, pos k)
      = (∑ k, pos k * z k) / (∑ k, pos k) - (rowMaxR z + Real.log (rowDen z ns)) := by
  have e : ∑ k, pos k * ((z k - rowMaxR z) - Real.log (rowDen z ns))
      = (∑ k, pos k * z k) - (∑ k, pos k) * (rowMaxR z + Real.log (rowDen z ns)) := by
    rw [Finset.sum_mul, ← Finset.sum_sub_distrib]
    exact Finset.sum_congr rfl fun k _ => by ring
  rw [e, sub_div, mul_div_cancel_left₀ _ hP]

/-! ## The stages that read only the features -/

section Features

variable (x0 x1 : (⟨S4096x128, .f32⟩ : BufTy).Contents (Elt Ideal)) (cf : Fin 8192 → Fin 128 → ℝ)
  (hcf : ∀ (r : Fin 8192) (d : Fin 128), val_main_v7 (F := Ideal) x0 x1 (ix2 r d) = ((cf r d : ℝ) : EReal))
include hcf

/-- The similarity of rows `r` and `k`: the sum over the 128 feature entries of the products. -/
theorem v9_at (r k : Fin 8192) : val_main_v9 (F := Ideal) x0 x1 (ix2 r k) = ((dotR cf r k : ℝ) : EReal) := by
  rw [val_main_v9_apply]
  unfold dotR
  rw [coe_sum]
  refine Finset.sum_congr rfl fun d _ => ?_
  have hl : lidx_main_v9 (ix2 r k) d = ix2 r d := by funext a; match a with | ⟨0, _⟩ => rfl | ⟨1, _⟩ => rfl
  have hr : idx_main_v8 (ridx_main_v9 (ix2 r k) d) = ix2 k d := by funext a; match a with | ⟨0, _⟩ => rfl | ⟨1, _⟩ => rfl
  rw [hl, val_main_v8_apply, hr, hcf, hcf, EReal.coe_mul]

/-- Dividing by the temperature is multiplying by the inverse temperature: the logit of row `r` against column `k`. -/
theorem v11_at (r k : Fin 8192) : val_main_v11 (F := Ideal) x0 x1 (ix2 r k) = ((zK cf r k : ℝ) : EReal) := by
  rw [val_main_v11_apply, v9_at x0 x1 cf hcf, val_main_v10_apply, val_main_cst_apply, Ideal.hostDivf_def, Ideal.ofBits_def, ofBits_temp,
    Ideal.div_coe Dv_ne, ← EReal.coe_mul]
  unfold zK
  rw [κv_inv]

/-- The maximum of row `r`'s logits. -/
theorem v12_at (r : Fin 8192) : val_main_v12 (F := Ideal) x0 x1 (ix1 r) = ((rowMaxR (zK cf r) : ℝ) : EReal) := by
  unfold val_main_v12
  exact rowmax_at _ (zK cf r) r (fun k => v11_at x0 x1 cf hcf r k)

/-- The logit shifted by its row's maximum. -/
theorem v15_at (r k : Fin 8192) :
    val_main_v15 (F := Ideal) x0 x1 (ix2 r k) = ((zK cf r k - rowMaxR (zK cf r) : ℝ) : EReal) := by
  have hi : idx_main_v13 (idx_main_v14 (ix2 r k)) = ix1 r := by funext a; match a with | ⟨0, _⟩ => rfl
  rw [val_main_v15_apply, v11_at x0 x1 cf hcf, val_main_v14_apply, val_main_v13_apply, hi, v12_at x0 x1 cf hcf, Ideal.subf_def,
    ← EReal.coe_sub]

/-- The exponential of the shifted logit, the diagonal left out. -/
theorem v26_at (r k : Fin 8192) :
    val_main_v26 (F := Ideal) x0 x1 (ix2 r k) = ((Real.exp (zK cf r k - rowMaxR (zK cf r)) * nsR r k : ℝ) : EReal) := by
  rw [val_main_v26_apply, val_main_v25_apply, v15_at x0 x1 cf hcf, v23_at, Ideal.hostUnary_exp_def, Ideal.exp_coe, Ideal.mulf_def,
    ← EReal.coe_mul]

/-- The softmax denominator of row `r`. -/
theorem v27_at (r : Fin 8192) : val_main_v27 (F := Ideal) x0 x1 (ix1 r) = ((rowDen (zK cf r) (nsR r) : ℝ) : EReal) := by
  rw [val_main_v27_apply, val_main_cst_2_apply, Ideal.ofBits_def, Ideal.ofBits_zero_f32, zero_add]
  unfold rowDen
  rw [coe_sum]
  refine Finset.sum_congr rfl fun k _ => ?_
  have hi : idx_main_v27 (ix1 r) k = ix2 r k := by funext a; match a with | ⟨0, _⟩ => rfl | ⟨1, _⟩ => rfl
  rw [hi, v26_at x0 x1 cf hcf]

/-- Its logarithm, a real number because the denominator is positive. -/
theorem v30_at (r k : Fin 8192) :
    val_main_v30 (F := Ideal) x0 x1 (ix2 r k) = ((Real.log (rowDen (zK cf r) (nsR r)) : ℝ) : EReal) := by
  have hi : idx_main_v28 (idx_main_v30 (ix2 r k)) = ix1 r := by funext a; match a with | ⟨0, _⟩ => rfl
  rw [val_main_v30_apply, val_main_v29_apply, val_main_v28_apply, hi, v27_at x0 x1 cf hcf, Ideal.hostUnary_log_def, Ideal.log_coe,
    if_neg (not_le.2 (den_pos _ r))]

/-- The log-probability of column `k` in row `r`. -/
theorem v31_at (r k : Fin 8192) :
    val_main_v31 (F := Ideal) x0 x1 (ix2 r k)
      = (((zK cf r k - rowMaxR (zK cf r)) - Real.log (rowDen (zK cf r) (nsR r)) : ℝ) : EReal) := by
  rw [val_main_v31_apply, v15_at x0 x1 cf hcf, v30_at x0 x1 cf hcf, Ideal.subf_def, ← EReal.coe_sub]

end Features

/-! ## The row's loss contribution -/

section Row

variable (x0 x1 : (⟨S4096x128, .f32⟩ : BufTy).Contents (Elt Ideal)) (x2 x3 : (⟨S4096, .i32⟩ : BufTy).Contents (Elt Ideal))
  (cf : Fin 8192 → Fin 128 → ℝ) (lab : Fin 8192 → BitVec 32)
  (hcf : ∀ (r : Fin 8192) (d : Fin 128), val_main_v7 (F := Ideal) x0 x1 (ix2 r d) = ((cf r d : ℝ) : EReal))
  (hlab : ∀ r : Fin 8192, val_main_v0 (F := Ideal) x2 x3 (ix1 r) = lab r)
include hcf hlab

/-- The sum over row `r`'s positive pairs of their log-probabilities. -/
theorem v36_at (r : Fin 8192) :
    val_main_v36 (F := Ideal) x0 x1 x2 x3 (ix1 r)
      = ((∑ k, posR lab r k * ((zK cf r k - rowMaxR (zK cf r)) - Real.log (rowDen (zK cf r) (nsR r))) : ℝ) : EReal) := by
  rw [val_main_v36_apply, val_main_cst_5_apply, Ideal.ofBits_def, Ideal.ofBits_zero_f32, zero_add, coe_sum]
  refine Finset.sum_congr rfl fun k _ => ?_
  have hi : idx_main_v36 (ix1 r) k = ix2 r k := by funext a; match a with | ⟨0, _⟩ => rfl | ⟨1, _⟩ => rfl
  rw [hi, val_main_v35_apply, v24_at x2 x3 lab hlab, v31_at x0 x1 cf hcf, Ideal.mulf_def, ← EReal.coe_mul]

/-- Row `r`'s loss contribution: minus the mean log-probability of its positive pairs, and 0 for a row without one. -/
theorem ref_contrib (r : Fin 8192) :
    val_main_v44 (F := Ideal) x0 x1 x2 x3 (ix1 r) = ((rowLoss (zK cf r) (nsR r) (posR lab r) : ℝ) : EReal) := by
  rw [val_main_v44_apply, v34_at x2 x3 lab hlab]
  unfold rowLoss
  by_cases h : ∑ k, posR lab r k = 0
  · rw [if_pos h, if_pos h, select_zero, val_main_call1_v1_apply, val_main_call1_v0_apply, val_main_cst_10_apply, Ideal.ofBits_def,
      Ideal.ofBits_zero_f32, EReal.coe_zero]
  · rw [if_neg h, if_neg h, select_one, val_main_v40_apply, val_main_v39_apply, val_main_cst_7_apply, val_main_v38_apply,
      v36_at x0 x1 x2 x3 cf lab hcf hlab, v37_at x2 x3 lab hlab, if_neg h, Ideal.ofBits_def, ofBits_neg_one, Ideal.hostDivf_def,
      Ideal.div_coe h, ← EReal.coe_mul, Ideal.mulf_def, ← EReal.coe_mul, mul_one_div, loss_ref_form _ _ _ h, neg_one_mul]

end Row

end Cert.RefRow

end
-- ==== Proof.Inputs.lean ====
import proofs.«406051_j84928683311678_2_alg».proof.Proof.RefRead
import proofs.«406051_j84928683311678_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws
import Mathlib.Data.EReal.Operations

/-!
# Every entry of the stacked feature matrix is a real number

The precondition says that every entry of the two 4096 x 128 feature arrays has absolute value below +∞. An extended
real with |x| < +∞ is neither -∞ nor +∞, so it is a real. The stacked 8192 x 128 matrix takes row r from the first
array when r < 4096 and row r - 4096 of the second otherwise, so each of its entries is one of those reals.
-/

noncomputable section

namespace Cert.Inputs

open Idealize.ShloMosaic

/-- A scalar has one index. -/
instance : Subsingleton Cert.Pre_finite_inputs.S_.Idx := ⟨fun _ _ => funext fun d => d.elim0⟩

/-- The binary32 word of +∞ denotes +∞. -/
theorem inf_word : Ideal.ofBits .f32 0x7F800000#32 = (⊤ : EReal) := by
  simp [Ideal.ofBits, Ideal.ieee]

/-- An extended real whose absolute value compares below +∞ is a real number. -/
theorem real_of_abs_lt_inf (x : EReal)
    (h : Ideal.cmp .olt (max x (-x)) (Ideal.ofBits .f32 0x7F800000#32) = 1#1) : ∃ v : ℝ, x = ((v : ℝ) : EReal) := by
  rw [inf_word] at h
  have hlt : max x (-x) < ⊤ := by
    by_contra hn
    have : Ideal.cmp .olt (max x (-x)) ⊤ = 0#1 := by
      simp only [Ideal.cmp, decide_eq_false hn]
      rfl
    rw [this] at h
    exact absurd h (by decide)
  induction x using EReal.rec with
  | bot =>
    exfalso
    rw [EReal.neg_bot, max_eq_right bot_le] at hlt
    exact lt_irrefl _ hlt
  | coe r => exact ⟨r, rfl⟩
  | top =>
    exfalso
    rw [max_eq_left le_top] at hlt
    exact lt_irrefl _ hlt

/-- Under the precondition every entry of both feature arrays is a real number. -/
theorem entries_finite (x0 x1 : (⟨Cert.ReferenceIdeal.S4096x128, .f32⟩ : BufTy).Contents (Elt Ideal))
    (x2 x3 : (⟨Cert.ReferenceIdeal.S4096, .i32⟩ : BufTy).Contents (Elt Ideal))
    (hpre : Cert.Pre_finite_inputs.fn (F := Ideal) x0 x1 x2 x3 = fun _ => 1#1) :
    (∀ i, ∃ v : ℝ, x0 i = ((v : ℝ) : EReal)) ∧ (∀ i, ∃ v : ℝ, x1 i = ((v : ℝ) : EReal)) := by
  have h := congrFun hpre ValueIdx.ix0
  dsimp only [Cert.Pre_finite_inputs.fn] at h
  obtain ⟨h0, h1⟩ := IntOp.andi_eq_one.1 h
  constructor
  · intro i
    exact real_of_abs_lt_inf (x0 i) (Host.reduce_andi_all _ _ _ _ _ h0 i)
  · intro i
    exact real_of_abs_lt_inf (x1 i) (Host.reduce_andi_all _ _ _ _ _ h1 i)

/-- Two rank-2 indices with the same column agree off the row axis. -/
theorem ix2_off_row {n0 n0' n1 : Nat} (a : Fin n0) (a' : Fin n0') (c : Fin n1) (b : Fin 2) (hb : b ≠ 0) :
    ((ValueIdx.ix2 a c) b).val = ((ValueIdx.ix2 a' c) b).val := by
  match b with
  | ⟨0, _⟩ => exact absurd rfl hb
  | ⟨1, _⟩ => rfl

/-- Every entry of the stacked feature matrix is a real number: row r comes from the first array when r < 4096,
from the second (at row r - 4096) otherwise. -/
theorem feat_finite (x0 x1 : (⟨Cert.ReferenceIdeal.S4096x128, .f32⟩ : BufTy).Contents (Elt Ideal))
    (x2 x3 : (⟨Cert.ReferenceIdeal.S4096, .i32⟩ : BufTy).Contents (Elt Ideal))
    (hpre : Cert.Pre_finite_inputs.fn (F := Ideal) x0 x1 x2 x3 = fun _ => 1#1) (r : Fin 8192) (d : Fin 128) :
    ∃ v : ℝ, Cert.ReferenceIdeal.ReadP.val_main_v7 (F := Ideal) x0 x1 (ValueIdx.ix2 r d) = ((v : ℝ) : EReal) := by
  obtain ⟨f0, f1⟩ := entries_finite x0 x1 x2 x3 hpre
  unfold Cert.ReferenceIdeal.ReadP.val_main_v7
  by_cases hr : r.val < 4096
  · obtain ⟨v, hv⟩ := f0 (ValueIdx.ix2 ⟨r.val, hr⟩ d)
    refine ⟨v, ?_⟩
    rw [← hv]
    exact concatenate_pair_apply_left (t := Cert.ReferenceIdeal.S8192x128) (s₁ := Cert.ReferenceIdeal.S4096x128)
      (s₂ := Cert.ReferenceIdeal.S4096x128) 0 x0 x1
      Cert.ReferenceIdeal.Gen.concatenates_S4096x128_S4096x128_S8192x128_d0 (ValueIdx.ix2 r d) rfl
      (ValueIdx.ix2 ⟨r.val, hr⟩ d) (fun b => by
      match b with
      | ⟨0, _⟩ => rfl
      | ⟨1, _⟩ => rfl)
  · have hr' : r.val - 4096 < 4096 := by have := r.isLt; omega
    obtain ⟨v, hv⟩ := f1 (ValueIdx.ix2 ⟨r.val - 4096, hr'⟩ d)
    refine ⟨v, ?_⟩
    rw [← hv]
    exact concatenate_pair_apply_right (t := Cert.ReferenceIdeal.S8192x128) (s₁ := Cert.ReferenceIdeal.S4096x128)
      (s₂ := Cert.ReferenceIdeal.S4096x128) (0 : Fin 2) x0 x1
      Cert.ReferenceIdeal.Gen.concatenates_S4096x128_S4096x128_S8192x128_d0 (ValueIdx.ix2 r d) rfl rfl
      (ValueIdx.ix2 ⟨r.val - 4096, hr'⟩ d)
      (fun b hb => ix2_off_row (⟨r.val - 4096, hr'⟩ : Fin 4096) r d b hb)
      (by show r.val - 4096 + 4096 = r.val; omega)

end Cert.Inputs

end
-- ==== Proof.Bridge.lean ====
import proofs.«406051_j84928683311678_2_alg».proof.Proof.KI.Host
import proofs.«406051_j84928683311678_2_alg».proof.Proof.KI.Value
import proofs.«406051_j84928683311678_2_alg».proof.Proof.KI.RowValue
import proofs.«406051_j84928683311678_2_alg».proof.Proof.RowData
import proofs.«406051_j84928683311678_2_alg».proof.Proof.RowMath
import proofs.«406051_j84928683311678_2_alg».proof.Proof.RefRow
import proofs.«406051_j84928683311678_2_alg».proof.Proof.Inputs
import Idealize.ShloMosaic.Lib.ValueIdx
import Idealize.ShloMosaic.Lib.Pipeline.Value
import Mathlib.Data.EReal.Basic

/-!
# The kernel's scalar result is the reference's

The kernel leaves two columns of 8192 entries after its region: row `r` of the first holds the row's loss contribution,
computed chunk by chunk with a running maximum, and row `r` of the second the row's validity flag. The reference
computes the same two vectors of 8192 entries directly. Row by row the two agree: the streaming recurrence over the
eight chunks of row `r` gives the row's loss and flag, and so does the reference's row. Both programs then end with the
same operations (sum each vector from zero, clamp the validity sum below by one, divide), so their scalar results are
equal.
-/

noncomputable section

namespace Cert.Bridge

open Cert.KernelIdeal Cert.KernelIdeal.Gen Cert.KernelIdeal.Hand Cert.RowSpec
open Idealize.ShloMosaic Idealize.ShloMosaic.TcCoe Idealize.SL.Sem ValueIdx

/-! ## Rows and chunks -/

/-- Row `r` is row `r mod 1024` of chunk `r / 1024`. -/
theorem row_split (r : Fin 8192) : ∃ (t : Fin 8) (p : Fin 1024), r = cidx t p :=
  ⟨⟨r.val / 1024, by have := r.isLt; omega⟩, ⟨r.val % 1024, Nat.mod_lt _ (by norm_num)⟩,
    Fin.ext (by show r.val = 1024 * (r.val / 1024) + r.val % 1024; omega)⟩

/-! ## A column of 8192 entries and the vector of its entries -/

section Layout
variable {α : Type}

/-- A vector of 8192 entries laid out as a column: entry `(r, 0)` is entry `r`. -/
theorem col_of_vec (x : (⟨1, ![8192]⟩ : Shape).Idx → α) (h : (⟨1, ![8192]⟩ : Shape).ShapeCasts ⟨2, ![8192, 1]⟩) (r : Fin 8192) :
    shapeCast ⟨2, ![8192, 1]⟩ x h (ix2 r (0 : Fin 1)) = x (ix1 r) :=
  shapeCast_apply x h _ _ (by rw [Shape.rowMajor_val_one, Shape.rowMajor_val_two]; show r.val = r.val * 1 + 0; omega)

/-- The same vector laid out as a row: entry `(0, r)` is entry `r`. -/
theorem row_of_vec (x : (⟨1, ![8192]⟩ : Shape).Idx → α) (h : (⟨1, ![8192]⟩ : Shape).ShapeCasts ⟨2, ![1, 8192]⟩) (r : Fin 8192) :
    shapeCast ⟨2, ![1, 8192]⟩ x h (ix2 (0 : Fin 1) r) = x (ix1 r) :=
  shapeCast_apply x h _ _ (by rw [Shape.rowMajor_val_one, Shape.rowMajor_val_two]; show r.val = 0 * 8192 + r.val; omega)

/-- A column of 8192 entries read as a vector: entry `r` is entry `(r, 0)`. -/
theorem vec_of_col (x : (⟨2, ![8192, 1]⟩ : Shape).Idx → α) (h : (⟨2, ![8192, 1]⟩ : Shape).ShapeCasts ⟨1, ![8192]⟩) (r : Fin 8192) :
    shapeCast ⟨1, ![8192]⟩ x h (ix1 r) = x (ix2 r (0 : Fin 1)) :=
  shapeCast_apply x h _ _ (by rw [Shape.rowMajor_val_one, Shape.rowMajor_val_two]; show r.val * 1 + 0 = r.val; omega)

end Layout

/-! ## The two output columns after the region, row by row -/

section Region

variable (V : (c : Dev nD) → (b : Ref sig .tc) → Buf (Elt Ideal) ((c : Thread nD τ).loc b)) (c : Dev nD)
  (cf : Fin 8192 → Fin 128 → ℝ) (lab : Fin 8192 → BitVec 32)
  (hV2 : ∀ (r : Fin 8192) (d : Fin 128), V c main_v2 (ix2 r d) = ((cf r d : ℝ) : EReal))
  (hV3 : ∀ r : Fin 8192, V c main_v3 (ix2 r (0 : Fin 1)) = lab r)
  (hV4 : ∀ r : Fin 8192, V c main_v4 (ix2 (0 : Fin 1) r) = lab r)
include hV2 hV3 hV4

/-- Row `r` of the contribution column is the row's loss. -/
theorem contrib_row (r : Fin 8192) :
    (dat0 V c).arrAt 4 cfg0.N (ix2 r (0 : Fin 1)) = ((rowLoss (zK cf r) (nsR r) (posR lab r) : ℝ) : EReal) := by
  obtain ⟨t, p, rfl⟩ := row_split r
  rw [final4_apply V c t p,
    blockC_apply (grid0.coords (pt t)) _ _ _ _ cf lab t (coords_pt t)
      (fun p d => (rowblk_apply V c t p d).trans (hV2 _ _)) (fun p => (rowlab_apply V c t p).trans (hV3 _))
      (fun c' j d => (colblk_apply V c t c' j d).trans (hV2 _ _)) (fun c' j => (collab_apply V c t c' j).trans (hV4 _)) p]
  exact sEnd_contrib (zK cf (cidx t p)) (nsR (cidx t p)) (posR lab (cidx t p)) (nsR_01 _) (posR_01 lab _) (nsR_ex _)

/-- Row `r` of the validity column is the row's validity flag. -/
theorem valid_row (r : Fin 8192) :
    (dat0 V c).arrAt 5 cfg0.N (ix2 r (0 : Fin 1)) = ((rowValid (posR lab r) : ℝ) : EReal) := by
  obtain ⟨t, p, rfl⟩ := row_split r
  rw [final5_apply V c t p,
    blockV_apply (grid0.coords (pt t)) _ _ _ _ cf lab t (coords_pt t)
      (fun p d => (rowblk_apply V c t p d).trans (hV2 _ _)) (fun p => (rowlab_apply V c t p).trans (hV3 _))
      (fun c' j d => (colblk_apply V c t c' j d).trans (hV2 _ _)) (fun c' j => (collab_apply V c t c' j).trans (hV4 _)) p]
  exact sEnd_valid (zK cf (cidx t p)) (nsR (cidx t p)) (posR lab (cidx t p)) (posR_01 lab _)

end Region

/-! ## The shared tail: two sums, a clamp and a quotient -/

/-- Two programs that sum the same two vectors of 8192 entries, clamp the second sum below by one and divide the first
    sum by it return the same number. -/
theorem tail_eq (A B : FVec Ideal S8192 .f32)
    (x0 x1 : (⟨Cert.ReferenceIdeal.S4096x128, .f32⟩ : BufTy).Contents (Elt Ideal))
    (x2 x3 : (⟨Cert.ReferenceIdeal.S4096, .i32⟩ : BufTy).Contents (Elt Ideal))
    (hA : ∀ r : Fin 8192, A (ix1 r) = Cert.ReferenceIdeal.ReadP.val_main_v44 (F := Ideal) x0 x1 x2 x3 (ix1 r))
    (hB : ∀ r : Fin 8192, B (ix1 r) = Cert.ReferenceIdeal.ReadP.val_main_v41 (F := Ideal) x2 x3 (ix1 r)) :
    Host.divf (F := Ideal) (Host.reduceAdd (F := Ideal) A (constant (F := Ideal) S_ .f32 0x00000000#32) reducesTo_S8192_S_d0 h_S_)
        (maximumf (Host.reduceAdd (F := Ideal) B (constant (F := Ideal) S_ .f32 0x00000000#32) reducesTo_S8192_S_d0 h_S_)
          (constant (F := Ideal) S_ .f32 0x3F800000#32))
      = Cert.ReferenceIdeal.ReadP.val_main_v46 (F := Ideal) x0 x1 x2 x3 := by
  have eA : A = Cert.ReferenceIdeal.ReadP.val_main_v44 (F := Ideal) x0 x1 x2 x3 :=
    funext fun j => (congrArg A (eq_ix1 j)).trans ((hA (j 0)).trans (congrArg _ (eq_ix1 j)).symm)
  have eB : B = Cert.ReferenceIdeal.ReadP.val_main_v41 (F := Ideal) x2 x3 :=
    funext fun j => (congrArg B (eq_ix1 j)).trans ((hB (j 0)).trans (congrArg _ (eq_ix1 j)).symm)
  rw [eA, eB]
  unfold Cert.ReferenceIdeal.ReadP.val_main_v46 Cert.ReferenceIdeal.ReadP.val_main_v45 Cert.ReferenceIdeal.ReadP.val_main_v43
    Cert.ReferenceIdeal.ReadP.val_main_v42 Cert.ReferenceIdeal.ReadP.val_main_cst_11 Cert.ReferenceIdeal.ReadP.val_main_cst_8
    Cert.ReferenceIdeal.ReadP.val_main_cst_9
  generalize Cert.ReferenceIdeal.ReadP.val_main_v44 (F := Ideal) x0 x1 x2 x3 = a
  generalize Cert.ReferenceIdeal.ReadP.val_main_v41 (F := Ideal) x2 x3 = b
  rfl

/-! ## The arguments as real features and labels -/

/-- Entry `(r, d)` of the stacked feature matrix as a real number. -/
def featR (x0 x1 : (⟨Cert.ReferenceIdeal.S4096x128, .f32⟩ : BufTy).Contents (Elt Ideal)) (r : Fin 8192) (d : Fin 128) : ℝ :=
  (Cert.ReferenceIdeal.ReadP.val_main_v7 (F := Ideal) x0 x1 (ix2 r d)).toReal
/-- Label `r` of the stacked labels. -/
def labW (x2 x3 : (⟨Cert.ReferenceIdeal.S4096, .i32⟩ : BufTy).Contents (Elt Ideal)) (r : Fin 8192) : BitVec 32 :=
  Cert.ReferenceIdeal.ReadP.val_main_v0 (F := Ideal) x2 x3 (ix1 r)

/-- Under the precondition every stacked feature entry is that real number. -/
theorem featR_spec (x0 x1 : (⟨Cert.ReferenceIdeal.S4096x128, .f32⟩ : BufTy).Contents (Elt Ideal))
    (x2 x3 : (⟨Cert.ReferenceIdeal.S4096, .i32⟩ : BufTy).Contents (Elt Ideal))
    (hpre : Cert.Pre_finite_inputs.fn (F := Ideal) x0 x1 x2 x3 = fun _ => 1#1) (r : Fin 8192) (d : Fin 128) :
    Cert.ReferenceIdeal.ReadP.val_main_v7 (F := Ideal) x0 x1 (ix2 r d) = ((featR x0 x1 r d : ℝ) : EReal) := by
  obtain ⟨v, hv⟩ := Cert.Inputs.feat_finite x0 x1 x2 x3 hpre r d
  unfold featR
  rw [hv, EReal.toReal_coe]

/-! ## The kernel's scalar result is the reference's -/

section Result

variable (m : (ℓ : Loc nD τ sig) → Buf (Elt Ideal) ℓ) (ρ : Dev nD → PrngReg) (c : Dev nD)

/-- The region reads the stacked features (rounding to sixteen bits changes no real number), -/
theorem entry_v2 (r : Fin 8192) (d : Fin 128) :
    V1 m ρ c main_v2 (ix2 r d)
      = Cert.ReferenceIdeal.ReadP.val_main_v7 (F := Ideal) (m ((c.tc : Thread nD τ).loc main_arg0)) (m ((c.tc : Thread nD τ).loc main_arg1)) (ix2 r d) := by
  rw [V1_main_v2]
  rfl

/-- the stacked labels as a column, -/
theorem entry_v3 (r : Fin 8192) :
    V1 m ρ c main_v3 (ix2 r (0 : Fin 1))
      = Cert.ReferenceIdeal.ReadP.val_main_v0 (F := Ideal) (m ((c.tc : Thread nD τ).loc main_arg2)) (m ((c.tc : Thread nD τ).loc main_arg3)) (ix1 r) := by
  rw [V1_main_v3]
  exact col_of_vec _ _ r

/-- and the stacked labels as a row. -/
theorem entry_v4 (r : Fin 8192) :
    V1 m ρ c main_v4 (ix2 (0 : Fin 1) r)
      = Cert.ReferenceIdeal.ReadP.val_main_v0 (F := Ideal) (m ((c.tc : Thread nD τ).loc main_arg2)) (m ((c.tc : Thread nD τ).loc main_arg3)) (ix1 r) := by
  rw [V1_main_v4]
  exact row_of_vec _ _ r

/-- Entry by entry the kernel's two result columns are the reference's two vectors, and the two programs end with the
    same two sums, clamp and quotient. -/
theorem result_eq
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) :
    W3 (F := Ideal) m ρ c (Proc.devRef .tc main_v11)
      = Cert.ReferenceIdeal.ReadP.val_main_v46 (F := Ideal) (m ((c.tc : Thread nD τ).loc main_arg0)) (m ((c.tc : Thread nD τ).loc main_arg1))
          (m ((c.tc : Thread nD τ).loc main_arg2)) (m ((c.tc : Thread nD τ).loc main_arg3)) := by
  have hcf := featR_spec _ _ _ _ hpre
  have hV2 : ∀ (r : Fin 8192) (d : Fin 128), V1 m ρ c main_v2 (ix2 r d)
      = ((featR (m ((c.tc : Thread nD τ).loc main_arg0)) (m ((c.tc : Thread nD τ).loc main_arg1)) r d : ℝ) : EReal) :=
    fun r d => (entry_v2 m ρ c r d).trans (hcf r d)
  have hV3 : ∀ r : Fin 8192, V1 m ρ c main_v3 (ix2 r (0 : Fin 1))
      = labW (m ((c.tc : Thread nD τ).loc main_arg2)) (m ((c.tc : Thread nD τ).loc main_arg3)) r := fun r => entry_v3 m ρ c r
  have hV4 : ∀ r : Fin 8192, V1 m ρ c main_v4 (ix2 (0 : Fin 1) r)
      = labW (m ((c.tc : Thread nD τ).loc main_arg2)) (m ((c.tc : Thread nD τ).loc main_arg3)) r := fun r => entry_v4 m ρ c r
  rw [W3_result]
  refine tail_eq _ _ _ _ _ _ (fun r => ?_) (fun r => ?_)
  · exact (vec_of_col _ _ r).trans ((contrib_row (V1 m ρ) c _ _ hV2 hV3 hV4 r).trans
      (Cert.RefRow.ref_contrib _ _ _ _ _ _ hcf (fun _ => rfl) r).symm)
  · exact (vec_of_col _ _ r).trans ((valid_row (V1 m ρ) c _ _ hV2 hV3 hV4 r).trans
      (Cert.RefRow.ref_valid _ _ _ (fun _ => rfl) r).symm)

end Result

end Cert.Bridge

end
-- ==== Proof.lean ====
/- The proof of `Cert.Claim`: a supervised contrastive loss computed by a Pallas kernel (row blocks of 1024, a streaming
   softmax over eight chunks of 1024 columns, the positives' logits and count accumulated beside it) against the
   two-pass jnp reference.

   Frames. Each kernel program is five host operations, one kernel region, nine host operations; its run is the
   library's launch of @main as a list of segments, the region's arrays split out of the thread state at its entry
   (the feature matrix, read through two windows, at the two halves of the full share) and put back at its exit.
   No host operation and no window writes an argument, so the arguments end as launched. The reference's frame is
   its host run with the result dropped.

   Preserves. The ideal pass named the eight occurrences of the kernel's inverse temperature `f32(1 / 0.07)` as
   the exact reciprocal `134217728 / 9395241` of the reference's divisor `f32(0.07) = 9395241 / 134217728`; each
   conjunct is that rule's statement.

   Algebraic. At the ideal instance both programs end with `(∑ rows' contributions) / max (∑ rows' validity, 1)`.
   Row `r` of the kernel's contribution column is the streaming recurrence's closing value on row `r`'s logits,
   which is `-((∑ pos·z) / (∑ pos) - (M + log ∑ exp (z - M)·ns))` when the row has a positive pair and 0 otherwise;
   the reference's row is the same number (a logit `dot / D` is `dot · (1/D)`; the positives' averaged
   log-probabilities rearrange to the same expression); likewise the validity flags. Finiteness of the features
   (the precondition) makes every row quantity a real number. -/
import proofs.«406051_j84928683311678_2_alg».proof.Defs
import proofs.«406051_j84928683311678_2_alg».proof.Proof.Gen.Kernel
import proofs.«406051_j84928683311678_2_alg».proof.Proof.Gen.KernelIdeal
import proofs.«406051_j84928683311678_2_alg».proof.Proof.Gen.ReferenceIdeal
import proofs.«406051_j84928683311678_2_alg».proof.Proof.Gen.Pre_finite_inputs
import proofs.«406051_j84928683311678_2_alg».proof.Proof.K.Launch
import proofs.«406051_j84928683311678_2_alg».proof.Proof.KI.Launch
import proofs.«406051_j84928683311678_2_alg».proof.Proof.RefRun
import proofs.«406051_j84928683311678_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W3_main_arg0 m ρ c),
     (h c _ (Cert.Kernel.Hand.mem_uc Cert.Kernel.main_arg1 (by decide))).trans (Cert.Kernel.Hand.W3_main_arg1 m ρ c),
     (h c _ (Cert.Kernel.Hand.mem_uc Cert.Kernel.main_arg2 (by decide))).trans (Cert.Kernel.Hand.W3_main_arg2 m ρ c),
     (h c _ (Cert.Kernel.Hand.mem_uc Cert.Kernel.main_arg3 (by decide))).trans (Cert.Kernel.Hand.W3_main_arg3 m ρ c)⟩)
    (Cert.Kernel.Hand.run_main (F := Bits) m ρ)

/-- The idealized kernel program likewise. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W3_main_arg0 m ρ c),
     (h c _ (Cert.KernelIdeal.Hand.mem_uc Cert.KernelIdeal.main_arg1 (by decide))).trans (Cert.KernelIdeal.Hand.W3_main_arg1 m ρ c),
     (h c _ (Cert.KernelIdeal.Hand.mem_uc Cert.KernelIdeal.main_arg2 (by decide))).trans (Cert.KernelIdeal.Hand.W3_main_arg2 m ρ c),
     (h c _ (Cert.KernelIdeal.Hand.mem_uc Cert.KernelIdeal.main_arg3 (by decide))).trans (Cert.KernelIdeal.Hand.W3_main_arg3 m ρ c)⟩)
    (Cert.KernelIdeal.Hand.run_main (F := Ideal) m ρ)

/-- The reference's frame: its host run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- One occurrence of the named inverse temperature: the table gives the name the exact reciprocal. -/
theorem inv_temp_stmt : IdealRules.named_const.Statement Cert.KernelIdeal.κ "inv_temp" .f32 0x41649249#32 ((134217728 / 9395241 : ℝ) : EReal) :=
  IdealRules.named_const.statement Cert.KernelIdeal.κ "inv_temp" .f32 0x41649249#32 ((134217728 / 9395241 : ℝ) : EReal) rfl

theorem preserves : Cert.preserves_Kernel_KernelIdeal :=
  ⟨inv_temp_stmt, inv_temp_stmt, inv_temp_stmt, inv_temp_stmt, inv_temp_stmt, inv_temp_stmt, inv_temp_stmt, inv_temp_stmt⟩

/-- Both idealized programs, from memories agreeing on the arguments, end with one scalar. -/
theorem algebraic : Cert.algebraic_KernelIdeal_ReferenceIdeal := by
  intro m ρ m' ρ' hpre hagree
  refine ⟨fun c => Cert.KernelIdeal.Hand.W3 (F := Ideal) m ρ c (Proc.devRef .tc Cert.KernelIdeal.main_v11), ?_, ?_⟩
  · exact (θ_run Cert.KernelIdeal.defs _ _).mono (fun r h c =>
      ⟨h c _ (Cert.KernelIdeal.Hand.mem_uc Cert.KernelIdeal.main_v11 (by decide)),
       (h c _ (Cert.KernelIdeal.Hand.mem_uc Cert.KernelIdeal.main_arg0 (by decide))).trans (Cert.KernelIdeal.Hand.W3_main_arg0 m ρ c),
       (h c _ (Cert.KernelIdeal.Hand.mem_uc Cert.KernelIdeal.main_arg1 (by decide))).trans (Cert.KernelIdeal.Hand.W3_main_arg1 m ρ c),
       (h c _ (Cert.KernelIdeal.Hand.mem_uc Cert.KernelIdeal.main_arg2 (by decide))).trans (Cert.KernelIdeal.Hand.W3_main_arg2 m ρ c),
       (h c _ (Cert.KernelIdeal.Hand.mem_uc Cert.KernelIdeal.main_arg3 (by decide))).trans (Cert.KernelIdeal.Hand.W3_main_arg3 m ρ c)⟩)
      (Cert.KernelIdeal.Hand.run_main (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v46_eq, (hagree c).1, (hagree c).2.1, (hagree c).2.2.1, (hagree c).2.2.2]
    exact (Cert.Bridge.result_eq m ρ c (hpre c)).symm

theorem claim : Cert.Claim :=
  ⟨Cert.Kernel.Gen.facts, Cert.KernelIdeal.Gen.facts, Cert.ReferenceIdeal.Gen.facts, Cert.Pre_finite_inputs.Gen.facts,
   frame_k, frame_ki, frame_ri, preserves, algebraic⟩

end Cert.Proof

end
